-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S4096x3 : Shape := ⟨2, ![4096, 3]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) (main_arg2 : IVec S4096x3 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x3 : Shape := ⟨2, ![4096, 3]⟩
abbrev S_ : Shape := ⟨0, ![]⟩
abbrev S4096x1 : Shape := ⟨2, ![4096, 1]⟩
abbrev S1x4096 : Shape := ⟨2, ![1, 4096]⟩
abbrev S512x1 : Shape := ⟨2, ![512, 1]⟩
abbrev S512x512 : Shape := ⟨2, ![512, 512]⟩
abbrev S1x512 : Shape := ⟨2, ![1, 512]⟩
abbrev S512 : Shape := ⟨1, ![512]⟩
abbrev S1x1 : Shape := ⟨2, ![1, 1]⟩
abbrev S1 : Shape := ⟨1, ![1]⟩

abbrev nBuf : Space → Nat
  | .hbm => 90
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x3, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .bf16⟩
  | .hbm, ⟨14, _⟩ => ⟨S1x4096, .i32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .i1⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096x1, .i32⟩
  | .hbm, ⟨51, _⟩ => ⟨S4096, .i32⟩
  | .hbm, ⟨52, _⟩ => ⟨S4096x1, .i32⟩
  | .hbm, ⟨53, _⟩ => ⟨S4096, .i32⟩
  | .hbm, ⟨54, _⟩ => ⟨S4096x1, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096x512, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x512, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x512, .f32⟩
  | .hbm, ⟨83, _⟩ => ⟨S1x1, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S4096x512, .bf16⟩
  | .local _ .vmem, ⟨1, _⟩ => ⟨S1x4096, .i32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x1, .f32⟩
  | .local _ .vmem, ⟨15, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_c_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_13 : Ref sig .tc := ⟨.hbm, 74, rfl⟩
abbrev main_v52 : Ref sig .tc := ⟨.hbm, 75, rfl⟩
abbrev main_v53 : Ref sig .tc := ⟨.hbm, 76, rfl⟩
abbrev main_c_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 (i : grid0.Coords) : BitVec 32 :=
  let arg1 : BitVec 32 := BitVec.ofNat 32 (i 1).val
  let c512_i32_0 : BitVec 32 := 512#32
  let v2 : BitVec 32 := Scalar.muli arg1 c512_i32_0
  v2
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c512_i32_0 : BitVec 32 := 512#32
  let v2 : BitVec 32 := Scalar.muli arg1 c512_i32_0
  let v3 : BitVec 32 := v2
  let v7 : Index := Scalar.indexCast v3
  let c0_1 : Index := 0#32
  ![v7.toNat, 0]
def k0_off3 (i : grid0.Coords) : Fin 2 → Nat :=
  let c0_3 : Index := 0#32
  let arg0 : BitVec 32 := BitVec.ofNat 32 (i 0).val
  let c512_i32 : BitVec 32 := 512#32
  let v0 : BitVec 32 := Scalar.muli arg0 c512_i32
  let v1 : BitVec 32 := v0
  let v14 : Index := Scalar.indexCast v1
  ![0, v14.toNat]
def k0_off4 (i : grid0.Coords) : Fin 2 → Nat :=
  let c0_4 : Index := 0#32
  let arg1 : BitVec 32 := BitVec.ofNat 32 (i 1).val
  let c512_i32_0 : BitVec 32 := 512#32
  let v2 : BitVec 32 := Scalar.muli arg1 c512_i32_0
  let v3 : BitVec 32 := v2
  let v18 : Index := Scalar.indexCast v3
  ![0, v18.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_16 : BitVec 32 := 0#32
  let v37 : BitVec 1 := Scalar.cmpi .ne v36 c0_i32_16
  v37

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bitsLt_bf16_f32 : FTy.bits .bf16 < FTy.bits .f32
  shapeCasts_S4096_S1x4096 : S4096.ShapeCasts S1x4096
  h_S512x512 : 0 < S512x512.numel
  shapeCasts_S512x512_S512x512 : S512x512.ShapeCasts S512x512
  transposes_S512x512_p1_0_S512x512 : S512x512.Transposes [1, 0] S512x512
  h_S1x512 : 0 < S1x512.numel
  shapeCasts_S1x512_S1x512 : S1x512.ShapeCasts S1x512
  transposes_S1x512_p1_0_S512x1 : S1x512.Transposes [1, 0] S512x1
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S4096x1_S4096 : S4096x1.ShapeCasts S4096
  bcast_S_S4096 : S_.BroadcastsInDim S4096 (![] : Fin 0 → Fin S4096.rank)
  reducesTo_S4096_S_d0 : S4096.ReducesTo [0] S_
  slices_S4096x3_S4096x1_0_0 : S4096x3.Slices ![0, 0] S4096x1
  slices_S4096x3_S4096x1_0_1 : S4096x3.Slices ![0, 1] S4096x1
  slices_S4096x3_S4096x1_0_2 : S4096x3.Slices ![0, 2] S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  reduces_S512x1_S1 : S512x1.Reduces [0] S1
  shapeCasts_S1_S1x1 : S1.ShapeCasts S1x1
  shapeCasts_S1x1_S_ : S1x1.ShapeCasts S_
  dot_S512x512_S512x512_S512x512_1_0_0_1_n_n_wf : DotDims.WF S512x512 S512x512 S512x512 [1] [0] [0] [1] [] []
  gather_S4096x512_S4096x1_S4096x512_1_0_n_n_0_1_1512_wf : GatherDims.WF S4096x512 S4096x1 S4096x512 [1] [0] [] [0] [] 1 ![1, 512]
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x512.size a ≤ S4096x512.size a
  k0_off2_inb : ∀ i : grid0.Coords, ∀ a, (k0_off2 i) a + S512x512.size a ≤ S4096x512.size a
  k0_off3_inb : ∀ i : grid0.Coords, ∀ a, (k0_off3 i) a + S1x512.size a ≤ S1x4096.size a
  k0_off4_inb : ∀ i : grid0.Coords, ∀ a, (k0_off4 i) a + S1x512.size a ≤ S1x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .i32 = 32 ∨ (Rect.block (s := S1x4096) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .f32 = 32 ∨ (Rect.block (s := S4096x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x512.size a
  hwx1_2 : ∀ i : grid1.Coords, EltTy.bits .f32 = 32 ∨ (Rect.block (s := S4096x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def gather_S4096x512_S4096x1_S4096x512_1_0_n_n_0_1_1512 : GatherDims S4096x512 S4096x1 S4096x512 where
  offsetDims := [1]
  collapsedSliceDims := [0]
  operandBatchingDims := []
  startIndicesBatchingDims := []
  startIndexMap := [0]
  indexVectorDim := 1
  sliceSizes := ![1, 512]
  wf := gather_S4096x512_S4096x1_S4096x512_1_0_n_n_0_1_1512_wf

abbrev win0_0 : Pipeline.Window sig grid0 :=
  Pipeline.Window.ofSpec (Memref.whole main_v8) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S4096x3 : Shape := ⟨2, ![4096, 3]⟩
abbrev S_ : Shape := ⟨0, ![]⟩
abbrev S4096x1 : Shape := ⟨2, ![4096, 1]⟩
abbrev S512x4096 : Shape := ⟨2, ![512, 4096]⟩
abbrev S4096x4096 : Shape := ⟨2, ![4096, 4096]⟩
abbrev S1x4096 : Shape := ⟨2, ![1, 4096]⟩

abbrev nBuf : Space → Nat
  | .hbm => 137
  | .vmem => 0
  | .smem => 0
  | _ => 0

abbrev hbmTy0_0 (i : Nat) : BufTy := match i % 128 with
  | 0 => ⟨S4096x512, .f32⟩
  | 1 => ⟨S4096, .i32⟩
  | 2 => ⟨S4096x3, .i32⟩
  | 3 => ⟨S4096x512, .f32⟩
  | 4 => ⟨S_, .f32⟩
  | 5 => ⟨S4096, .f32⟩
  | 6 => ⟨S4096x1, .f32⟩
  | 7 => ⟨S4096x1, .f32⟩
  | 8 => ⟨S_, .f32⟩
  | 9 => ⟨S4096x1, .f32⟩
  | 10 => ⟨S4096x1, .f32⟩
  | 11 => ⟨S4096x512, .f32⟩
  | 12 => ⟨S4096x512, .f32⟩
  | 13 => ⟨S512x4096, .f32⟩
  | 14 => ⟨S4096x4096, .f32⟩
  | 15 => ⟨S_, .f32⟩
  | 16 => ⟨S4096x4096, .f32⟩
  | 17 => ⟨S4096x4096, .f32⟩
  | 18 => ⟨S4096x1, .i32⟩
  | 19 => ⟨S1x4096, .i32⟩
  | 20 => ⟨S4096x4096, .i32⟩
  | 21 => ⟨S4096x4096, .i32⟩
  | 22 => ⟨S4096x4096, .i1⟩
  | 23 => ⟨S4096x4096, .f32⟩
  | 24 => ⟨S4096x4096, .i32⟩
  | 25 => ⟨S4096x4096, .i32⟩
  | 26 => ⟨S_, .i32⟩
  | 27 => ⟨S4096x4096, .i32⟩
  | 28 => ⟨S4096x4096, .i32⟩
  | 29 => ⟨S4096x4096, .i1⟩
  | 30 => ⟨S4096x4096, .f32⟩
  | 31 => ⟨S_, .f32⟩
  | 32 => ⟨S4096x4096, .f32⟩
  | 33 => ⟨S4096x4096, .f32⟩
  | 34 => ⟨S4096x4096, .f32⟩
  | 35 => ⟨S4096x4096, .f32⟩
  | 36 => ⟨S4096x4096, .f32⟩
  | 37 => ⟨S_, .f32⟩
  | 38 => ⟨S4096, .f32⟩
  | 39 => ⟨S_, .f32⟩
  | 40 => ⟨S4096, .f32⟩
  | 41 => ⟨S_, .f32⟩
  | 42 => ⟨S4096, .f32⟩
  | 43 => ⟨S4096, .f32⟩
  | 44 => ⟨S4096, .f32⟩
  | 45 => ⟨S_, .f32⟩
  | 46 => ⟨S4096, .f32⟩
  | 47 => ⟨S4096, .f32⟩
  | 48 => ⟨S4096, .f32⟩
  | 49 => ⟨S4096, .f32⟩
  | 50 => ⟨S_, .f32⟩
  | 51 => ⟨S4096, .f32⟩
  | 52 => ⟨S_, .f32⟩
  | 53 => ⟨S4096, .f32⟩
  | 54 => ⟨S4096, .i1⟩
  | 55 => ⟨S4096, .i32⟩
  | 56 => ⟨S_, .i32⟩
  | 57 => ⟨S_, .i32⟩
  | 58 => ⟨S_, .i32⟩
  | 59 => ⟨S_, .i1⟩
  | 60 => ⟨S_, .f32⟩
  | 61 => ⟨S_, .f32⟩
  | 62 => ⟨S4096, .f32⟩
  | 63 => ⟨S4096, .f32⟩
  | 64 => ⟨S_, .f32⟩
  | 65 => ⟨S_, .f32⟩
  | 66 => ⟨S_, .i32⟩
  | 67 => ⟨S_, .i32⟩
  | 68 => ⟨S_, .f32⟩
  | 69 => ⟨S_, .f32⟩
  | 70 => ⟨S_, .f32⟩
  | 71 => ⟨S_, .f32⟩
  | 72 => ⟨S4096x1, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096x512, .f32⟩
  | 83 => ⟨S4096x1, .i32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x512, .f32⟩
  | 94 => ⟨S4096x1, .i32⟩
  | 95 => ⟨S4096, .i32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x512, .f32⟩
  | 105 => ⟨S4096x512, .f32⟩
  | 106 => ⟨S_, .f32⟩
  | 107 => ⟨S4096x512, .f32⟩
  | 108 => ⟨S4096x512, .f32⟩
  | 109 => ⟨S4096x512, .f32⟩
  | 110 => ⟨S_, .f32⟩
  | 111 => ⟨S4096, .f32⟩
  | 112 => ⟨S4096, .f32⟩
  | 113 => ⟨S4096x512, .f32⟩
  | 114 => ⟨S_, .f32⟩
  | 115 => ⟨S4096x512, .f32⟩
  | 116 => ⟨S4096x512, .f32⟩
  | 117 => ⟨S4096x512, .f32⟩
  | 118 => ⟨S_, .f32⟩
  | 119 => ⟨S4096, .f32⟩
  | 120 => ⟨S4096, .f32⟩
  | 121 => ⟨S4096, .f32⟩
  | 122 => ⟨S_, .f32⟩
  | 123 => ⟨S4096, .f32⟩
  | 124 => ⟨S4096, .f32⟩
  | 125 => ⟨S_, .f32⟩
  | 126 => ⟨S4096, .f32⟩
  | 127 => ⟨S4096, .f32⟩
  | _ => ⟨S4096x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_cst_10 : Ref sig .tc := ⟨.hbm, 60, rfl⟩
abbrev main_call1_v0 : Ref sig .tc := ⟨.hbm, 61, rfl⟩
abbrev main_call1_v1 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_c_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_14 : Ref sig .tc := ⟨.hbm, 74, rfl⟩
abbrev main_v49 : Ref sig .tc := ⟨.hbm, 75, rfl⟩
abbrev main_v50 : Ref sig .tc := ⟨.hbm, 76, rfl⟩
abbrev main_c_15 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_16 : Ref sig .tc := ⟨.hbm, 85, rfl⟩
abbrev main_v58 : Ref sig .tc := ⟨.hbm, 86, rfl⟩
abbrev main_v59 : Ref sig .tc := ⟨.hbm, 87, rfl⟩
abbrev main_c_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_18 : Ref sig .tc := ⟨.hbm, 96, rfl⟩
abbrev main_v67 : Ref sig .tc := ⟨.hbm, 97, rfl⟩
abbrev main_v68 : Ref sig .tc := ⟨.hbm, 98, rfl⟩
abbrev main_c_19 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_call3_v0 : Ref sig .tc := ⟨.hbm, 109, rfl⟩
abbrev main_call3_cst : Ref sig .tc := ⟨.hbm, 110, rfl⟩
abbrev main_call3_v1 : Ref sig .tc := ⟨.hbm, 111, rfl⟩
abbrev main_v77 : Ref sig .tc := ⟨.hbm, 112, rfl⟩
abbrev main_v78 : Ref sig .tc := ⟨.hbm, 113, rfl⟩
abbrev main_cst_21 : Ref sig .tc := ⟨.hbm, 114, rfl⟩
abbrev main_v79 : Ref sig .tc := ⟨.hbm, 115, rfl⟩
abbrev main_v80 : Ref sig .tc := ⟨.hbm, 116, rfl⟩
abbrev main_call4_v0 : Ref sig .tc := ⟨.hbm, 117, rfl⟩
abbrev main_call4_cst : Ref sig .tc := ⟨.hbm, 118, rfl⟩
abbrev main_call4_v1 : Ref sig .tc := ⟨.hbm, 119, rfl⟩
abbrev main_v81 : Ref sig .tc := ⟨.hbm, 120, rfl⟩
abbrev main_v82 : Ref sig .tc := ⟨.hbm, 121, rfl⟩
abbrev main_cst_22 : Ref sig .tc := ⟨.hbm, 122, rfl⟩
abbrev main_v83 : Ref sig .tc := ⟨.hbm, 123, rfl⟩
abbrev main_v84 : Ref sig .tc := ⟨.hbm, 124, rfl⟩
abbrev main_cst_23 : Ref sig .tc := ⟨.hbm, 125, rfl⟩
abbrev main_v85 : Ref sig .tc := ⟨.hbm, 126, rfl⟩
abbrev main_v86 : Ref sig .tc := ⟨.hbm, 127, rfl⟩
abbrev main_cst_24 : Ref sig .tc := ⟨.hbm, 128, rfl⟩
abbrev main_v87 : Ref sig .tc := ⟨.hbm, 129, rfl⟩
abbrev main_cst_25 : Ref sig .tc := ⟨.hbm, 130, rfl⟩
abbrev main_v88 : Ref sig .tc := ⟨.hbm, 131, rfl⟩
abbrev main_cst_26 : Ref sig .tc := ⟨.hbm, 132, rfl⟩
abbrev main_v89 : Ref sig .tc := ⟨.hbm, 133, rfl⟩
abbrev main_cst_27 : Ref sig .tc := ⟨.hbm, 134, rfl⟩
abbrev main_v90 : Ref sig .tc := ⟨.hbm, 135, rfl⟩
abbrev main_v91 : Ref sig .tc := ⟨.hbm, 136, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  natLt_1_32 : 1 < 32
  reducesTo_S4096_S_d0 : S4096.ReducesTo [0] S_
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  bcast_S_S4096x512 : S_.BroadcastsInDim S4096x512 (![] : Fin 0 → Fin S4096x512.rank)
  dot_S4096x512_S512x4096_S4096x4096_1_0_0_1_n_n_wf : DotDims.WF S4096x512 S512x4096 S4096x4096 [1] [0] [0] [1] [] []
  gather_S4096x512_S4096x1_S4096x512_1_0_n_n_0_1_1512_wf : GatherDims.WF S4096x512 S4096x1 S4096x512 [1] [0] [] [0] [] 1 ![1, 512]

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def gather_S4096x512_S4096x1_S4096x512_1_0_n_n_0_1_1512 : GatherDims S4096x512 S4096x1 S4096x512 where
  offsetDims := [1]
  collapsedSliceDims := [0]
  operandBatchingDims := []
  startIndicesBatchingDims := []
  startIndexMap := [0]
  indexVectorDim := 1
  sliceSizes := ![1, 512]
  wf := gather_S4096x512_S4096x1_S4096x512_1_0_n_n_0_1_1512_wf

class Facts : Prop extends Facts₀ where

variable [Facts]
-- ==== Proof.KReg0.lean ====
/- Region 0 (the pairwise-similarity kernel, grid 8 × 8) at any float instance, from the buffer contents
   `V` the region is entered with: what each output block holds after every grid point, the pipeline's proof
   data, and the body obligation. -/
import proofs.«157248_j13683765805398_1_alg».proof.Proof.Gen.Kernel.Launch
import proofs.«157248_j13683765805398_1_alg».proof.Proof.Gen.Kernel.Skeleton
import proofs.«157248_j13683765805398_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch condition -/

/-- The condition of the body's one conditional, from the grid coordinates: the column-tile is the first. -/
abbrev cond0 (i : grid0.Coords) : Prop :=
  (Scalar.cmpi .ne (Scalar.extui (Scalar.cmpi .eq (BitVec.ofNat 32 (i 1).val) 0#32)) 0#32) = 1#1

/-- It holds at the first point of each row-tile, and only there (decided over the 64 points). -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point -/

/-- One staging buffer of each output window, through which its contents are stated (the choice does not matter:
    a covering list of writes reads the same through any view of the shape). -/
abbrev VO0_2 : View sig .tc .vmem S512x1 .f32 := (Memref.whole cc0_stg2_0 : Memref sig .tc .vmem S512x1 .f32).view
abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view

/-- Each window's current staging memref at point t, as the pipeline passes it to the body, and its wholeness. -/
abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)

/-! ## The body on any whole staging memrefs, case by case -/

set_option maxHeartbeats 1000000 in
/-- CASE A (the column-tile is the first: the reset is taken). On whole staging memrefs, the two inputs' at their
    contents and the three outputs' at anything, the body runs to the continuation holding the inputs' as they were
    and each output's buffer with its pieces written (last first): the zero block, then the tile sum added to it
    read back. The pieces are the witness. -/
noncomputable def kernelRun0_A (c : Dev nD) (i : grid0.Coords)
    (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) :
    Σ' (L2 : List (View.Piece (Elt F) S512x1 .f32)), Σ' (L3 : List (View.Piece (Elt F) S512x1 .f32)), { L4 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

set_option maxHeartbeats 1000000 in
/-- CASE B (a later column-tile: no reset). On whole staging memrefs, the two inputs' at their contents and the
    three outputs' at their running contents, the body runs to the continuation holding the inputs' as they were and
    each output's buffer with its one piece written: the tile sum added to the running contents. -/
noncomputable def kernelRun0_B (c : Dev nD) (i : grid0.Coords)
    (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32)
    (xo2 : Vec F S512x1 .f32) (xo3 : Vec F S512x1 .f32) (xo4 : Vec F S512x1 .f32) :
    Σ' (L2 : List (View.Piece (Elt F) S512x1 .f32)), Σ' (L3 : List (View.Piece (Elt F) S512x1 .f32)), { L4 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-! ## What each case leaves in the outputs -/

/-- Case A's pieces for each output tile its block (the later store is the whole block), so they cover it. -/
theorem cover0_A_2 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S512x1.size (by sl_kernel_rfl) y
theorem cover0_A_3 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S512x1.size (by sl_kernel_rfl) y
theorem cover0_A_4 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S512x1.size (by sl_kernel_rfl) y

/-- Case B's one piece for each output is the whole block, so it covers it. -/
theorem cover0_B_2 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) (y : S512x1.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S512x1.size (by sl_kernel_rfl) y
theorem cover0_B_3 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) (y : S512x1.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S512x1.size (by sl_kernel_rfl) y
theorem cover0_B_4 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) (y : S512x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S512x1.size (by sl_kernel_rfl) y

/-- What case A leaves in the three outputs' staging buffers at point t: each one's pieces read back over junk. -/
def outA (c : Dev nD) (t : Fin cfg0.N) (h0 : t.val % 8 = 0) : Vec F S512x1 .f32 × Vec F S512x1 .f32 × Vec F S512x1 .f32 :=
  (VO0_2.read (Elt F) (VO0_2.writes (Elt F) VO0_2.junk
      (kernelRun0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t)).1),
   VO0_3.read (Elt F) (VO0_3.writes (Elt F) VO0_3.junk
      (kernelRun0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t)).2.1),
   VO0_4.read (Elt F) (VO0_4.writes (Elt F) VO0_4.junk
      (kernelRun0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t)).2.2.1))

/-- What case B leaves in them at point t, over the running contents p the point before left. -/
def outB (c : Dev nD) (t : Fin cfg0.N) (h0 : ¬t.val % 8 = 0) (p : Vec F S512x1 .f32 × Vec F S512x1 .f32 × Vec F S512x1 .f32) :
    Vec F S512x1 .f32 × Vec F S512x1 .f32 × Vec F S512x1 .f32 :=
  (VO0_2.read (Elt F) (VO0_2.writes (Elt F) VO0_2.junk
      (kernelRun0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2).1),
   VO0_3.read (Elt F) (VO0_3.writes (Elt F) VO0_3.junk
      (kernelRun0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2).2.1),
   VO0_4.read (Elt F) (VO0_4.writes (Elt F) VO0_4.junk
      (kernelRun0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2).2.2.1))

/-! ## What the outputs hold after each point -/

/-- What the three output blocks (positive sum, total sum, positive count) hold after the body at position `n`. -/
def outsAt0 (c : Dev nD) : (n : ℕ) → n < cfg0.N → Vec F S512x1 .f32 × Vec F S512x1 .f32 × Vec F S512x1 .f32
  | 0, hn => outA V c ⟨0, hn⟩ (Nat.zero_mod _)
  | n + 1, hn =>
    if h0 : (n + 1) % 8 = 0 then outA V c ⟨n + 1, hn⟩ h0
    else outB V c ⟨n + 1, hn⟩ h0 (outsAt0 c n (Nat.lt_of_succ_lt hn))

/-- At a first column-tile the outputs hold what case A leaves. -/
theorem outsAt0_A (c : Dev nD) (t : Fin cfg0.N) (h0 : t.val % 8 = 0) :
    outsAt0 V c t.val t.isLt = outA V c t h0 := by
  obtain ⟨n, hn⟩ := t
  cases n with
  | zero => exact rfl
  | succ n => exact (dif_pos h0).trans rfl

/-- At a later column-tile they hold what case B leaves over what the point before left. -/
theorem outsAt0_B (c : Dev nD) (t : Fin cfg0.N) (h0 : ¬t.val % 8 = 0) :
    outsAt0 V c t.val t.isLt = outB V c t h0 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

/-- Each input's staging buffer holds its block at every point, fetched there or not: unfetched, the block index has
    not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At a later column-tile each output's staging buffer holds what the body left at the point before: the point is
    not the first, and the buffer was not written back between (the point before is no last column-tile). -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]
theorem before0_3_B (c : Dev nD) (t : Fin cfg0.N) (h0 : ¬t.val % 8 = 0) (d) :
    (dat0 V c).before 3 t d = (outsAt0 V c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dat0]
theorem before0_4_B (c : Dev nD) (t : Fin cfg0.N) (h0 : ¬t.val % 8 = 0) (d) :
    (dat0 V c).before 4 t d = (outsAt0 V c (t.val - 1) (Nat.lt_of_le_of_lt (Nat.sub_le _ _) t.isLt)).2.2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point t (the obligation's precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form says which case the point is in; at a
    later column-tile each output's memref holds what the point before left; so that case's run applies. The
    invariant passes through unread and the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 8 = 0
  · rw [outsAt0_A V c t h0]
    unfold outA; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B V c t h0]
    simp only [before0_2_B V c t h0, before0_3_B V c t h0, before0_4_B V c t h0]
    unfold outB; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## What the blocks hold, over the payloads -/

theorem hz : (![0, 0] : Fin 2 → Nat) = fun _ => 0 := funext fun a => by fin_cases a <;> rfl

/-- The body's four loads at coordinates i, of table contents x0 and label contents x1: the row-tile's and the
    column-tile's 512 rows of the table, the row-tile's and the column-tile's 512 labels. -/
abbrev ldTabRow (i : grid0.Coords) (x0 : Vec F S4096x512 .bf16) : Vec F S512x512 .bf16 :=
  View.ld x0 (Rect.unit (s := S4096x512) (k0_off1 i) S512x512.size (k0_off1_inb i))
abbrev ldTabCol (i : grid0.Coords) (x0 : Vec F S4096x512 .bf16) : Vec F S512x512 .bf16 :=
  View.ld x0 (Rect.unit (s := S4096x512) (k0_off2 i) S512x512.size (k0_off2_inb i))
abbrev ldLabRow (i : grid0.Coords) (x1 : Vec F S1x4096 .i32) : Vec F S1x512 .i32 :=
  View.ld x1 (Rect.unit (s := S1x4096) (k0_off3 i) S1x512.size (k0_off3_inb i))
abbrev ldLabCol (i : grid0.Coords) (x1 : Vec F S1x4096 .i32) : Vec F S1x512 .i32 :=
  View.ld x1 (Rect.unit (s := S1x4096) (k0_off4 i) S1x512.size (k0_off4_inb i))

/-- CASE A, output by output: the later store covers, its payload the tile sum added to the zero block read back. -/
theorem pieceA_2 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) :
    VO0_2.read (Elt F) (VO0_2.writes (Elt F) VO0_2.junk (kernelRun0_A c i arg2 harg2 arg3 harg3 arg4 harg4 arg5 harg5 arg6 harg6 hc0 x0 x1).1)
      = k0_pay4 (k0_pay9 i (ldTabRow i x0) (ldTabCol i x0) (ldLabRow i x1) (ldLabCol i x1)) (k0_pay1 (F := F)) := by
  rw [View.read_writes_eq_canon _ _ _ (cover0_A_2 c i arg2 harg2 arg3 harg3 arg4 harg4 arg5 harg5 arg6 harg6 hc0 x0 x1)]
  unfold kernelRun0_A
  dsimp only
  sl_unfold_run_names
  rw [View.canon_cons_unit_zero (S := S512x1) hz, View.readCov_unit_zero (S := S512x1) _ hz]
  simp only [View.readAt_eq_ld, harg2.read_unread, harg3.read_unread]
theorem pieceA_3 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) :
    VO0_3.read (Elt F) (VO0_3.writes (Elt F) VO0_3.junk (kernelRun0_A c i arg2 harg2 arg3 harg3 arg4 harg4 arg5 harg5 arg6 harg6 hc0 x0 x1).2.1)
      = k0_pay5 (k0_pay10 (ldTabRow i x0) (ldTabCol i x0)) (k0_pay2 (F := F)) := by
  rw [View.read_writes_eq_canon _ _ _ (cover0_A_3 c i arg2 harg2 arg3 harg3 arg4 harg4 arg5 harg5 arg6 harg6 hc0 x0 x1)]
  unfold kernelRun0_A
  dsimp only
  sl_unfold_run_names
  rw [View.canon_cons_unit_zero (S := S512x1) hz, View.readCov_unit_zero (S := S512x1) _ hz]
  simp only [View.readAt_eq_ld, harg2.read_unread, harg3.read_unread]
theorem pieceA_4 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) :
    VO0_4.read (Elt F) (VO0_4.writes (Elt F) VO0_4.junk (kernelRun0_A c i arg2 harg2 arg3 harg3 arg4 harg4 arg5 harg5 arg6 harg6 hc0 x0 x1).2.2.1)
      = k0_pay6 (k0_pay11 i (ldLabRow i x1) (ldLabCol i x1)) (k0_pay3 (F := F)) := by
  rw [View.read_writes_eq_canon _ _ _ (cover0_A_4 c i arg2 harg2 arg3 harg3 arg4 harg4 arg5 harg5 arg6 harg6 hc0 x0 x1)]
  unfold kernelRun0_A
  dsimp only
  sl_unfold_run_names
  rw [View.canon_cons_unit_zero (S := S512x1) hz, View.readCov_unit_zero (S := S512x1) _ hz]
  simp only [View.readAt_eq_ld, harg2.read_unread, harg3.read_unread]

/-- CASE B, output by output: the one store covers, its payload the tile sum added to the running contents. -/
theorem pieceB_2 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) :
    VO0_2.read (Elt F) (VO0_2.writes (Elt F) VO0_2.junk (kernelRun0_B c i arg2 harg2 arg3 harg3 arg4 harg4 arg5 harg5 arg6 harg6 hc0 x0 x1 xo2 xo3 xo4).1)
      = k0_pay4 (k0_pay9 i (ldTabRow i x0) (ldTabCol i x0) (ldLabRow i x1) (ldLabCol i x1)) xo2 := by
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_run_names
  rw [View.canon_unit_zero hz]
  simp only [View.readAt_eq_ld, harg2.read_unread, harg3.read_unread, harg4.read_unread, View.ld_unit_zero (S := S512x1) hz]
theorem pieceB_3 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) :
    VO0_3.read (Elt F) (VO0_3.writes (Elt F) VO0_3.junk (kernelRun0_B c i arg2 harg2 arg3 harg3 arg4 harg4 arg5 harg5 arg6 harg6 hc0 x0 x1 xo2 xo3 xo4).2.1)
      = k0_pay5 (k0_pay10 (ldTabRow i x0) (ldTabCol i x0)) xo3 := by
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_run_names
  rw [View.canon_unit_zero hz]
  simp only [View.readAt_eq_ld, harg2.read_unread, harg3.read_unread, harg5.read_unread, View.ld_unit_zero (S := S512x1) hz]
theorem pieceB_4 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) :
    VO0_4.read (Elt F) (VO0_4.writes (Elt F) VO0_4.junk (kernelRun0_B c i arg2 harg2 arg3 harg3 arg4 harg4 arg5 harg5 arg6 harg6 hc0 x0 x1 xo2 xo3 xo4).2.2.1)
      = k0_pay6 (k0_pay11 i (ldLabRow i x1) (ldLabCol i x1)) xo4 := by
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_run_names
  rw [View.canon_unit_zero hz]
  simp only [View.readAt_eq_ld, harg2.read_unread, harg3.read_unread, harg6.read_unread, View.ld_unit_zero (S := S512x1) hz]

/-! ## The accumulation, point by point -/

/-- The three tile sums of point t — of the positive pairs' exponentials, of all pairs' exponentials, of the positive
    pairs — over the body's four loads of the two input blocks as the point finds them. -/
def tile0_2 (c : Dev nD) (t : Fin cfg0.N) : FVec F S512x1 .f32 :=
  k0_pay9 (grid0.coords t) (ldTabRow (grid0.coords t) (iblk0 V c 0 t)) (ldTabCol (grid0.coords t) (iblk0 V c 0 t))
    (ldLabRow (grid0.coords t) (iblk0 V c 1 t)) (ldLabCol (grid0.coords t) (iblk0 V c 1 t))
def tile0_3 (c : Dev nD) (t : Fin cfg0.N) : FVec F S512x1 .f32 :=
  k0_pay10 (ldTabRow (grid0.coords t) (iblk0 V c 0 t)) (ldTabCol (grid0.coords t) (iblk0 V c 0 t))
def tile0_4 (c : Dev nD) (t : Fin cfg0.N) : FVec F S512x1 .f32 :=
  k0_pay11 (grid0.coords t) (ldLabRow (grid0.coords t) (iblk0 V c 1 t)) (ldLabCol (grid0.coords t) (iblk0 V c 1 t))

/-- What case A leaves: each tile sum added to the zero block. -/
theorem outA_eq (c : Dev nD) (t : Fin cfg0.N) (h0 : t.val % 8 = 0) :
    outA V c t h0 = (k0_pay4 (tile0_2 V c t) (k0_pay1 (F := F)), k0_pay5 (tile0_3 V c t) (k0_pay2 (F := F)), k0_pay6 (tile0_4 V c t) (k0_pay3 (F := F))) := by
  unfold outA
  rw [pieceA_2 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t),
    pieceA_3 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t),
    pieceA_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t)]
  rfl

/-- What case B leaves over running contents p: each tile sum added to its component of p. -/
theorem outB_eq (c : Dev nD) (t : Fin cfg0.N) (h0 : ¬t.val % 8 = 0) (p : Vec F S512x1 .f32 × Vec F S512x1 .f32 × Vec F S512x1 .f32) :
    outB V c t h0 p = (k0_pay4 (tile0_2 V c t) p.1, k0_pay5 (tile0_3 V c t) p.2.1, k0_pay6 (tile0_4 V c t) p.2.2) := by
  unfold outB
  rw [pieceB_2 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2,
    pieceB_3 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2,
    pieceB_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2]
  rfl

/-- THE RESET: after the body at a first column-tile (t % 8 = 0) the three blocks hold the point's tile sums added to
    the zero blocks. -/
theorem outsAt0_reset (c : Dev nD) (t : Fin cfg0.N) (h0 : t.val % 8 = 0) :
    outsAt0 V c t.val t.isLt
      = (k0_pay4 (tile0_2 V c t) (k0_pay1 (F := F)), k0_pay5 (tile0_3 V c t) (k0_pay2 (F := F)), k0_pay6 (tile0_4 V c t) (k0_pay3 (F := F))) :=
  (outsAt0_A V c t h0).trans (outA_eq V c t h0)

/-- THE STEP: after the body at a later column-tile (t % 8 ≠ 0) they hold the point's tile sums added to what the
    point before left. -/
theorem outsAt0_step (c : Dev nD) (t : Fin cfg0.N) (h0 : ¬t.val % 8 = 0) :
    outsAt0 V c t.val t.isLt
      = (k0_pay4 (tile0_2 V c t) (outsAt0 V c (t.val - 1) (Nat.lt_of_le_of_lt (Nat.sub_le _ _) t.isLt)).1,
         k0_pay5 (tile0_3 V c t) (outsAt0 V c (t.val - 1) (Nat.lt_of_le_of_lt (Nat.sub_le _ _) t.isLt)).2.1,
         k0_pay6 (tile0_4 V c t) (outsAt0 V c (t.val - 1) (Nat.lt_of_le_of_lt (Nat.sub_le _ _) t.isLt)).2.2) :=
  (outsAt0_B V c t h0).trans (outB_eq V c t h0 _)

/-- The same two over positions, for an induction along one row-tile's eight points 8 i + j. -/
theorem outsAt0_reset_nat (c : Dev nD) (n : ℕ) (hn : n < cfg0.N) (h0 : n % 8 = 0) :
    outsAt0 V c n hn
      = (k0_pay4 (tile0_2 V c ⟨n, hn⟩) (k0_pay1 (F := F)), k0_pay5 (tile0_3 V c ⟨n, hn⟩) (k0_pay2 (F := F)), k0_pay6 (tile0_4 V c ⟨n, hn⟩) (k0_pay3 (F := F))) :=
  outsAt0_reset V c ⟨n, hn⟩ h0
theorem outsAt0_step_nat (c : Dev nD) (n : ℕ) (hn : n + 1 < cfg0.N) (h0 : ¬(n + 1) % 8 = 0) :
    outsAt0 V c (n + 1) hn
      = (k0_pay4 (tile0_2 V c ⟨n + 1, hn⟩) (outsAt0 V c n (Nat.lt_of_succ_lt hn)).1,
         k0_pay5 (tile0_3 V c ⟨n + 1, hn⟩) (outsAt0 V c n (Nat.lt_of_succ_lt hn)).2.1,
         k0_pay6 (tile0_4 V c ⟨n + 1, hn⟩) (outsAt0 V c n (Nat.lt_of_succ_lt hn)).2.2) :=
  outsAt0_step V c ⟨n + 1, hn⟩ h0

/-- Output by output. -/
theorem out0_2_reset (c : Dev nD) (t : Fin cfg0.N) (h0 : t.val % 8 = 0) :
    (outsAt0 V c t.val t.isLt).1 = k0_pay4 (tile0_2 V c t) (k0_pay1 (F := F)) := by rw [outsAt0_reset V c t h0]
theorem out0_3_reset (c : Dev nD) (t : Fin cfg0.N) (h0 : t.val % 8 = 0) :
    (outsAt0 V c t.val t.isLt).2.1 = k0_pay5 (tile0_3 V c t) (k0_pay2 (F := F)) := by rw [outsAt0_reset V c t h0]
theorem out0_4_reset (c : Dev nD) (t : Fin cfg0.N) (h0 : t.val % 8 = 0) :
    (outsAt0 V c t.val t.isLt).2.2 = k0_pay6 (tile0_4 V c t) (k0_pay3 (F := F)) := by rw [outsAt0_reset V c t h0]
theorem out0_2_step (c : Dev nD) (t : Fin cfg0.N) (h0 : ¬t.val % 8 = 0) :
    (outsAt0 V c t.val t.isLt).1 = k0_pay4 (tile0_2 V c t) (outsAt0 V c (t.val - 1) (Nat.lt_of_le_of_lt (Nat.sub_le _ _) t.isLt)).1 := by
  rw [outsAt0_step V c t h0]
theorem out0_3_step (c : Dev nD) (t : Fin cfg0.N) (h0 : ¬t.val % 8 = 0) :
    (outsAt0 V c t.val t.isLt).2.1 = k0_pay5 (tile0_3 V c t) (outsAt0 V c (t.val - 1) (Nat.lt_of_le_of_lt (Nat.sub_le _ _) t.isLt)).2.1 := by
  rw [outsAt0_step V c t h0]
theorem out0_4_step (c : Dev nD) (t : Fin cfg0.N) (h0 : ¬t.val % 8 = 0) :
    (outsAt0 V c t.val t.isLt).2.2 = k0_pay6 (tile0_4 V c t) (outsAt0 V c (t.val - 1) (Nat.lt_of_le_of_lt (Nat.sub_le _ _) t.isLt)).2.2 := by
  rw [outsAt0_step V c t h0]

/-- The grid's coordinates at point t: row-tile t / 8, column-tile t % 8. -/
theorem coords0 : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

end Cert.Kernel.Reg0

end
-- ==== Proof.KReg1.lean ====
/- Region 1 (the triplet-margin kernel, grid 8, a [1,1] scratch accumulator carried between points) at any float
   instance, from the buffer contents `V` the region is entered with: what the scratch holds after every grid
   point, the invariant that carries it, the pipeline's proof data, and the body obligation. -/
import proofs.«157248_j13683765805398_1_alg».proof.Proof.Gen.Kernel.Launch
import proofs.«157248_j13683765805398_1_alg».proof.Proof.Gen.Kernel.Skeleton
import proofs.«157248_j13683765805398_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two branch conditions, decided over the grid -/

/-- The condition of the reset branch (the grid coordinate is 0), as the body's scalar chain computes it. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the write-out branch (the grid coordinate is 7). -/
abbrev cond1_1 (i : grid1.Coords) : Prop := k1_cond2 i = 1#1
/-- It holds at the last point only. -/
theorem hcond1_1 : ∀ t : Fin cfg1.N, cond1_1 (grid1.coords t) ↔ t.val = 7 :=
  (by decide +kernel : ∀ t : Fin grid1.N, cond1_1 (grid1.coords t) ↔ t.val = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point it is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch accumulator: a whole scoped buffer of the kernel's own. -/
abbrev scM1 : Memref sig .tc .vmem S1x1 .f32 := Memref.whole cc1_scratch0
/-- The views through which the output block's and the scratch's contents are stated. -/
abbrev VO1 : View sig .tc .vmem S1x1 .f32 := (Memref.whole cc1_stg3_0 : Memref sig .tc .vmem S1x1 .f32).view
abbrev VS1 : View sig .tc .vmem S1x1 .f32 := scM1.view

/-- The zero offsets of the body's whole-block rectangles, as a constant function. -/
theorem hz2 : (![0, 0] : Fin 2 → Nat) = fun _ => 0 := by funext a; fin_cases a <;> rfl

/-! ## The body on any whole memrefs, case by case

Each case runs the body's memory operations over the named payloads; the value a covering store leaves and a later
load reads back is read through the whole-block rectangle at zero offsets. -/

set_option maxHeartbeats 1000000 in
/-- The body at the first point (reset branch taken, write-out branch not): with the three inputs at their blocks, the
    output block at contents it hands back untouched and the scratch at anything, it leaves the scratch at the tile's
    sum added to the zero block. -/
theorem run1_A (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 x1 x2 : Vec F S512x512 .f32) (xi3 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare (k1_pay3 x0 x1 x2 (k1_pay2 (F := F)))) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS0
  ipureintro
  rw [View.read_writes_eq_canon _ _ _ (fun y => ⟨_, List.mem_cons_self, View.mem_set_unit_zero (S := S1x1) hz2 inb_S1x1_S1x1_0_0 y⟩), View.canon_cons_unit_zero hz2]
  sl_unfold_run_names
  simp only [View.readAt_eq_ld, harg1.read_unread, harg2.read_unread, harg3.read_unread, View.ld_unit_zero (S := S512x512) hz2, View.readCov_unit_zero (S := S1x1) _ hz2]

set_option maxHeartbeats 1000000 in
/-- The body at a middle point (neither branch taken): with the scratch at `xs`, it leaves the scratch at the tile's sum
    added to `xs`; the output block is handed back untouched. -/
theorem run1_B (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 x1 x2 : Vec F S512x512 .f32) (xs : Vec F S1x1 .f32) (xi3 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare (k1_pay3 x0 x1 x2 xs)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS0
  ipureintro
  rw [View.read_writes_eq_canon _ _ _ (fun y => ⟨_, List.mem_cons_self, View.mem_set_unit_zero (S := S1x1) hz2 inb_S1x1_S1x1_0_0 y⟩), View.canon_cons_unit_zero hz2]
  simp only [View.readAt_eq_ld, harg1.read_unread, harg2.read_unread, harg3.read_unread, harg5.read_unread, View.ld_unit_zero (S := S512x512) hz2, View.ld_unit_zero (S := S1x1) hz2]

set_option maxHeartbeats 1000000 in
/-- The body at the last point (write-out branch taken): with the scratch at `xs` and the output block at anything, it
    leaves the scratch at the tile's sum added to `xs` and the output block at the scaled scratch. -/
theorem run1_C (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 x1 x2 : Vec F S512x512 .f32) (xs : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare (k1_pay1 (k1_pay3 x0 x1 x2 xs)) ∗ owns (c : Thread nD τ) arg5 fullShare (k1_pay3 x0 x1 x2 xs)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg1.eq_unread hf0; obtain rfl := harg2.eq_unread hf1; obtain rfl := harg3.eq_unread hf2; obtain rfl := harg5.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    rw [View.read_writes_eq_canon _ _ _ (fun y => ⟨_, List.mem_cons_self, View.mem_set_unit_zero (S := S1x1) hz2 inb_S1x1_S1x1_0_0 y⟩), View.canon_cons_unit_zero hz2]
    simp only [View.readCov_unit_zero (S := S1x1) _ hz2, View.readAt_eq_ld, harg1.read_unread, harg2.read_unread, harg3.read_unread, harg5.read_unread, View.ld_unit_zero (S := S512x512) hz2, View.ld_unit_zero (S := S1x1) hz2]
  iexists _; isplitr
  swap; · iexact HS0
  ipureintro
  sl_unfold_run_names
  rw [View.read_writes_eq_canon _ _ _ (fun y => ⟨_, List.mem_cons_self, View.mem_set_unit_zero (S := S1x1) hz2 inb_S1x1_S1x1_0_0 y⟩), View.canon_cons_unit_zero hz2]
  simp only [View.readAt_eq_ld, harg1.read_unread, harg2.read_unread, harg3.read_unread, harg5.read_unread, View.ld_unit_zero (S := S512x512) hz2, View.ld_unit_zero (S := S1x1) hz2]

/-- What the scratch accumulator holds after the body at position `n`. -/
def accAt1 (c : Dev nD) : (n : ℕ) → n < cfg1.N → Vec F S1x1 .f32
  | 0, hn => k1_pay3 (iblk1 V c 0 ⟨0, hn⟩) (iblk1 V c 1 ⟨0, hn⟩) (iblk1 V c 2 ⟨0, hn⟩) (k1_pay2 (F := F))
  | n + 1, hn => k1_pay3 (iblk1 V c 0 ⟨n + 1, hn⟩) (iblk1 V c 1 ⟨n + 1, hn⟩) (iblk1 V c 2 ⟨n + 1, hn⟩) (accAt1 c n (Nat.lt_of_succ_lt hn))

/-- At the first point the scratch ends at the tile's sum added to the zero block. -/
theorem accAt1_first (c : Dev nD) (t : Fin cfg1.N) (h0 : t.val = 0) :
    accAt1 V c t.val t.isLt = k1_pay3 (iblk1 V c 0 t) (iblk1 V c 1 t) (iblk1 V c 2 t) (k1_pay2 (F := F)) := by
  obtain ⟨n, hn⟩ := t
  cases n with
  | zero => rfl
  | succ n => exact absurd h0 (Nat.succ_ne_zero n)

/-- At a later point it ends at the tile's sum added to what the point before left. -/
theorem accAt1_step (c : Dev nD) (t : Fin cfg1.N) (h0 : t.val ≠ 0) :
    accAt1 V c t.val t.isLt = k1_pay3 (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact absurd rfl h0
  | succ n => rfl

/-- The scoped buffers of the other region (its staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The invariant before position `n`: the other region's scoped buffers at anything, the scratch — at anything before the
    first point, afterwards at what the point before left —, and the generator register at some state. -/
def PhiS1 (c : Dev nD) : (n : ℕ) → n ≤ cfg1.N → sProp 𝕄
  | 0, _ => iprop((others1 (F := F) c ∗ (∃ d, owns (c : Thread nD τ) scM1 fullShare d)) ∗ (∃ r, prngReg c r))
  | n + 1, hn => iprop((others1 (F := F) c ∗ owns (c : Thread nD τ) scM1 fullShare (accAt1 V c n hn)) ∗ (∃ r, prngReg c r))

theorem PhiS1_zero (c : Dev nD) (n : ℕ) (h : n ≤ cfg1.N) (hz : n = 0) :
    PhiS1 V c n h = iprop((others1 (F := F) c ∗ (∃ d, owns (c : Thread nD τ) scM1 fullShare d)) ∗ (∃ r, prngReg c r)) := by
  subst hz; rfl

theorem PhiS1_succ (c : Dev nD) (n : ℕ) (hn : n < cfg1.N) :
    PhiS1 V c (n + 1) hn = iprop((others1 (F := F) c ∗ owns (c : Thread nD τ) scM1 fullShare (accAt1 V c n hn)) ∗ (∃ r, prngReg c r)) := rfl

theorem PhiS1_pos (c : Dev nD) (n : ℕ) (h : n ≤ cfg1.N) (hz : n ≠ 0) :
    PhiS1 V c n h = iprop((others1 (F := F) c ∗ owns (c : Thread nD τ) scM1 fullShare (accAt1 V c (n - 1) (by omega))) ∗ (∃ r, prngReg c r)) := by
  cases n with
  | zero => exact absurd rfl hz
  | succ n => rfl

/-- The invariant between points: the generator register, the scoped buffers of the other region at anything, and the
    scratch — at anything before the first point, at `accAt1` of the point before afterwards. -/
def Phi1 (c : Dev nD) (t : Fin (cfg1.N + 1)) : sProp 𝕄 :=
  PhiS1 V c t.val (Nat.le_of_lt_succ t.isLt)
/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (accAt1 V c t.val t.isLt)
  Φ t := Phi1 V c t
  q _ := fullShare
  owed _ := 0

theorem A_eq1 (c : Dev nD) (w : Fin cfg1.W) : (dat1 V c).A w = V c (Pipeline.arrRef spec1 w) := by
  dsimp only [dat1]

/-! ## The invariant at the ends and at a point -/

/-- The class's region invariant, with the scratch split out as a memref owned at some contents. -/
theorem PhiA1_split (c : Dev nD) :
    (Pipeline.ΦA (U := UR sig nD τ) (Val := Elt F) spec1 c : sProp 𝕄)
      ⊢ iprop((others1 (F := F) c ∗ (∃ d, owns (c : Thread nD τ) scM1 fullShare d)) ∗ (∃ r, prngReg c r)) := by
  unfold Pipeline.ΦA; rw [scopedRest1_eq]; unfold others1; simp only [scM1, owns_whole]
  iintro ⟨⟨A0, A1, A2, A3, A4, A5, A6, A7, HS⟩, Hg⟩
  isplitr [Hg]
  · isplitr [HS]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    · iexact HS
  · iexact Hg

/-- And back: the scratch's contents forgotten. -/
theorem PhiA1_join (c : Dev nD) :
    iprop((others1 (F := F) c ∗ (∃ d, owns (c : Thread nD τ) scM1 fullShare d)) ∗ (∃ r, prngReg c r))
      ⊢ (Pipeline.ΦA (U := UR sig nD τ) (Val := Elt F) spec1 c : sProp 𝕄) := by
  unfold Pipeline.ΦA; rw [scopedRest1_eq]; unfold others1; simp only [scM1, owns_whole]
  iintro ⟨⟨⟨A0, A1, A2, A3, A4, A5, A6, A7⟩, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  · iexact Hg

/-- The invariant at a point's start, restated at `t.val`. -/
theorem Phi1_castSucc (c : Dev nD) (t : Fin cfg1.N) :
    (dat1 V c).Φ t.castSucc = PhiS1 V c t.val (Nat.le_of_lt t.isLt) := by
  dsimp only [dat1, Phi1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (accAt1 V c t.val t.isLt) := by dsimp only [dat1]

/-- Each input's current staging buffer holds its block at every point: the window is fetched at every point and is uncut. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point is the first, a middle or the last one, and
    that case's run applies: the invariant hands the body the scratch (at anything at the first point, else at what the
    point before left) and takes it back at this point's contents; the output block is handed back untouched except at
    the last point, where it is left at the scaled scratch. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 8 := lt_of_lt_of_eq t.isLt (show cfg1.N = 8 from N_1)
  rw [Phi1_castSucc V c t]
  by_cases h0 : t.val = 0
  · have h1 : ¬t.val = 7 := by omega
    rw [Dat.leavesExact_idle (dat1 V c) 3 t (idleAt1_3 t (fun h => h1 ((hcond1_1 t).mp h))) (noFlush1_3 t (fun h => h1 ((hcond1_1 t).mp h)))]
    rw [PhiS1_zero V c _ _ h0, accAt1_first V c t h0]
    iintro ⟨⟨⟨HO, HS0⟩, Hg⟩, Ho, ⟨%d0, H0⟩, ⟨%d1, H1⟩, ⟨%d2, H2⟩, ⟨%d3, H3⟩⟩
    iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HO HS0 Hg]
    · isplitr [Hg]
      · isplitl [HO]; · iexact HO
        iexact HS0
      · iexact Hg
    isplitl [Ho]; · iexact Ho
    isplitl [H0]; · iexact H0
    isplitl [H1]; · iexact H1
    isplitl [H2]; · iexact H2
    iexists _; iexact H3
  · by_cases h1 : t.val = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [PhiS1_pos V c _ _ h0, accAt1_step V c t h0]
      iintro ⟨⟨⟨HO, HS0⟩, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HO HS0 Hg]
      · isplitr [Hg]
        · isplitl [HO]; · iexact HO
          iexact HS0
        · iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [PhiS1_pos V c _ _ h0, accAt1_step V c t h0]
      iintro ⟨⟨⟨HO, HS0⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HO HS0 Hg]
      · isplitr [Hg]
        · isplitl [HO]; · iexact HO
          iexact HS0
        · iexact Hg
      isplitl [Ho]; · iexact Ho
      isplitl [H0]; · iexact H0
      isplitl [H1]; · iexact H1
      isplitl [H2]; · iexact H2
      iexists _; iexact H3

/-- Entering: the class's region invariant (scoped rest at anything, generator register) yields the first invariant. -/
theorem hin1 (c : Dev nD) : (Pipeline.ΦA (U := UR sig nD τ) (Val := Elt F) spec1 c : sProp 𝕄) ⊢ (dat1 V c).Φ 0 := by
  rw [show (dat1 V c).Φ 0 = PhiS1 V c 0 (Nat.zero_le _) from rfl, PhiS1_zero V c 0 _ rfl]
  exact PhiA1_split c
/-- Leaving: the last invariant gives the class's back (the scratch forgotten). -/
theorem hout1 (c : Dev nD) : (dat1 V c).Φ (Fin.last cfg1.N) ⊢ (Pipeline.ΦA (U := UR sig nD τ) (Val := Elt F) spec1 c : sProp 𝕄) := by
  have hN : cfg1.N = 8 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  refine BIBase.Entails.trans ?_ (PhiA1_join c)
  iintro ⟨⟨HO, HS0⟩, Hg⟩
  isplitr [Hg]
  · isplitl [HO]; · iexact HO
    iexists _; iexact HS0
  · iexact Hg

theorem body_obligation1 (c : Dev nD) : BodyObligation (dat1 (F := F) V c) (defs₀ (F := F)) Variants.none () Set.univ := fun t => by
  rw [bigSep_W1, bigSep_W1]
  exact sound_body V c t

/-! ## What the scratch and the output block hold, named -/

/-- After the first point the scratch holds the first tile's sum added to the zero block. -/
theorem accAt1_zero (c : Dev nD) (h : 0 < cfg1.N) :
    accAt1 V c 0 h = k1_pay3 (iblk1 V c 0 ⟨0, h⟩) (iblk1 V c 1 ⟨0, h⟩) (iblk1 V c 2 ⟨0, h⟩) (k1_pay2 (F := F)) := rfl

/-- After point `n + 1` it holds that point's tile's sum added to what it held after point `n`. -/
theorem accAt1_succ (c : Dev nD) (n : ℕ) (h : n + 1 < cfg1.N) :
    accAt1 V c (n + 1) h = k1_pay3 (iblk1 V c 0 ⟨n + 1, h⟩) (iblk1 V c 1 ⟨n + 1, h⟩) (iblk1 V c 2 ⟨n + 1, h⟩) (accAt1 V c n (Nat.lt_of_succ_lt h)) := rfl

/-- The output block after the last point: the scaled scratch. -/
theorem out1_last (c : Dev nD) : (dat1 V c).after 3 t1_7 = k1_pay1 (accAt1 V c 7 t1_7.isLt) := by
  dsimp only [dat1]; rfl

end Cert.Kernel.Reg1

end
-- ==== Proof.KLaunch.lean ====
/- The whole program from the two regions' proof data: the contents each region leaves (its arrays at what the
   write-backs fold to, every other buffer as entered), every pipeline's proof data at its region's entry contents,
   each region as a segment between the thread states "every unscoped buffer held at the boundary's contents, the
   generator register at some state, nothing owed", and the run — every execution ends, the arguments as launched and
   the three results at the last valuation. -/
import proofs.«157248_j13683765805398_1_alg».proof.Proof.KRunCond
import proofs.«157248_j13683765805398_1_alg».proof.Proof.KReg0
import proofs.«157248_j13683765805398_1_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the regions leave -/

/-- Region 0's entry contents, read at the TensorCore's references. -/
abbrev E1 : (c : Dev nD) → (b : Ref sig .tc) → Buf (Elt F) ((c : Thread nD τ).loc b) := fun c b => V1 m c b

/-- At region 0's exit: its arrays at what the pipeline leaves (an input as entered, an output its write-backs
    folded), every other buffer as entered. -/
def W2 (c : Dev nD) : Valuation τ sig (Elt F) :=
  Pipeline.withArrays spec0 c (V1 m c) fun w => (Reg0.dat0 (E1 m) c).arrAt w cfg0.N

/-- The unknowns with region 0's outputs named (region 1's not yet). -/
def outsA : Outs (F := F) := fun _ r c => W2 m c r

/-- Region 1's entry contents: they read region 0's outputs only. -/
abbrev E7 : (c : Dev nD) → (b : Ref sig .tc) → Buf (Elt F) ((c : Thread nD τ).loc b) := fun c b => V7 m (outsA m) c b

/-- At region 1's exit, likewise. -/
def W8 (c : Dev nD) : Valuation τ sig (Elt F) :=
  Pipeline.withArrays spec1 c (V7 m (outsA m) c) fun w => (Reg1.dat1 (E7 m) c).arrAt w cfg1.N

/-- What the two regions leave: after item 1 region 0's arrays, after item 7 region 1's. -/
def outs : Outs (F := F) := fun J r c => if J = 8 then W8 m c r else W2 m c r

theorem outs_two (r : Ref sig .tc) (c : Dev nD) : outs m 2 r c = W2 m c r := if_neg (by decide)
theorem outs_eight (r : Ref sig .tc) (c : Dev nD) : outs m 8 r c = W8 m c r := if_pos rfl

/-- The valuations up to region 1's entry read the unknowns at item 1 only. -/
theorem V2_outs (c : Dev nD) : V2 m (outs m) c = V2 m (outsA m) c := by
  unfold V2; simp only [outs_two]; rfl
theorem V7_outs (c : Dev nD) : V7 m (outs m) c = V7 m (outsA m) c := by
  unfold V7 V6 V5 V4 V3; rw [V2_outs]

theorem W2_arr (c : Dev nD) (w : Fin cfg0.W) :
    W2 m c (Proc.devRef .tc (Pipeline.arrRef spec0 w)) = (Reg0.dat0 (E1 m) c).arrAt w cfg0.N := by
  unfold W2; exact Pipeline.withArrays_arr spec0 launch0.win.arr_inj c _ _ w
theorem W8_arr (c : Dev nD) (w : Fin cfg1.W) :
    W8 m c (Proc.devRef .tc (Pipeline.arrRef spec1 w)) = (Reg1.dat1 (E7 m) c).arrAt w cfg1.N := by
  unfold W8; exact Pipeline.withArrays_arr spec1 launch1.win.arr_inj c _ _ w

/-- Region 0's exit contents, read at the TensorCore's references. -/
abbrev E2 : (c : Dev nD) → (b : Ref sig .tc) → Buf (Elt F) ((c : Thread nD τ).loc b) := fun c b => V2 m (outs m) c b
/-- Region 1's exit contents. -/
abbrev E8 : (c : Dev nD) → (b : Ref sig .tc) → Buf (Elt F) ((c : Thread nD τ).loc b) := fun c b => V8 m (outs m) c b

/-! ## Each region's arrays at its exit contents -/

theorem V2_v10_0 (o : Outs (F := F)) (c : Dev nD) : V2 m o c main_v10_0 = o 2 main_v10_0 c := by
  simp only [V2, Function.update_of_ne (StableHlo.devRef_ne_of_ne (by decide) : (Proc.devRef .tc main_v10_0 : DevRef τ sig) ≠ Proc.devRef .tc main_v10_2),
    Function.update_of_ne (StableHlo.devRef_ne_of_ne (by decide) : (Proc.devRef .tc main_v10_0 : DevRef τ sig) ≠ Proc.devRef .tc main_v10_1), Function.update_self]
theorem V2_v10_1 (o : Outs (F := F)) (c : Dev nD) : V2 m o c main_v10_1 = o 2 main_v10_1 c := by
  simp only [V2, Function.update_of_ne (StableHlo.devRef_ne_of_ne (by decide) : (Proc.devRef .tc main_v10_1 : DevRef τ sig) ≠ Proc.devRef .tc main_v10_2), Function.update_self]
theorem V2_v10_2 (o : Outs (F := F)) (c : Dev nD) : V2 m o c main_v10_2 = o 2 main_v10_2 c := by
  simp only [V2, Function.update_self]
theorem V8_v59 (o : Outs (F := F)) (c : Dev nD) : V8 m o c main_v59 = o 8 main_v59 c := by
  simp only [V8, Function.update_self]

/-- At region 0's exit each of its arrays holds what the pipeline leaves: an input what it held at entry, an output
    its folded write-backs. -/
theorem hF0 (c : Dev nD) : ∀ w : Fin cfg0.W, (Reg0.dat0 (E1 m) c).arrAt w cfg0.N = E2 m c (Pipeline.arrRef spec0 w)
  | ⟨0, _⟩ => ((Reg0.dat0 (E1 m) c).arrAt_in 0 rfl _).trans ((Reg0.A_eq0 (E1 m) c 0).trans (V2_of m (outs m) c main_v8 (by decide)).symm)
  | ⟨1, _⟩ => ((Reg0.dat0 (E1 m) c).arrAt_in 1 rfl _).trans ((Reg0.A_eq0 (E1 m) c 1).trans (V2_of m (outs m) c main_v9 (by decide)).symm)
  | ⟨2, _⟩ => (W2_arr m c 2).symm.trans ((outs_two m main_v10_0 c).symm.trans (V2_v10_0 m (outs m) c).symm)
  | ⟨3, _⟩ => (W2_arr m c 3).symm.trans ((outs_two m main_v10_1 c).symm.trans (V2_v10_1 m (outs m) c).symm)
  | ⟨4, _⟩ => (W2_arr m c 4).symm.trans ((outs_two m main_v10_2 c).symm.trans (V2_v10_2 m (outs m) c).symm)
/-- and every other buffer what it held at entry. -/
theorem hrest0 (c : Dev nD) (b : Ref sig .tc) (hb : b ∉ Finset.univ.image (Pipeline.arrRef spec0)) : E2 m c b = E1 m c b :=
  V2_of m (outs m) c b fun hmem => by
    simp only [List.mem_cons, List.not_mem_nil, or_false] at hmem
    rcases hmem with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

/-- Region 1's entry contents, as the generated thread state names them (over the full unknowns). -/
abbrev E7' : (c : Dev nD) → (b : Ref sig .tc) → Buf (Elt F) ((c : Thread nD τ).loc b) := fun c b => V7 m (outs m) c b
theorem E7'_eq (c : Dev nD) (b : Ref sig .tc) : E7' m c b = E7 m c b := by
  show V7 m (outs m) c b = V7 m (outsA m) c b
  rw [V7_outs]

theorem hF1 (c : Dev nD) : ∀ w : Fin cfg1.W, (Reg1.dat1 (E7 m) c).arrAt w cfg1.N = E8 m c (Pipeline.arrRef spec1 w)
  | ⟨0, _⟩ => ((Reg1.dat1 (E7 m) c).arrAt_in 0 rfl _).trans ((Reg1.A_eq1 (E7 m) c 0).trans ((E7'_eq m c main_v44).symm.trans (V8_of m (outs m) c main_v44 (by decide)).symm))
  | ⟨1, _⟩ => ((Reg1.dat1 (E7 m) c).arrAt_in 1 rfl _).trans ((Reg1.A_eq1 (E7 m) c 1).trans ((E7'_eq m c main_v51).symm.trans (V8_of m (outs m) c main_v51 (by decide)).symm))
  | ⟨2, _⟩ => ((Reg1.dat1 (E7 m) c).arrAt_in 2 rfl _).trans ((Reg1.A_eq1 (E7 m) c 2).trans ((E7'_eq m c main_v58).symm.trans (V8_of m (outs m) c main_v58 (by decide)).symm))
  | ⟨3, _⟩ => (W8_arr m c 3).symm.trans ((outs_eight m main_v59 c).symm.trans (V8_v59 m (outs m) c).symm)
theorem hrest1 (c : Dev nD) (b : Ref sig .tc) (hb : b ∉ Finset.univ.image (Pipeline.arrRef spec1)) : E8 m c b = E7' m c b :=
  V8_of m (outs m) c b fun hmem => by
    simp only [List.mem_cons, List.not_mem_nil, or_false] at hmem
    subst hmem
    exact hb (Finset.mem_image.mpr ⟨3, Finset.mem_univ _, rfl⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => Reg0.dat0 (E1 m) c
  | ⟨1, _⟩ => fun c => Reg1.dat1 (E7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 between "every unscoped buffer at `V1`" and "… at `V2`": its arrays split out of the unscoped buffers
    and put back at the exit contents; the generator register into the region invariant and out; nothing owed; no
    semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between "every unscoped buffer at `V7`" and "… at `V8`", likewise; its invariant carries the scratch
    accumulator, entered from and left at the class's region invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (E7 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E7' m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7' m c) fun w => ((Reg1.A_eq1 (E7 m) c w).trans (E7'_eq m c _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA (U := UR sig nD τ) (Val := Elt F) spec1 c : sProp 𝕄) from ?_).trans (Reg1.hin1 (E7 m) c)
    unfold Pipeline.ΦA
    iintro ⟨Hp, -, Hr⟩
    isplitl [Hr]; · iexact Hr
    iexact Hp
  hout c := by
    rw [Pipeline.ownSems0_none]
    refine (Reg1.hout1 (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7' m c) (E8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- From any memory with zero counters every weakly fair execution of @main ends, nothing faulting, the three results
    at the last valuation over what the regions leave, the argument arrays as launched. -/
theorem run : θ_run defs (onTc (τ := τ) (main (F := F))) ⟨m, fun _ => 0, ρ⟩ (fun r => ∀ c : Dev nD,
      r.2.mem ((c.tc : Thread nD τ).loc main_v63) = V9 m (outs m) c main_v63
      ∧ r.2.mem ((c.tc : Thread nD τ).loc main_v31) = V9 m (outs m) c main_v31
      ∧ r.2.mem ((c.tc : Thread nD τ).loc main_v60) = V9 m (outs m) c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  RunCond.run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun _ => .rfl) (fun _ => .rfl) (reg1 m) (fun _ => .rfl) (fun _ => .rfl)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2.2.2) (run m ρ)

end Cert.Kernel.Launch

end
-- ==== Proof.Reg0.lean ====
/- Region 0 (the pairwise-similarity kernel, grid 8 × 8) at any float instance, from the buffer contents
   `V` the region is entered with: what each output block holds after every grid point, the pipeline's proof
   data, and the body obligation. -/
import proofs.«157248_j13683765805398_1_alg».proof.Proof.Gen.KernelIdeal.Launch
import proofs.«157248_j13683765805398_1_alg».proof.Proof.Gen.KernelIdeal.Skeleton
import proofs.«157248_j13683765805398_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch condition -/

/-- The condition of the body's one conditional, from the grid coordinates: the column-tile is the first. -/
abbrev cond0 (i : grid0.Coords) : Prop :=
  (Scalar.cmpi .ne (Scalar.extui (Scalar.cmpi .eq (BitVec.ofNat 32 (i 1).val) 0#32)) 0#32) = 1#1

/-- It holds at the first point of each row-tile, and only there (decided over the 64 points). -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point -/

/-- One staging buffer of each output window, through which its contents are stated (the choice does not matter:
    a covering list of writes reads the same through any view of the shape). -/
abbrev VO0_2 : View sig .tc .vmem S512x1 .f32 := (Memref.whole cc0_stg2_0 : Memref sig .tc .vmem S512x1 .f32).view
abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view

/-- Each window's current staging memref at point t, as the pipeline passes it to the body, and its wholeness. -/
abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)

/-! ## The body on any whole staging memrefs, case by case -/

set_option maxHeartbeats 1000000 in
/-- CASE A (the column-tile is the first: the reset is taken). On whole staging memrefs, the two inputs' at their
    contents and the three outputs' at anything, the body runs to the continuation holding the inputs' as they were
    and each output's buffer with its pieces written (last first): the zero block, then the tile sum added to it
    read back. The pieces are the witness. -/
noncomputable def kernelRun0_A (c : Dev nD) (i : grid0.Coords)
    (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) :
    Σ' (L2 : List (View.Piece (Elt F) S512x1 .f32)), Σ' (L3 : List (View.Piece (Elt F) S512x1 .f32)), { L4 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

set_option maxHeartbeats 1000000 in
/-- CASE B (a later column-tile: no reset). On whole staging memrefs, the two inputs' at their contents and the
    three outputs' at their running contents, the body runs to the continuation holding the inputs' as they were and
    each output's buffer with its one piece written: the tile sum added to the running contents. -/
noncomputable def kernelRun0_B (c : Dev nD) (i : grid0.Coords)
    (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32)
    (xo2 : Vec F S512x1 .f32) (xo3 : Vec F S512x1 .f32) (xo4 : Vec F S512x1 .f32) :
    Σ' (L2 : List (View.Piece (Elt F) S512x1 .f32)), Σ' (L3 : List (View.Piece (Elt F) S512x1 .f32)), { L4 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-! ## What each case leaves in the outputs -/

/-- Case A's pieces for each output tile its block (the later store is the whole block), so they cover it. -/
theorem cover0_A_2 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S512x1.size (by sl_kernel_rfl) y
theorem cover0_A_3 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S512x1.size (by sl_kernel_rfl) y
theorem cover0_A_4 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S512x1.size (by sl_kernel_rfl) y

/-- Case B's one piece for each output is the whole block, so it covers it. -/
theorem cover0_B_2 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) (y : S512x1.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S512x1.size (by sl_kernel_rfl) y
theorem cover0_B_3 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) (y : S512x1.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S512x1.size (by sl_kernel_rfl) y
theorem cover0_B_4 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) (y : S512x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S512x1.size (by sl_kernel_rfl) y

/-- What case A leaves in the three outputs' staging buffers at point t: each one's pieces read back over junk. -/
def outA (c : Dev nD) (t : Fin cfg0.N) (h0 : t.val % 8 = 0) : Vec F S512x1 .f32 × Vec F S512x1 .f32 × Vec F S512x1 .f32 :=
  (VO0_2.read (Elt F) (VO0_2.writes (Elt F) VO0_2.junk
      (kernelRun0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t)).1),
   VO0_3.read (Elt F) (VO0_3.writes (Elt F) VO0_3.junk
      (kernelRun0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t)).2.1),
   VO0_4.read (Elt F) (VO0_4.writes (Elt F) VO0_4.junk
      (kernelRun0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t)).2.2.1))

/-- What case B leaves in them at point t, over the running contents p the point before left. -/
def outB (c : Dev nD) (t : Fin cfg0.N) (h0 : ¬t.val % 8 = 0) (p : Vec F S512x1 .f32 × Vec F S512x1 .f32 × Vec F S512x1 .f32) :
    Vec F S512x1 .f32 × Vec F S512x1 .f32 × Vec F S512x1 .f32 :=
  (VO0_2.read (Elt F) (VO0_2.writes (Elt F) VO0_2.junk
      (kernelRun0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2).1),
   VO0_3.read (Elt F) (VO0_3.writes (Elt F) VO0_3.junk
      (kernelRun0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2).2.1),
   VO0_4.read (Elt F) (VO0_4.writes (Elt F) VO0_4.junk
      (kernelRun0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2).2.2.1))

/-! ## What the outputs hold after each point -/

/-- What the three output blocks (positive sum, total sum, positive count) hold after the body at position `n`. -/
def outsAt0 (c : Dev nD) : (n : ℕ) → n < cfg0.N → Vec F S512x1 .f32 × Vec F S512x1 .f32 × Vec F S512x1 .f32
  | 0, hn => outA V c ⟨0, hn⟩ (Nat.zero_mod _)
  | n + 1, hn =>
    if h0 : (n + 1) % 8 = 0 then outA V c ⟨n + 1, hn⟩ h0
    else outB V c ⟨n + 1, hn⟩ h0 (outsAt0 c n (Nat.lt_of_succ_lt hn))

/-- At a first column-tile the outputs hold what case A leaves. -/
theorem outsAt0_A (c : Dev nD) (t : Fin cfg0.N) (h0 : t.val % 8 = 0) :
    outsAt0 V c t.val t.isLt = outA V c t h0 := by
  obtain ⟨n, hn⟩ := t
  cases n with
  | zero => exact rfl
  | succ n => exact (dif_pos h0).trans rfl

/-- At a later column-tile they hold what case B leaves over what the point before left. -/
theorem outsAt0_B (c : Dev nD) (t : Fin cfg0.N) (h0 : ¬t.val % 8 = 0) :
    outsAt0 V c t.val t.isLt = outB V c t h0 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

/-- Each input's staging buffer holds its block at every point, fetched there or not: unfetched, the block index has
    not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At a later column-tile each output's staging buffer holds what the body left at the point before: the point is
    not the first, and the buffer was not written back between (the point before is no last column-tile). -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]
theorem before0_3_B (c : Dev nD) (t : Fin cfg0.N) (h0 : ¬t.val % 8 = 0) (d) :
    (dat0 V c).before 3 t d = (outsAt0 V c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dat0]
theorem before0_4_B (c : Dev nD) (t : Fin cfg0.N) (h0 : ¬t.val % 8 = 0) (d) :
    (dat0 V c).before 4 t d = (outsAt0 V c (t.val - 1) (Nat.lt_of_le_of_lt (Nat.sub_le _ _) t.isLt)).2.2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point t (the obligation's precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form says which case the point is in; at a
    later column-tile each output's memref holds what the point before left; so that case's run applies. The
    invariant passes through unread and the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 8 = 0
  · rw [outsAt0_A V c t h0]
    unfold outA; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B V c t h0]
    simp only [before0_2_B V c t h0, before0_3_B V c t h0, before0_4_B V c t h0]
    unfold outB; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## What the blocks hold, over the payloads -/

theorem hz : (![0, 0] : Fin 2 → Nat) = fun _ => 0 := funext fun a => by fin_cases a <;> rfl

/-- The body's four loads at coordinates i, of table contents x0 and label contents x1: the row-tile's and the
    column-tile's 512 rows of the table, the row-tile's and the column-tile's 512 labels. -/
abbrev ldTabRow (i : grid0.Coords) (x0 : Vec F S4096x512 .bf16) : Vec F S512x512 .bf16 :=
  View.ld x0 (Rect.unit (s := S4096x512) (k0_off1 i) S512x512.size (k0_off1_inb i))
abbrev ldTabCol (i : grid0.Coords) (x0 : Vec F S4096x512 .bf16) : Vec F S512x512 .bf16 :=
  View.ld x0 (Rect.unit (s := S4096x512) (k0_off2 i) S512x512.size (k0_off2_inb i))
abbrev ldLabRow (i : grid0.Coords) (x1 : Vec F S1x4096 .i32) : Vec F S1x512 .i32 :=
  View.ld x1 (Rect.unit (s := S1x4096) (k0_off3 i) S1x512.size (k0_off3_inb i))
abbrev ldLabCol (i : grid0.Coords) (x1 : Vec F S1x4096 .i32) : Vec F S1x512 .i32 :=
  View.ld x1 (Rect.unit (s := S1x4096) (k0_off4 i) S1x512.size (k0_off4_inb i))

/-- CASE A, output by output: the later store covers, its payload the tile sum added to the zero block read back. -/
theorem pieceA_2 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) :
    VO0_2.read (Elt F) (VO0_2.writes (Elt F) VO0_2.junk (kernelRun0_A c i arg2 harg2 arg3 harg3 arg4 harg4 arg5 harg5 arg6 harg6 hc0 x0 x1).1)
      = k0_pay4 (k0_pay9 i (ldTabRow i x0) (ldTabCol i x0) (ldLabRow i x1) (ldLabCol i x1)) (k0_pay1 (F := F)) := by
  rw [View.read_writes_eq_canon _ _ _ (cover0_A_2 c i arg2 harg2 arg3 harg3 arg4 harg4 arg5 harg5 arg6 harg6 hc0 x0 x1)]
  unfold kernelRun0_A
  dsimp only
  sl_unfold_run_names
  rw [View.canon_cons_unit_zero (S := S512x1) hz, View.readCov_unit_zero (S := S512x1) _ hz]
  simp only [View.readAt_eq_ld, harg2.read_unread, harg3.read_unread]
theorem pieceA_3 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) :
    VO0_3.read (Elt F) (VO0_3.writes (Elt F) VO0_3.junk (kernelRun0_A c i arg2 harg2 arg3 harg3 arg4 harg4 arg5 harg5 arg6 harg6 hc0 x0 x1).2.1)
      = k0_pay5 (k0_pay10 (ldTabRow i x0) (ldTabCol i x0)) (k0_pay2 (F := F)) := by
  rw [View.read_writes_eq_canon _ _ _ (cover0_A_3 c i arg2 harg2 arg3 harg3 arg4 harg4 arg5 harg5 arg6 harg6 hc0 x0 x1)]
  unfold kernelRun0_A
  dsimp only
  sl_unfold_run_names
  rw [View.canon_cons_unit_zero (S := S512x1) hz, View.readCov_unit_zero (S := S512x1) _ hz]
  simp only [View.readAt_eq_ld, harg2.read_unread, harg3.read_unread]
theorem pieceA_4 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : cond0 i)
    (x0 : Vec F S4096x512 .bf16) (x1 : Vec F S1x4096 .i32) :
    VO0_4.read (Elt F) (VO0_4.writes (Elt F) VO0_4.junk (kernelRun0_A c i arg2 harg2 arg3 harg3 arg4 harg4 arg5 harg5 arg6 harg6 hc0 x0 x1).2.2.1)
      = k0_pay6 (k0_pay11 i (ldLabRow i x1) (ldLabCol i x1)) (k0_pay3 (F := F)) := by
  rw [View.read_writes_eq_canon _ _ _ (cover0_A_4 c i arg2 harg2 arg3 harg3 arg4 harg4 arg5 harg5 arg6 harg6 hc0 x0 x1)]
  unfold kernelRun0_A
  dsimp only
  sl_unfold_run_names
  rw [View.canon_cons_unit_zero (S := S512x1) hz, View.readCov_unit_zero (S := S512x1) _ hz]
  simp only [View.readAt_eq_ld, harg2.read_unread, harg3.read_unread]

/-- CASE B, output by output: the one store covers, its payload the tile sum added to the running contents. -/
theorem pieceB_2 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) :
    VO0_2.read (Elt F) (VO0_2.writes (Elt F) VO0_2.junk (kernelRun0_B c i arg2 harg2 arg3 harg3 arg4 harg4 arg5 harg5 arg6 harg6 hc0 x0 x1 xo2 xo3 xo4).1)
      = k0_pay4 (k0_pay9 i (ldTabRow i x0) (ldTabCol i x0) (ldLabRow i x1) (ldLabCol i x1)) xo2 := by
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_run_names
  rw [View.canon_unit_zero hz]
  simp only [View.readAt_eq_ld, harg2.read_unread, harg3.read_unread, harg4.read_unread, View.ld_unit_zero (S := S512x1) hz]
theorem pieceB_3 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) :
    VO0_3.read (Elt F) (VO0_3.writes (Elt F) VO0_3.junk (kernelRun0_B c i arg2 harg2 arg3 harg3 arg4 harg4 arg5 harg5 arg6 harg6 hc0 x0 x1 xo2 xo3 xo4).2.1)
      = k0_pay5 (k0_pay10 (ldTabRow i x0) (ldTabCol i x0)) xo3 := by
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_run_names
  rw [View.canon_unit_zero hz]
  simp only [View.readAt_eq_ld, harg2.read_unread, harg3.read_unread, harg5.read_unread, View.ld_unit_zero (S := S512x1) hz]
theorem pieceB_4 (c : Dev nD) (i : grid0.Coords) (arg2 : Memref sig .tc .vmem S4096x512 .bf16) (harg2 : arg2.IsWhole) (arg3 : Memref sig .tc .vmem S1x4096 .i32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (hc0 : ¬cond0 i)
    (x0 : Vec F S4096x512 .bf16) (x1 : Vec F S1x4096 .i32) (xo2 xo3 xo4 : Vec F S512x1 .f32) :
    VO0_4.read (Elt F) (VO0_4.writes (Elt F) VO0_4.junk (kernelRun0_B c i arg2 harg2 arg3 harg3 arg4 harg4 arg5 harg5 arg6 harg6 hc0 x0 x1 xo2 xo3 xo4).2.2.1)
      = k0_pay6 (k0_pay11 i (ldLabRow i x1) (ldLabCol i x1)) xo4 := by
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_run_names
  rw [View.canon_unit_zero hz]
  simp only [View.readAt_eq_ld, harg2.read_unread, harg3.read_unread, harg6.read_unread, View.ld_unit_zero (S := S512x1) hz]

/-! ## The accumulation, point by point -/

/-- The three tile sums of point t — of the positive pairs' exponentials, of all pairs' exponentials, of the positive
    pairs — over the body's four loads of the two input blocks as the point finds them. -/
def tile0_2 (c : Dev nD) (t : Fin cfg0.N) : FVec F S512x1 .f32 :=
  k0_pay9 (grid0.coords t) (ldTabRow (grid0.coords t) (iblk0 V c 0 t)) (ldTabCol (grid0.coords t) (iblk0 V c 0 t))
    (ldLabRow (grid0.coords t) (iblk0 V c 1 t)) (ldLabCol (grid0.coords t) (iblk0 V c 1 t))
def tile0_3 (c : Dev nD) (t : Fin cfg0.N) : FVec F S512x1 .f32 :=
  k0_pay10 (ldTabRow (grid0.coords t) (iblk0 V c 0 t)) (ldTabCol (grid0.coords t) (iblk0 V c 0 t))
def tile0_4 (c : Dev nD) (t : Fin cfg0.N) : FVec F S512x1 .f32 :=
  k0_pay11 (grid0.coords t) (ldLabRow (grid0.coords t) (iblk0 V c 1 t)) (ldLabCol (grid0.coords t) (iblk0 V c 1 t))

/-- What case A leaves: each tile sum added to the zero block. -/
theorem outA_eq (c : Dev nD) (t : Fin cfg0.N) (h0 : t.val % 8 = 0) :
    outA V c t h0 = (k0_pay4 (tile0_2 V c t) (k0_pay1 (F := F)), k0_pay5 (tile0_3 V c t) (k0_pay2 (F := F)), k0_pay6 (tile0_4 V c t) (k0_pay3 (F := F))) := by
  unfold outA
  rw [pieceA_2 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t),
    pieceA_3 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t),
    pieceA_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t)]
  rfl

/-- What case B leaves over running contents p: each tile sum added to its component of p. -/
theorem outB_eq (c : Dev nD) (t : Fin cfg0.N) (h0 : ¬t.val % 8 = 0) (p : Vec F S512x1 .f32 × Vec F S512x1 .f32 × Vec F S512x1 .f32) :
    outB V c t h0 p = (k0_pay4 (tile0_2 V c t) p.1, k0_pay5 (tile0_3 V c t) p.2.1, k0_pay6 (tile0_4 V c t) p.2.2) := by
  unfold outB
  rw [pieceB_2 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2,
    pieceB_3 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2,
    pieceB_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) p.1 p.2.1 p.2.2]
  rfl

/-- THE RESET: after the body at a first column-tile (t % 8 = 0) the three blocks hold the point's tile sums added to
    the zero blocks. -/
theorem outsAt0_reset (c : Dev nD) (t : Fin cfg0.N) (h0 : t.val % 8 = 0) :
    outsAt0 V c t.val t.isLt
      = (k0_pay4 (tile0_2 V c t) (k0_pay1 (F := F)), k0_pay5 (tile0_3 V c t) (k0_pay2 (F := F)), k0_pay6 (tile0_4 V c t) (k0_pay3 (F := F))) :=
  (outsAt0_A V c t h0).trans (outA_eq V c t h0)

/-- THE STEP: after the body at a later column-tile (t % 8 ≠ 0) they hold the point's tile sums added to what the
    point before left. -/
theorem outsAt0_step (c : Dev nD) (t : Fin cfg0.N) (h0 : ¬t.val % 8 = 0) :
    outsAt0 V c t.val t.isLt
      = (k0_pay4 (tile0_2 V c t) (outsAt0 V c (t.val - 1) (Nat.lt_of_le_of_lt (Nat.sub_le _ _) t.isLt)).1,
         k0_pay5 (tile0_3 V c t) (outsAt0 V c (t.val - 1) (Nat.lt_of_le_of_lt (Nat.sub_le _ _) t.isLt)).2.1,
         k0_pay6 (tile0_4 V c t) (outsAt0 V c (t.val - 1) (Nat.lt_of_le_of_lt (Nat.sub_le _ _) t.isLt)).2.2) :=
  (outsAt0_B V c t h0).trans (outB_eq V c t h0 _)

/-- The same two over positions, for an induction along one row-tile's eight points 8 i + j. -/
theorem outsAt0_reset_nat (c : Dev nD) (n : ℕ) (hn : n < cfg0.N) (h0 : n % 8 = 0) :
    outsAt0 V c n hn
      = (k0_pay4 (tile0_2 V c ⟨n, hn⟩) (k0_pay1 (F := F)), k0_pay5 (tile0_3 V c ⟨n, hn⟩) (k0_pay2 (F := F)), k0_pay6 (tile0_4 V c ⟨n, hn⟩) (k0_pay3 (F := F))) :=
  outsAt0_reset V c ⟨n, hn⟩ h0
theorem outsAt0_step_nat (c : Dev nD) (n : ℕ) (hn : n + 1 < cfg0.N) (h0 : ¬(n + 1) % 8 = 0) :
    outsAt0 V c (n + 1) hn
      = (k0_pay4 (tile0_2 V c ⟨n + 1, hn⟩) (outsAt0 V c n (Nat.lt_of_succ_lt hn)).1,
         k0_pay5 (tile0_3 V c ⟨n + 1, hn⟩) (outsAt0 V c n (Nat.lt_of_succ_lt hn)).2.1,
         k0_pay6 (tile0_4 V c ⟨n + 1, hn⟩) (outsAt0 V c n (Nat.lt_of_succ_lt hn)).2.2) :=
  outsAt0_step V c ⟨n + 1, hn⟩ h0

/-- Output by output. -/
theorem out0_2_reset (c : Dev nD) (t : Fin cfg0.N) (h0 : t.val % 8 = 0) :
    (outsAt0 V c t.val t.isLt).1 = k0_pay4 (tile0_2 V c t) (k0_pay1 (F := F)) := by rw [outsAt0_reset V c t h0]
theorem out0_3_reset (c : Dev nD) (t : Fin cfg0.N) (h0 : t.val % 8 = 0) :
    (outsAt0 V c t.val t.isLt).2.1 = k0_pay5 (tile0_3 V c t) (k0_pay2 (F := F)) := by rw [outsAt0_reset V c t h0]
theorem out0_4_reset (c : Dev nD) (t : Fin cfg0.N) (h0 : t.val % 8 = 0) :
    (outsAt0 V c t.val t.isLt).2.2 = k0_pay6 (tile0_4 V c t) (k0_pay3 (F := F)) := by rw [outsAt0_reset V c t h0]
theorem out0_2_step (c : Dev nD) (t : Fin cfg0.N) (h0 : ¬t.val % 8 = 0) :
    (outsAt0 V c t.val t.isLt).1 = k0_pay4 (tile0_2 V c t) (outsAt0 V c (t.val - 1) (Nat.lt_of_le_of_lt (Nat.sub_le _ _) t.isLt)).1 := by
  rw [outsAt0_step V c t h0]
theorem out0_3_step (c : Dev nD) (t : Fin cfg0.N) (h0 : ¬t.val % 8 = 0) :
    (outsAt0 V c t.val t.isLt).2.1 = k0_pay5 (tile0_3 V c t) (outsAt0 V c (t.val - 1) (Nat.lt_of_le_of_lt (Nat.sub_le _ _) t.isLt)).2.1 := by
  rw [outsAt0_step V c t h0]
theorem out0_4_step (c : Dev nD) (t : Fin cfg0.N) (h0 : ¬t.val % 8 = 0) :
    (outsAt0 V c t.val t.isLt).2.2 = k0_pay6 (tile0_4 V c t) (outsAt0 V c (t.val - 1) (Nat.lt_of_le_of_lt (Nat.sub_le _ _) t.isLt)).2.2 := by
  rw [outsAt0_step V c t h0]

/-- The grid's coordinates at point t: row-tile t / 8, column-tile t % 8. -/
theorem coords0 : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

end Cert.KernelIdeal.Reg0

end
-- ==== Proof.Reg1.lean ====
/- Region 1 (the triplet-margin kernel, grid 8, a [1,1] scratch accumulator carried between points) at any float
   instance, from the buffer contents `V` the region is entered with: what the scratch holds after every grid
   point, the invariant that carries it, the pipeline's proof data, and the body obligation. -/
import proofs.«157248_j13683765805398_1_alg».proof.Proof.Gen.KernelIdeal.Launch
import proofs.«157248_j13683765805398_1_alg».proof.Proof.Gen.KernelIdeal.Skeleton
import proofs.«157248_j13683765805398_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two branch conditions, decided over the grid -/

/-- The condition of the reset branch (the grid coordinate is 0), as the body's scalar chain computes it. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the write-out branch (the grid coordinate is 7). -/
abbrev cond1_1 (i : grid1.Coords) : Prop := k1_cond2 i = 1#1
/-- It holds at the last point only. -/
theorem hcond1_1 : ∀ t : Fin cfg1.N, cond1_1 (grid1.coords t) ↔ t.val = 7 :=
  (by decide +kernel : ∀ t : Fin grid1.N, cond1_1 (grid1.coords t) ↔ t.val = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point it is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch accumulator: a whole scoped buffer of the kernel's own. -/
abbrev scM1 : Memref sig .tc .vmem S1x1 .f32 := Memref.whole cc1_scratch0
/-- The views through which the output block's and the scratch's contents are stated. -/
abbrev VO1 : View sig .tc .vmem S1x1 .f32 := (Memref.whole cc1_stg3_0 : Memref sig .tc .vmem S1x1 .f32).view
abbrev VS1 : View sig .tc .vmem S1x1 .f32 := scM1.view

/-- The zero offsets of the body's whole-block rectangles, as a constant function. -/
theorem hz2 : (![0, 0] : Fin 2 → Nat) = fun _ => 0 := by funext a; fin_cases a <;> rfl

/-! ## The body on any whole memrefs, case by case

Each case runs the body's memory operations over the named payloads; the value a covering store leaves and a later
load reads back is read through the whole-block rectangle at zero offsets. -/

set_option maxHeartbeats 1000000 in
/-- The body at the first point (reset branch taken, write-out branch not): with the three inputs at their blocks, the
    output block at contents it hands back untouched and the scratch at anything, it leaves the scratch at the tile's
    sum added to the zero block. -/
theorem run1_A (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 x1 x2 : Vec F S512x512 .f32) (xi3 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare (k1_pay3 x0 x1 x2 (k1_pay2 (F := F)))) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS0
  ipureintro
  rw [View.read_writes_eq_canon _ _ _ (fun y => ⟨_, List.mem_cons_self, View.mem_set_unit_zero (S := S1x1) hz2 inb_S1x1_S1x1_0_0 y⟩), View.canon_cons_unit_zero hz2]
  sl_unfold_run_names
  simp only [View.readAt_eq_ld, harg1.read_unread, harg2.read_unread, harg3.read_unread, View.ld_unit_zero (S := S512x512) hz2, View.readCov_unit_zero (S := S1x1) _ hz2]

set_option maxHeartbeats 1000000 in
/-- The body at a middle point (neither branch taken): with the scratch at `xs`, it leaves the scratch at the tile's sum
    added to `xs`; the output block is handed back untouched. -/
theorem run1_B (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 x1 x2 : Vec F S512x512 .f32) (xs : Vec F S1x1 .f32) (xi3 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare (k1_pay3 x0 x1 x2 xs)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS0
  ipureintro
  rw [View.read_writes_eq_canon _ _ _ (fun y => ⟨_, List.mem_cons_self, View.mem_set_unit_zero (S := S1x1) hz2 inb_S1x1_S1x1_0_0 y⟩), View.canon_cons_unit_zero hz2]
  simp only [View.readAt_eq_ld, harg1.read_unread, harg2.read_unread, harg3.read_unread, harg5.read_unread, View.ld_unit_zero (S := S512x512) hz2, View.ld_unit_zero (S := S1x1) hz2]

set_option maxHeartbeats 1000000 in
/-- The body at the last point (write-out branch taken): with the scratch at `xs` and the output block at anything, it
    leaves the scratch at the tile's sum added to `xs` and the output block at the scaled scratch. -/
theorem run1_C (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 x1 x2 : Vec F S512x512 .f32) (xs : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare (k1_pay1 (k1_pay3 x0 x1 x2 xs)) ∗ owns (c : Thread nD τ) arg5 fullShare (k1_pay3 x0 x1 x2 xs)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg1.eq_unread hf0; obtain rfl := harg2.eq_unread hf1; obtain rfl := harg3.eq_unread hf2; obtain rfl := harg5.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    rw [View.read_writes_eq_canon _ _ _ (fun y => ⟨_, List.mem_cons_self, View.mem_set_unit_zero (S := S1x1) hz2 inb_S1x1_S1x1_0_0 y⟩), View.canon_cons_unit_zero hz2]
    simp only [View.readCov_unit_zero (S := S1x1) _ hz2, View.readAt_eq_ld, harg1.read_unread, harg2.read_unread, harg3.read_unread, harg5.read_unread, View.ld_unit_zero (S := S512x512) hz2, View.ld_unit_zero (S := S1x1) hz2]
  iexists _; isplitr
  swap; · iexact HS0
  ipureintro
  sl_unfold_run_names
  rw [View.read_writes_eq_canon _ _ _ (fun y => ⟨_, List.mem_cons_self, View.mem_set_unit_zero (S := S1x1) hz2 inb_S1x1_S1x1_0_0 y⟩), View.canon_cons_unit_zero hz2]
  simp only [View.readAt_eq_ld, harg1.read_unread, harg2.read_unread, harg3.read_unread, harg5.read_unread, View.ld_unit_zero (S := S512x512) hz2, View.ld_unit_zero (S := S1x1) hz2]

/-- What the scratch accumulator holds after the body at position `n`. -/
def accAt1 (c : Dev nD) : (n : ℕ) → n < cfg1.N → Vec F S1x1 .f32
  | 0, hn => k1_pay3 (iblk1 V c 0 ⟨0, hn⟩) (iblk1 V c 1 ⟨0, hn⟩) (iblk1 V c 2 ⟨0, hn⟩) (k1_pay2 (F := F))
  | n + 1, hn => k1_pay3 (iblk1 V c 0 ⟨n + 1, hn⟩) (iblk1 V c 1 ⟨n + 1, hn⟩) (iblk1 V c 2 ⟨n + 1, hn⟩) (accAt1 c n (Nat.lt_of_succ_lt hn))

/-- At the first point the scratch ends at the tile's sum added to the zero block. -/
theorem accAt1_first (c : Dev nD) (t : Fin cfg1.N) (h0 : t.val = 0) :
    accAt1 V c t.val t.isLt = k1_pay3 (iblk1 V c 0 t) (iblk1 V c 1 t) (iblk1 V c 2 t) (k1_pay2 (F := F)) := by
  obtain ⟨n, hn⟩ := t
  cases n with
  | zero => rfl
  | succ n => exact absurd h0 (Nat.succ_ne_zero n)

/-- At a later point it ends at the tile's sum added to what the point before left. -/
theorem accAt1_step (c : Dev nD) (t : Fin cfg1.N) (h0 : t.val ≠ 0) :
    accAt1 V c t.val t.isLt = k1_pay3 (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact absurd rfl h0
  | succ n => rfl

/-- The scoped buffers of the other region (its staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The invariant before position `n`: the other region's scoped buffers at anything, the scratch — at anything before the
    first point, afterwards at what the point before left —, and the generator register at some state. -/
def PhiS1 (c : Dev nD) : (n : ℕ) → n ≤ cfg1.N → sProp 𝕄
  | 0, _ => iprop((others1 (F := F) c ∗ (∃ d, owns (c : Thread nD τ) scM1 fullShare d)) ∗ (∃ r, prngReg c r))
  | n + 1, hn => iprop((others1 (F := F) c ∗ owns (c : Thread nD τ) scM1 fullShare (accAt1 V c n hn)) ∗ (∃ r, prngReg c r))

theorem PhiS1_zero (c : Dev nD) (n : ℕ) (h : n ≤ cfg1.N) (hz : n = 0) :
    PhiS1 V c n h = iprop((others1 (F := F) c ∗ (∃ d, owns (c : Thread nD τ) scM1 fullShare d)) ∗ (∃ r, prngReg c r)) := by
  subst hz; rfl

theorem PhiS1_succ (c : Dev nD) (n : ℕ) (hn : n < cfg1.N) :
    PhiS1 V c (n + 1) hn = iprop((others1 (F := F) c ∗ owns (c : Thread nD τ) scM1 fullShare (accAt1 V c n hn)) ∗ (∃ r, prngReg c r)) := rfl

theorem PhiS1_pos (c : Dev nD) (n : ℕ) (h : n ≤ cfg1.N) (hz : n ≠ 0) :
    PhiS1 V c n h = iprop((others1 (F := F) c ∗ owns (c : Thread nD τ) scM1 fullShare (accAt1 V c (n - 1) (by omega))) ∗ (∃ r, prngReg c r)) := by
  cases n with
  | zero => exact absurd rfl hz
  | succ n => rfl

/-- The invariant between points: the generator register, the scoped buffers of the other region at anything, and the
    scratch — at anything before the first point, at `accAt1` of the point before afterwards. -/
def Phi1 (c : Dev nD) (t : Fin (cfg1.N + 1)) : sProp 𝕄 :=
  PhiS1 V c t.val (Nat.le_of_lt_succ t.isLt)
/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (accAt1 V c t.val t.isLt)
  Φ t := Phi1 V c t
  q _ := fullShare
  owed _ := 0

theorem A_eq1 (c : Dev nD) (w : Fin cfg1.W) : (dat1 V c).A w = V c (Pipeline.arrRef spec1 w) := by
  dsimp only [dat1]

/-! ## The invariant at the ends and at a point -/

/-- The class's region invariant, with the scratch split out as a memref owned at some contents. -/
theorem PhiA1_split (c : Dev nD) :
    (Pipeline.ΦA (U := UR sig nD τ) (Val := Elt F) spec1 c : sProp 𝕄)
      ⊢ iprop((others1 (F := F) c ∗ (∃ d, owns (c : Thread nD τ) scM1 fullShare d)) ∗ (∃ r, prngReg c r)) := by
  unfold Pipeline.ΦA; rw [scopedRest1_eq]; unfold others1; simp only [scM1, owns_whole]
  iintro ⟨⟨A0, A1, A2, A3, A4, A5, A6, A7, HS⟩, Hg⟩
  isplitr [Hg]
  · isplitr [HS]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    · iexact HS
  · iexact Hg

/-- And back: the scratch's contents forgotten. -/
theorem PhiA1_join (c : Dev nD) :
    iprop((others1 (F := F) c ∗ (∃ d, owns (c : Thread nD τ) scM1 fullShare d)) ∗ (∃ r, prngReg c r))
      ⊢ (Pipeline.ΦA (U := UR sig nD τ) (Val := Elt F) spec1 c : sProp 𝕄) := by
  unfold Pipeline.ΦA; rw [scopedRest1_eq]; unfold others1; simp only [scM1, owns_whole]
  iintro ⟨⟨⟨A0, A1, A2, A3, A4, A5, A6, A7⟩, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  · iexact Hg

/-- The invariant at a point's start, restated at `t.val`. -/
theorem Phi1_castSucc (c : Dev nD) (t : Fin cfg1.N) :
    (dat1 V c).Φ t.castSucc = PhiS1 V c t.val (Nat.le_of_lt t.isLt) := by
  dsimp only [dat1, Phi1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (accAt1 V c t.val t.isLt) := by dsimp only [dat1]

/-- Each input's current staging buffer holds its block at every point: the window is fetched at every point and is uncut. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point is the first, a middle or the last one, and
    that case's run applies: the invariant hands the body the scratch (at anything at the first point, else at what the
    point before left) and takes it back at this point's contents; the output block is handed back untouched except at
    the last point, where it is left at the scaled scratch. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 8 := lt_of_lt_of_eq t.isLt (show cfg1.N = 8 from N_1)
  rw [Phi1_castSucc V c t]
  by_cases h0 : t.val = 0
  · have h1 : ¬t.val = 7 := by omega
    rw [Dat.leavesExact_idle (dat1 V c) 3 t (idleAt1_3 t (fun h => h1 ((hcond1_1 t).mp h))) (noFlush1_3 t (fun h => h1 ((hcond1_1 t).mp h)))]
    rw [PhiS1_zero V c _ _ h0, accAt1_first V c t h0]
    iintro ⟨⟨⟨HO, HS0⟩, Hg⟩, Ho, ⟨%d0, H0⟩, ⟨%d1, H1⟩, ⟨%d2, H2⟩, ⟨%d3, H3⟩⟩
    iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HO HS0 Hg]
    · isplitr [Hg]
      · isplitl [HO]; · iexact HO
        iexact HS0
      · iexact Hg
    isplitl [Ho]; · iexact Ho
    isplitl [H0]; · iexact H0
    isplitl [H1]; · iexact H1
    isplitl [H2]; · iexact H2
    iexists _; iexact H3
  · by_cases h1 : t.val = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [PhiS1_pos V c _ _ h0, accAt1_step V c t h0]
      iintro ⟨⟨⟨HO, HS0⟩, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HO HS0 Hg]
      · isplitr [Hg]
        · isplitl [HO]; · iexact HO
          iexact HS0
        · iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [PhiS1_pos V c _ _ h0, accAt1_step V c t h0]
      iintro ⟨⟨⟨HO, HS0⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HO HS0 Hg]
      · isplitr [Hg]
        · isplitl [HO]; · iexact HO
          iexact HS0
        · iexact Hg
      isplitl [Ho]; · iexact Ho
      isplitl [H0]; · iexact H0
      isplitl [H1]; · iexact H1
      isplitl [H2]; · iexact H2
      iexists _; iexact H3

/-- Entering: the class's region invariant (scoped rest at anything, generator register) yields the first invariant. -/
theorem hin1 (c : Dev nD) : (Pipeline.ΦA (U := UR sig nD τ) (Val := Elt F) spec1 c : sProp 𝕄) ⊢ (dat1 V c).Φ 0 := by
  rw [show (dat1 V c).Φ 0 = PhiS1 V c 0 (Nat.zero_le _) from rfl, PhiS1_zero V c 0 _ rfl]
  exact PhiA1_split c
/-- Leaving: the last invariant gives the class's back (the scratch forgotten). -/
theorem hout1 (c : Dev nD) : (dat1 V c).Φ (Fin.last cfg1.N) ⊢ (Pipeline.ΦA (U := UR sig nD τ) (Val := Elt F) spec1 c : sProp 𝕄) := by
  have hN : cfg1.N = 8 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  refine BIBase.Entails.trans ?_ (PhiA1_join c)
  iintro ⟨⟨HO, HS0⟩, Hg⟩
  isplitr [Hg]
  · isplitl [HO]; · iexact HO
    iexists _; iexact HS0
  · iexact Hg

theorem body_obligation1 (c : Dev nD) : BodyObligation (dat1 (F := F) V c) (defs₀ (F := F)) Variants.none () Set.univ := fun t => by
  rw [bigSep_W1, bigSep_W1]
  exact sound_body V c t

/-! ## What the scratch and the output block hold, named -/

/-- After the first point the scratch holds the first tile's sum added to the zero block. -/
theorem accAt1_zero (c : Dev nD) (h : 0 < cfg1.N) :
    accAt1 V c 0 h = k1_pay3 (iblk1 V c 0 ⟨0, h⟩) (iblk1 V c 1 ⟨0, h⟩) (iblk1 V c 2 ⟨0, h⟩) (k1_pay2 (F := F)) := rfl

/-- After point `n + 1` it holds that point's tile's sum added to what it held after point `n`. -/
theorem accAt1_succ (c : Dev nD) (n : ℕ) (h : n + 1 < cfg1.N) :
    accAt1 V c (n + 1) h = k1_pay3 (iblk1 V c 0 ⟨n + 1, h⟩) (iblk1 V c 1 ⟨n + 1, h⟩) (iblk1 V c 2 ⟨n + 1, h⟩) (accAt1 V c n (Nat.lt_of_succ_lt h)) := rfl

/-- The output block after the last point: the scaled scratch. -/
theorem out1_last (c : Dev nD) : (dat1 V c).after 3 t1_7 = k1_pay1 (accAt1 V c 7 t1_7.isLt) := by
  dsimp only [dat1]; rfl

end Cert.KernelIdeal.Reg1

end
-- ==== Proof.Launch.lean ====
/- The whole program from the two regions' proof data: the contents each region leaves (its arrays at what the
   write-backs fold to, every other buffer as entered), every pipeline's proof data at its region's entry contents,
   each region as a segment between the thread states "every unscoped buffer held at the boundary's contents, the
   generator register at some state, nothing owed", and the run — every execution ends, the arguments as launched and
   the three results at the last valuation. -/
import proofs.«157248_j13683765805398_1_alg».proof.Proof.RunCond
import proofs.«157248_j13683765805398_1_alg».proof.Proof.Reg0
import proofs.«157248_j13683765805398_1_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## What the regions leave -/

/-- Region 0's entry contents, read at the TensorCore's references. -/
abbrev E1 : (c : Dev nD) → (b : Ref sig .tc) → Buf (Elt F) ((c : Thread nD τ).loc b) := fun c b => V1 m c b

/-- At region 0's exit: its arrays at what the pipeline leaves (an input as entered, an output its write-backs
    folded), every other buffer as entered. -/
def W2 (c : Dev nD) : Valuation τ sig (Elt F) :=
  Pipeline.withArrays spec0 c (V1 m c) fun w => (Reg0.dat0 (E1 m) c).arrAt w cfg0.N

/-- The unknowns with region 0's outputs named (region 1's not yet). -/
def outsA : Outs (F := F) := fun _ r c => W2 m c r

/-- Region 1's entry contents: they read region 0's outputs only. -/
abbrev E7 : (c : Dev nD) → (b : Ref sig .tc) → Buf (Elt F) ((c : Thread nD τ).loc b) := fun c b => V7 m (outsA m) c b

/-- At region 1's exit, likewise. -/
def W8 (c : Dev nD) : Valuation τ sig (Elt F) :=
  Pipeline.withArrays spec1 c (V7 m (outsA m) c) fun w => (Reg1.dat1 (E7 m) c).arrAt w cfg1.N

/-- What the two regions leave: after item 1 region 0's arrays, after item 7 region 1's. -/
def outs : Outs (F := F) := fun J r c => if J = 8 then W8 m c r else W2 m c r

theorem outs_two (r : Ref sig .tc) (c : Dev nD) : outs m 2 r c = W2 m c r := if_neg (by decide)
theorem outs_eight (r : Ref sig .tc) (c : Dev nD) : outs m 8 r c = W8 m c r := if_pos rfl

/-- The valuations up to region 1's entry read the unknowns at item 1 only. -/
theorem V2_outs (c : Dev nD) : V2 m (outs m) c = V2 m (outsA m) c := by
  unfold V2; simp only [outs_two]; rfl
theorem V7_outs (c : Dev nD) : V7 m (outs m) c = V7 m (outsA m) c := by
  unfold V7 V6 V5 V4 V3; rw [V2_outs]

theorem W2_arr (c : Dev nD) (w : Fin cfg0.W) :
    W2 m c (Proc.devRef .tc (Pipeline.arrRef spec0 w)) = (Reg0.dat0 (E1 m) c).arrAt w cfg0.N := by
  unfold W2; exact Pipeline.withArrays_arr spec0 launch0.win.arr_inj c _ _ w
theorem W8_arr (c : Dev nD) (w : Fin cfg1.W) :
    W8 m c (Proc.devRef .tc (Pipeline.arrRef spec1 w)) = (Reg1.dat1 (E7 m) c).arrAt w cfg1.N := by
  unfold W8; exact Pipeline.withArrays_arr spec1 launch1.win.arr_inj c _ _ w

/-- Region 0's exit contents, read at the TensorCore's references. -/
abbrev E2 : (c : Dev nD) → (b : Ref sig .tc) → Buf (Elt F) ((c : Thread nD τ).loc b) := fun c b => V2 m (outs m) c b
/-- Region 1's exit contents. -/
abbrev E8 : (c : Dev nD) → (b : Ref sig .tc) → Buf (Elt F) ((c : Thread nD τ).loc b) := fun c b => V8 m (outs m) c b

/-! ## Each region's arrays at its exit contents -/

theorem V2_v10_0 (o : Outs (F := F)) (c : Dev nD) : V2 m o c main_v10_0 = o 2 main_v10_0 c := by
  simp only [V2, Function.update_of_ne (StableHlo.devRef_ne_of_ne (by decide) : (Proc.devRef .tc main_v10_0 : DevRef τ sig) ≠ Proc.devRef .tc main_v10_2),
    Function.update_of_ne (StableHlo.devRef_ne_of_ne (by decide) : (Proc.devRef .tc main_v10_0 : DevRef τ sig) ≠ Proc.devRef .tc main_v10_1), Function.update_self]
theorem V2_v10_1 (o : Outs (F := F)) (c : Dev nD) : V2 m o c main_v10_1 = o 2 main_v10_1 c := by
  simp only [V2, Function.update_of_ne (StableHlo.devRef_ne_of_ne (by decide) : (Proc.devRef .tc main_v10_1 : DevRef τ sig) ≠ Proc.devRef .tc main_v10_2), Function.update_self]
theorem V2_v10_2 (o : Outs (F := F)) (c : Dev nD) : V2 m o c main_v10_2 = o 2 main_v10_2 c := by
  simp only [V2, Function.update_self]
theorem V8_v59 (o : Outs (F := F)) (c : Dev nD) : V8 m o c main_v59 = o 8 main_v59 c := by
  simp only [V8, Function.update_self]

/-- At region 0's exit each of its arrays holds what the pipeline leaves: an input what it held at entry, an output
    its folded write-backs. -/
theorem hF0 (c : Dev nD) : ∀ w : Fin cfg0.W, (Reg0.dat0 (E1 m) c).arrAt w cfg0.N = E2 m c (Pipeline.arrRef spec0 w)
  | ⟨0, _⟩ => ((Reg0.dat0 (E1 m) c).arrAt_in 0 rfl _).trans ((Reg0.A_eq0 (E1 m) c 0).trans (V2_of m (outs m) c main_v8 (by decide)).symm)
  | ⟨1, _⟩ => ((Reg0.dat0 (E1 m) c).arrAt_in 1 rfl _).trans ((Reg0.A_eq0 (E1 m) c 1).trans (V2_of m (outs m) c main_v9 (by decide)).symm)
  | ⟨2, _⟩ => (W2_arr m c 2).symm.trans ((outs_two m main_v10_0 c).symm.trans (V2_v10_0 m (outs m) c).symm)
  | ⟨3, _⟩ => (W2_arr m c 3).symm.trans ((outs_two m main_v10_1 c).symm.trans (V2_v10_1 m (outs m) c).symm)
  | ⟨4, _⟩ => (W2_arr m c 4).symm.trans ((outs_two m main_v10_2 c).symm.trans (V2_v10_2 m (outs m) c).symm)
/-- and every other buffer what it held at entry. -/
theorem hrest0 (c : Dev nD) (b : Ref sig .tc) (hb : b ∉ Finset.univ.image (Pipeline.arrRef spec0)) : E2 m c b = E1 m c b :=
  V2_of m (outs m) c b fun hmem => by
    simp only [List.mem_cons, List.not_mem_nil, or_false] at hmem
    rcases hmem with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

/-- Region 1's entry contents, as the generated thread state names them (over the full unknowns). -/
abbrev E7' : (c : Dev nD) → (b : Ref sig .tc) → Buf (Elt F) ((c : Thread nD τ).loc b) := fun c b => V7 m (outs m) c b
theorem E7'_eq (c : Dev nD) (b : Ref sig .tc) : E7' m c b = E7 m c b := by
  show V7 m (outs m) c b = V7 m (outsA m) c b
  rw [V7_outs]

theorem hF1 (c : Dev nD) : ∀ w : Fin cfg1.W, (Reg1.dat1 (E7 m) c).arrAt w cfg1.N = E8 m c (Pipeline.arrRef spec1 w)
  | ⟨0, _⟩ => ((Reg1.dat1 (E7 m) c).arrAt_in 0 rfl _).trans ((Reg1.A_eq1 (E7 m) c 0).trans ((E7'_eq m c main_v44).symm.trans (V8_of m (outs m) c main_v44 (by decide)).symm))
  | ⟨1, _⟩ => ((Reg1.dat1 (E7 m) c).arrAt_in 1 rfl _).trans ((Reg1.A_eq1 (E7 m) c 1).trans ((E7'_eq m c main_v51).symm.trans (V8_of m (outs m) c main_v51 (by decide)).symm))
  | ⟨2, _⟩ => ((Reg1.dat1 (E7 m) c).arrAt_in 2 rfl _).trans ((Reg1.A_eq1 (E7 m) c 2).trans ((E7'_eq m c main_v58).symm.trans (V8_of m (outs m) c main_v58 (by decide)).symm))
  | ⟨3, _⟩ => (W8_arr m c 3).symm.trans ((outs_eight m main_v59 c).symm.trans (V8_v59 m (outs m) c).symm)
theorem hrest1 (c : Dev nD) (b : Ref sig .tc) (hb : b ∉ Finset.univ.image (Pipeline.arrRef spec1)) : E8 m c b = E7' m c b :=
  V8_of m (outs m) c b fun hmem => by
    simp only [List.mem_cons, List.not_mem_nil, or_false] at hmem
    subst hmem
    exact hb (Finset.mem_image.mpr ⟨3, Finset.mem_univ _, rfl⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => Reg0.dat0 (E1 m) c
  | ⟨1, _⟩ => fun c => Reg1.dat1 (E7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 between "every unscoped buffer at `V1`" and "… at `V2`": its arrays split out of the unscoped buffers
    and put back at the exit contents; the generator register into the region invariant and out; nothing owed; no
    semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between "every unscoped buffer at `V7`" and "… at `V8`", likewise; its invariant carries the scratch
    accumulator, entered from and left at the class's region invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (E7 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E7' m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7' m c) fun w => ((Reg1.A_eq1 (E7 m) c w).trans (E7'_eq m c _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA (U := UR sig nD τ) (Val := Elt F) spec1 c : sProp 𝕄) from ?_).trans (Reg1.hin1 (E7 m) c)
    unfold Pipeline.ΦA
    iintro ⟨Hp, -, Hr⟩
    isplitl [Hr]; · iexact Hr
    iexact Hp
  hout c := by
    rw [Pipeline.ownSems0_none]
    refine (Reg1.hout1 (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7' m c) (E8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- From any memory with zero counters every weakly fair execution of @main ends, nothing faulting, the three results
    at the last valuation over what the regions leave, the argument arrays as launched. -/
theorem run : θ_run defs (onTc (τ := τ) (main (F := F))) ⟨m, fun _ => 0, ρ⟩ (fun r => ∀ c : Dev nD,
      r.2.mem ((c.tc : Thread nD τ).loc main_v63) = V9 m (outs m) c main_v63
      ∧ r.2.mem ((c.tc : Thread nD τ).loc main_v31) = V9 m (outs m) c main_v31
      ∧ r.2.mem ((c.tc : Thread nD τ).loc main_v60) = V9 m (outs m) c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  RunCond.run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun _ => .rfl) (fun _ => .rfl) (reg1 m) (fun _ => .rfl) (fun _ => .rfl)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2.2.2) (run m ρ)

end Cert.KernelIdeal.Launch

end
-- ==== Proof.RefRun.lean ====
/- The reference's run at any float instance: its 134 operations in order, in five stretches, and what the three
   results hold after them as the stages of the operations applied to the launch contents of the three arguments.
   Stretch 1 ends at the product of the exponential table and the mask; stretch 2 at the count of rows with a positive
   as a float; stretch 3 at the third gathered table; stretch 4 at the weight of the triplet loss; stretch 5 is the
   weighted sum. Each stretch is read from the stages the stretch before it leaves. -/
import proofs.«157248_j13683765805398_1_alg».proof.Proof.Gen.ReferenceIdeal
import proofs.«157248_j13683765805398_1_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order, in five stretches -/

/-- Operations 1 … 34: the row norms, the divided table, its products with itself over the scalar, the mask, the exponentials and their product with the mask. -/
abbrev ops1 : List (HloOp τ sig (Elt F)) :=
  [ TRef.binary (TRef.of (T := ⟨S4096x512, .f32⟩) main_arg0) (TRef.of (T := ⟨S4096x512, .f32⟩) main_arg0) (TRef.of (T := ⟨S4096x512, .f32⟩) main_call0_v0) mulf,
    TRef.nullary (TRef.of (T := ⟨S_, .f32⟩) main_call0_cst) (constant S_ .f32 0x00000000#32),
    TRef.binary (TRef.of (T := ⟨S4096x512, .f32⟩) main_call0_v0) (TRef.of (T := ⟨S_, .f32⟩) main_call0_cst) (TRef.of (T := ⟨S4096, .f32⟩) main_call0_v1) (fun x v => Host.reduceAdd x v reducesTo_S4096x512_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x322BCC77#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x512 ![0, 1] bcast_S4096x1_S4096x512_0_1 : (⟨S4096x1, .f32⟩ : BufTy).Contents (Elt F) → (⟨S4096x512, .f32⟩ : BufTy).Contents (Elt F)),
    binary main_arg0 main_v3 main_v4 (Host.divf : (⟨S4096x512, .f32⟩ : BufTy).Contents (Elt F) → (⟨S4096x512, .f32⟩ : BufTy).Contents (Elt F) → (⟨S4096x512, .f32⟩ : BufTy).Contents (Elt F)),
    unary main_v4 main_v5 ((transpose S512x4096 [1, 0] · transposes_S4096x512_S512x4096_1_0) : (⟨S4096x512, .f32⟩ : BufTy).Contents (Elt F) → (⟨S512x4096, .f32⟩ : BufTy).Contents (Elt F)),
    binary main_v4 main_v5 main_v6 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    nullary main_cst_0 (constant S_ .f32 0x3D8F5C29#32),
    unary main_cst_0 main_v7 (broadcastInDim S4096x4096 ![] bcast_S_S4096x4096 : (⟨S_, .f32⟩ : BufTy).Contents (Elt F) → (⟨S4096x4096, .f32⟩ : BufTy).Contents (Elt F)),
    binary main_v6 main_v7 main_v8 (Host.divf : (⟨S4096x4096, .f32⟩ : BufTy).Contents (Elt F) → (⟨S4096x4096, .f32⟩ : BufTy).Contents (Elt F) → (⟨S4096x4096, .f32⟩ : BufTy).Contents (Elt F)),
    unary main_arg1 main_v9 (broadcastInDim S4096x1 ![0] bcast_S4096_S4096x1_0 : (⟨S4096, .i32⟩ : BufTy).Contents (Elt F) → (⟨S4096x1, .i32⟩ : BufTy).Contents (Elt F)),
    unary main_arg1 main_v10 (broadcastInDim S1x4096 ![1] bcast_S4096_S1x4096_1 : (⟨S4096, .i32⟩ : BufTy).Contents (Elt F) → (⟨S1x4096, .i32⟩ : BufTy).Contents (Elt F)),
    unary main_v9 main_v11 (broadcastInDim S4096x4096 ![0, 1] bcast_S4096x1_S4096x4096_0_1 : (⟨S4096x1, .i32⟩ : BufTy).Contents (Elt F) → (⟨S4096x4096, .i32⟩ : BufTy).Contents (Elt F)),
    unary main_v10 main_v12 (broadcastInDim S4096x4096 ![0, 1] bcast_S1x4096_S4096x4096_0_1 : (⟨S1x4096, .i32⟩ : BufTy).Contents (Elt F) → (⟨S4096x4096, .i32⟩ : BufTy).Contents (Elt F)),
    binary main_v11 main_v12 main_v13 (cmpi .eq : (⟨S4096x4096, .i32⟩ : BufTy).Contents (Elt F) → (⟨S4096x4096, .i32⟩ : BufTy).Contents (Elt F) → (⟨S4096x4096, .i1⟩ : BufTy).Contents (Elt F)),
    unary main_v13 main_v14 (uitofp .f32 : (⟨S4096x4096, .i1⟩ : BufTy).Contents (Elt F) → (⟨S4096x4096, .f32⟩ : BufTy).Contents (Elt F)),
    nullary main_v15 (iotaInDim S4096x4096 32 0),
    nullary main_v16 (iotaInDim S4096x4096 32 1),
    nullary main_c (constantI S_ 32 0#32),
    unary main_c main_v17 (broadcastInDim S4096x4096 ![] bcast_S_S4096x4096 : (⟨S_, .i32⟩ : BufTy).Contents (Elt F) → (⟨S4096x4096, .i32⟩ : BufTy).Contents (Elt F)),
    binary main_v15 main_v17 main_v18 (addi : (⟨S4096x4096, .i32⟩ : BufTy).Contents (Elt F) → (⟨S4096x4096, .i32⟩ : BufTy).Contents (Elt F) → (⟨S4096x4096, .i32⟩ : BufTy).Contents (Elt F)),
    binary main_v18 main_v16 main_v19 (cmpi .eq : (⟨S4096x4096, .i32⟩ : BufTy).Contents (Elt F) → (⟨S4096x4096, .i32⟩ : BufTy).Contents (Elt F) → (⟨S4096x4096, .i1⟩ : BufTy).Contents (Elt F)),
    unary main_v19 main_v20 (uitofp .f32 : (⟨S4096x4096, .i1⟩ : BufTy).Contents (Elt F) → (⟨S4096x4096, .f32⟩ : BufTy).Contents (Elt F)),
    nullary main_cst_1 (constant S_ .f32 0x3F800000#32),
    unary main_cst_1 main_v21 (broadcastInDim S4096x4096 ![] bcast_S_S4096x4096 : (⟨S_, .f32⟩ : BufTy).Contents (Elt F) → (⟨S4096x4096, .f32⟩ : BufTy).Contents (Elt F)),
    binary main_v21 main_v20 main_v22 (subf : (⟨S4096x4096, .f32⟩ : BufTy).Contents (Elt F) → (⟨S4096x4096, .f32⟩ : BufTy).Contents (Elt F) → (⟨S4096x4096, .f32⟩ : BufTy).Contents (Elt F)),
    binary main_v14 main_v22 main_v23 (mulf : (⟨S4096x4096, .f32⟩ : BufTy).Contents (Elt F) → (⟨S4096x4096, .f32⟩ : BufTy).Contents (Elt F) → (⟨S4096x4096, .f32⟩ : BufTy).Contents (Elt F)),
    unary main_v8 main_v24 (Host.exp : (⟨S4096x4096, .f32⟩ : BufTy).Contents (Elt F) → (⟨S4096x4096, .f32⟩ : BufTy).Contents (Elt F)),
    binary main_v24 main_v23 main_v25 (mulf : (⟨S4096x4096, .f32⟩ : BufTy).Contents (Elt F) → (⟨S4096x4096, .f32⟩ : BufTy).Contents (Elt F) → (⟨S4096x4096, .f32⟩ : BufTy).Contents (Elt F)) ]

/-- Operations 35 … 66: the three row sums, the per-row loss, the rows with a positive and their count. -/
abbrev ops2 : List (HloOp τ sig (Elt F)) :=
  [ nullary main_cst_2 (constant S_ .f32 0x00000000#32),
    binary main_v25 main_cst_2 main_v26 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0x00000000#32),
    binary main_v24 main_cst_3 main_v27 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_4 (constant S_ .f32 0x322BCC77#32),
    unary main_cst_4 main_v28 (broadcastInDim S4096 ![] bcast_S_S4096 : (⟨S_, .f32⟩ : BufTy).Contents (Elt F) → (⟨S4096, .f32⟩ : BufTy).Contents (Elt F)),
    binary main_v27 main_v28 main_v29 (addf : (⟨S4096, .f32⟩ : BufTy).Contents (Elt F) → (⟨S4096, .f32⟩ : BufTy).Contents (Elt F) → (⟨S4096, .f32⟩ : BufTy).Contents (Elt F)),
    binary main_v26 main_v29 main_v30 (Host.divf : (⟨S4096, .f32⟩ : BufTy).Contents (Elt F) → (⟨S4096, .f32⟩ : BufTy).Contents (Elt F) → (⟨S4096, .f32⟩ : BufTy).Contents (Elt F)),
    nullary main_cst_5 (constant S_ .f32 0x322BCC77#32),
    unary main_cst_5 main_v31 (broadcastInDim S4096 ![] bcast_S_S4096 : (⟨S_, .f32⟩ : BufTy).Contents (Elt F) → (⟨S4096, .f32⟩ : BufTy).Contents (Elt F)),
    binary main_v30 main_v31 main_v32 (addf : (⟨S4096, .f32⟩ : BufTy).Contents (Elt F) → (⟨S4096, .f32⟩ : BufTy).Contents (Elt F) → (⟨S4096, .f32⟩ : BufTy).Contents (Elt F)),
    unary main_v32 main_v33 (Host.log : (⟨S4096, .f32⟩ : BufTy).Contents (Elt F) → (⟨S4096, .f32⟩ : BufTy).Contents (Elt F)),
    unary main_v33 main_v34 (Host.negf : (⟨S4096, .f32⟩ : BufTy).Contents (Elt F) → (⟨S4096, .f32⟩ : BufTy).Contents (Elt F)),
    nullary main_cst_6 (constant S_ .f32 0x00000000#32),
    binary main_v23 main_cst_6 main_v35 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_7 (constant S_ .f32 0x00000000#32),
    unary main_cst_7 main_v36 (broadcastInDim S4096 ![] bcast_S_S4096 : (⟨S_, .f32⟩ : BufTy).Contents (Elt F) → (⟨S4096, .f32⟩ : BufTy).Contents (Elt F)),
    binary main_v35 main_v36 main_v37 (cmpf .ogt : (⟨S4096, .f32⟩ : BufTy).Contents (Elt F) → (⟨S4096, .f32⟩ : BufTy).Contents (Elt F) → (⟨S4096, .i1⟩ : BufTy).Contents (Elt F)),
    unary main_v37 main_v38 ((extui 32 · natLt_1_32) : (⟨S4096, .i1⟩ : BufTy).Contents (Elt F) → (⟨S4096, .i32⟩ : BufTy).Contents (Elt F)),
    nullary main_c_8 (constantI S_ 32 0#32),
    binary main_v38 main_c_8 main_v39 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_c_9 (constantI S_ 32 0#32),
    binary main_v39 main_c_9 main_v40 (cmpi .sgt : (⟨S_, .i32⟩ : BufTy).Contents (Elt F) → (⟨S_, .i32⟩ : BufTy).Contents (Elt F) → (⟨S_, .i1⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S4096, .f32⟩) main_call1_v1) (broadcastInDim S4096 ![] bcast_S_S4096),
    TRef.ternary (TRef.of (T := ⟨S4096, .i1⟩) main_v37) (TRef.of (T := ⟨S4096, .f32⟩) main_v34) (TRef.of (T := ⟨S4096, .f32⟩) main_call1_v1) (TRef.of (T := ⟨S4096, .f32⟩) main_v41) select,
    nullary main_cst_11 (constant S_ .f32 0x00000000#32),
    binary main_v41 main_cst_11 main_v42 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_c_12 (constantI S_ 32 1#32),
    binary main_v39 main_c_12 main_v43 (maxsi : (⟨S_, .i32⟩ : BufTy).Contents (Elt F) → (⟨S_, .i32⟩ : BufTy).Contents (Elt F) → (⟨S_, .i32⟩ : BufTy).Contents (Elt F)),
    unary main_v43 main_v44 (sitofp .f32 : (⟨S_, .i32⟩ : BufTy).Contents (Elt F) → (⟨S_, .f32⟩ : BufTy).Contents (Elt F)) ]

/-- Operations 67 … 102: the contrastive loss, and the three tables of rows the triplet table names. -/
abbrev ops3 : List (HloOp τ sig (Elt F)) :=
  [ binary main_v42 main_v44 main_v45 (Host.divf : (⟨S_, .f32⟩ : BufTy).Contents (Elt F) → (⟨S_, .f32⟩ : BufTy).Contents (Elt F) → (⟨S_, .f32⟩ : BufTy).Contents (Elt F)),
    nullary main_cst_13 (constant S_ .f32 0x00000000#32),
    TRef.ternary (TRef.of (T := ⟨S_, .i1⟩) main_v40) (TRef.of (T := ⟨S_, .f32⟩) main_v45) (TRef.of (T := ⟨S_, .f32⟩) main_cst_13) (TRef.of (T := ⟨S_, .f32⟩) main_v46) select,
    unary main_arg2 main_v47 ((extractStridedSlice S4096x1 ![0, 0] · slices_S4096x3_S4096x1_0_0) : (⟨S4096x3, .i32⟩ : BufTy).Contents (Elt F) → (⟨S4096x1, .i32⟩ : BufTy).Contents (Elt F)),
    reshape main_v47 main_v48 rfl shapeCasts_S4096x1_S4096,
    nullary main_c_14 (constantI S_ 32 0#32),
    unary main_c_14 main_v49 (broadcastInDim S4096 ![] bcast_S_S4096 : (⟨S_, .i32⟩ : BufTy).Contents (Elt F) → (⟨S4096, .i32⟩ : BufTy).Contents (Elt F)),
    binary main_v48 main_v49 main_v50 (cmpi .slt : (⟨S4096, .i32⟩ : BufTy).Contents (Elt F) → (⟨S4096, .i32⟩ : BufTy).Contents (Elt F) → (⟨S4096, .i1⟩ : BufTy).Contents (Elt F)),
    nullary main_c_15 (constantI S_ 32 4096#32),
    unary main_c_15 main_v51 (broadcastInDim S4096 ![] bcast_S_S4096 : (⟨S_, .i32⟩ : BufTy).Contents (Elt F) → (⟨S4096, .i32⟩ : BufTy).Contents (Elt F)),
    binary main_v48 main_v51 main_v52 (addi : (⟨S4096, .i32⟩ : BufTy).Contents (Elt F) → (⟨S4096, .i32⟩ : BufTy).Contents (Elt F) → (⟨S4096, .i32⟩ : BufTy).Contents (Elt F)),
    ternary main_v50 main_v52 main_v48 main_v53 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v53 main_v54 (broadcastInDim S4096x1 ![0] bcast_S4096_S4096x1_0 : (⟨S4096, .i32⟩ : BufTy).Contents (Elt F) → (⟨S4096x1, .i32⟩ : BufTy).Contents (Elt F)),
    binary main_arg0 main_v54 main_v55 ((fun x i => Host.gather gather_S4096x512_S4096x1_S4096x512_1_0_n_n_0_1_1512 x i) : (⟨S4096x512, .f32⟩ : BufTy).Contents (Elt F) → (⟨S4096x1, .i32⟩ : BufTy).Contents (Elt F) → (⟨S4096x512, .f32⟩ : BufTy).Contents (Elt F)),
    unary main_arg2 main_v56 ((extractStridedSlice S4096x1 ![0, 1] · slices_S4096x3_S4096x1_0_1) : (⟨S4096x3, .i32⟩ : BufTy).Contents (Elt F) → (⟨S4096x1, .i32⟩ : BufTy).Contents (Elt F)),
    reshape main_v56 main_v57 rfl shapeCasts_S4096x1_S4096,
    nullary main_c_16 (constantI S_ 32 0#32),
    unary main_c_16 main_v58 (broadcastInDim S4096 ![] bcast_S_S4096 : (⟨S_, .i32⟩ : BufTy).Contents (Elt F) → (⟨S4096, .i32⟩ : BufTy).Contents (Elt F)),
    binary main_v57 main_v58 main_v59 (cmpi .slt : (⟨S4096, .i32⟩ : BufTy).Contents (Elt F) → (⟨S4096, .i32⟩ : BufTy).Contents (Elt F) → (⟨S4096, .i1⟩ : BufTy).Contents (Elt F)),
    nullary main_c_17 (constantI S_ 32 4096#32),
    unary main_c_17 main_v60 (broadcastInDim S4096 ![] bcast_S_S4096 : (⟨S_, .i32⟩ : BufTy).Contents (Elt F) → (⟨S4096, .i32⟩ : BufTy).Contents (Elt F)),
    binary main_v57 main_v60 main_v61 (addi : (⟨S4096, .i32⟩ : BufTy).Contents (Elt F) → (⟨S4096, .i32⟩ : BufTy).Contents (Elt F) → (⟨S4096, .i32⟩ : BufTy).Contents (Elt F)),
    ternary main_v59 main_v61 main_v57 main_v62 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v62 main_v63 (broadcastInDim S4096x1 ![0] bcast_S4096_S4096x1_0 : (⟨S4096, .i32⟩ : BufTy).Contents (Elt F) → (⟨S4096x1, .i32⟩ : BufTy).Contents (Elt F)),
    binary main_arg0 main_v63 main_v64 ((fun x i => Host.gather gather_S4096x512_S4096x1_S4096x512_1_0_n_n_0_1_1512 x i) : (⟨S4096x512, .f32⟩ : BufTy).Contents (Elt F) → (⟨S4096x1, .i32⟩ : BufTy).Contents (Elt F) → (⟨S4096x512, .f32⟩ : BufTy).Contents (Elt F)),
    unary main_arg2 main_v65 ((extractStridedSlice S4096x1 ![0, 2] · slices_S4096x3_S4096x1_0_2) : (⟨S4096x3, .i32⟩ : BufTy).Contents (Elt F) → (⟨S4096x1, .i32⟩ : BufTy).Contents (Elt F)),
    reshape main_v65 main_v66 rfl shapeCasts_S4096x1_S4096,
    nullary main_c_18 (constantI S_ 32 0#32),
    unary main_c_18 main_v67 (broadcastInDim S4096 ![] bcast_S_S4096 : (⟨S_, .i32⟩ : BufTy).Contents (Elt F) → (⟨S4096, .i32⟩ : BufTy).Contents (Elt F)),
    binary main_v66 main_v67 main_v68 (cmpi .slt : (⟨S4096, .i32⟩ : BufTy).Contents (Elt F) → (⟨S4096, .i32⟩ : BufTy).Contents (Elt F) → (⟨S4096, .i1⟩ : BufTy).Contents (Elt F)),
    nullary main_c_19 (constantI S_ 32 4096#32),
    unary main_c_19 main_v69 (broadcastInDim S4096 ![] bcast_S_S4096 : (⟨S_, .i32⟩ : BufTy).Contents (Elt F) → (⟨S4096, .i32⟩ : BufTy).Contents (Elt F)),
    binary main_v66 main_v69 main_v70 (addi : (⟨S4096, .i32⟩ : BufTy).Contents (Elt F) → (⟨S4096, .i32⟩ : BufTy).Contents (Elt F) → (⟨S4096, .i32⟩ : BufTy).Contents (Elt F)),
    ternary main_v68 main_v70 main_v66 main_v71 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v71 main_v72 (broadcastInDim S4096x1 ![0] bcast_S4096_S4096x1_0 : (⟨S4096, .i32⟩ : BufTy).Contents (Elt F) → (⟨S4096x1, .i32⟩ : BufTy).Contents (Elt F)),
    binary main_arg0 main_v72 main_v73 ((fun x i => Host.gather gather_S4096x512_S4096x1_S4096x512_1_0_n_n_0_1_1512 x i) : (⟨S4096x512, .f32⟩ : BufTy).Contents (Elt F) → (⟨S4096x1, .i32⟩ : BufTy).Contents (Elt F) → (⟨S4096x512, .f32⟩ : BufTy).Contents (Elt F)) ]

/-- Operations 103 … 132: the two distances per row, the hinge, its mean, and the first weighted term. -/
abbrev ops4 : List (HloOp τ sig (Elt F)) :=
  [ binary main_v55 main_v64 main_v74 (subf : (⟨S4096x512, .f32⟩ : BufTy).Contents (Elt F) → (⟨S4096x512, .f32⟩ : BufTy).Contents (Elt F) → (⟨S4096x512, .f32⟩ : BufTy).Contents (Elt F)),
    nullary main_cst_20 (constant S_ .f32 0x358637BD#32),
    unary main_cst_20 main_v75 (broadcastInDim S4096x512 ![] bcast_S_S4096x512 : (⟨S_, .f32⟩ : BufTy).Contents (Elt F) → (⟨S4096x512, .f32⟩ : BufTy).Contents (Elt F)),
    binary main_v74 main_v75 main_v76 (addf : (⟨S4096x512, .f32⟩ : BufTy).Contents (Elt F) → (⟨S4096x512, .f32⟩ : BufTy).Contents (Elt F) → (⟨S4096x512, .f32⟩ : BufTy).Contents (Elt F)),
    TRef.binary (TRef.of (T := ⟨S4096x512, .f32⟩) main_v76) (TRef.of (T := ⟨S4096x512, .f32⟩) main_v76) (TRef.of (T := ⟨S4096x512, .f32⟩) main_call3_v0) mulf,
    TRef.nullary (TRef.of (T := ⟨S_, .f32⟩) main_call3_cst) (constant S_ .f32 0x00000000#32),
    TRef.binary (TRef.of (T := ⟨S4096x512, .f32⟩) main_call3_v0) (TRef.of (T := ⟨S_, .f32⟩) main_call3_cst) (TRef.of (T := ⟨S4096, .f32⟩) main_call3_v1) (fun x v => Host.reduceAdd x v reducesTo_S4096x512_S4096_d1 h_S_),
    TRef.unary (TRef.of (T := ⟨S4096, .f32⟩) main_call3_v1) (TRef.of (T := ⟨S4096, .f32⟩) main_v77) Host.sqrt,
    binary main_v55 main_v73 main_v78 (subf : (⟨S4096x512, .f32⟩ : BufTy).Contents (Elt F) → (⟨S4096x512, .f32⟩ : BufTy).Contents (Elt F) → (⟨S4096x512, .f32⟩ : BufTy).Contents (Elt F)),
    nullary main_cst_21 (constant S_ .f32 0x358637BD#32),
    unary main_cst_21 main_v79 (broadcastInDim S4096x512 ![] bcast_S_S4096x512 : (⟨S_, .f32⟩ : BufTy).Contents (Elt F) → (⟨S4096x512, .f32⟩ : BufTy).Contents (Elt F)),
    binary main_v78 main_v79 main_v80 (addf : (⟨S4096x512, .f32⟩ : BufTy).Contents (Elt F) → (⟨S4096x512, .f32⟩ : BufTy).Contents (Elt F) → (⟨S4096x512, .f32⟩ : BufTy).Contents (Elt F)),
    TRef.binary (TRef.of (T := ⟨S4096x512, .f32⟩) main_v80) (TRef.of (T := ⟨S4096x512, .f32⟩) main_v80) (TRef.of (T := ⟨S4096x512, .f32⟩) main_call4_v0) mulf,
    TRef.nullary (TRef.of (T := ⟨S_, .f32⟩) main_call4_cst) (constant S_ .f32 0x00000000#32),
    TRef.binary (TRef.of (T := ⟨S4096x512, .f32⟩) main_call4_v0) (TRef.of (T := ⟨S_, .f32⟩) main_call4_cst) (TRef.of (T := ⟨S4096, .f32⟩) main_call4_v1) (fun x v => Host.reduceAdd x v reducesTo_S4096x512_S4096_d1 h_S_),
    TRef.unary (TRef.of (T := ⟨S4096, .f32⟩) main_call4_v1) (TRef.of (T := ⟨S4096, .f32⟩) main_v81) Host.sqrt,
    binary main_v77 main_v81 main_v82 (subf : (⟨S4096, .f32⟩ : BufTy).Contents (Elt F) → (⟨S4096, .f32⟩ : BufTy).Contents (Elt F) → (⟨S4096, .f32⟩ : BufTy).Contents (Elt F)),
    nullary main_cst_22 (constant S_ .f32 0x3F000000#32),
    unary main_cst_22 main_v83 (broadcastInDim S4096 ![] bcast_S_S4096 : (⟨S_, .f32⟩ : BufTy).Contents (Elt F) → (⟨S4096, .f32⟩ : BufTy).Contents (Elt F)),
    binary main_v82 main_v83 main_v84 (addf : (⟨S4096, .f32⟩ : BufTy).Contents (Elt F) → (⟨S4096, .f32⟩ : BufTy).Contents (Elt F) → (⟨S4096, .f32⟩ : BufTy).Contents (Elt F)),
    nullary main_cst_23 (constant S_ .f32 0x00000000#32),
    unary main_cst_23 main_v85 (broadcastInDim S4096 ![] bcast_S_S4096 : (⟨S_, .f32⟩ : BufTy).Contents (Elt F) → (⟨S4096, .f32⟩ : BufTy).Contents (Elt F)),
    binary main_v84 main_v85 main_v86 (maximumf : (⟨S4096, .f32⟩ : BufTy).Contents (Elt F) → (⟨S4096, .f32⟩ : BufTy).Contents (Elt F) → (⟨S4096, .f32⟩ : BufTy).Contents (Elt F)),
    nullary main_cst_24 (constant S_ .f32 0x00000000#32),
    binary main_v86 main_cst_24 main_v87 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_25 (constant S_ .f32 0x45800000#32),
    binary main_v87 main_cst_25 main_v88 (Host.divf : (⟨S_, .f32⟩ : BufTy).Contents (Elt F) → (⟨S_, .f32⟩ : BufTy).Contents (Elt F) → (⟨S_, .f32⟩ : BufTy).Contents (Elt F)),
    nullary main_cst_26 (constant S_ .f32 0x3F800000#32),
    binary main_cst_26 main_v46 main_v89 (mulf : (⟨S_, .f32⟩ : BufTy).Contents (Elt F) → (⟨S_, .f32⟩ : BufTy).Contents (Elt F) → (⟨S_, .f32⟩ : BufTy).Contents (Elt F)),
    nullary main_cst_27 (constant S_ .f32 0x3E99999A#32) ]

/-- Operations 133, 134: the second weighted term and the total. -/
abbrev ops5 : List (HloOp τ sig (Elt F)) :=
  [ binary main_cst_27 main_v88 main_v90 (mulf : (⟨S_, .f32⟩ : BufTy).Contents (Elt F) → (⟨S_, .f32⟩ : BufTy).Contents (Elt F) → (⟨S_, .f32⟩ : BufTy).Contents (Elt F)),
    binary main_v89 main_v90 main_v91 (addf : (⟨S_, .f32⟩ : BufTy).Contents (Elt F) → (⟨S_, .f32⟩ : BufTy).Contents (Elt F) → (⟨S_, .f32⟩ : BufTy).Contents (Elt F)) ]

/-- All 134 operations. -/
abbrev opsAll : List (HloOp τ sig (Elt F)) := ops1 ++ (ops2 ++ (ops3 ++ (ops4 ++ ops5)))

/-! ## The program is that line -/

set_option maxRecDepth 8192 in
set_option maxHeartbeats 2000000 in
theorem part0_eq (c : Dev nD) : main_part0 (F := F) c = seq (ops1 ++ ops2) := rfl
set_option maxRecDepth 8192 in
set_option maxHeartbeats 2000000 in
theorem part1_eq (c : Dev nD) : main_part1 (F := F) c = seq (ops3 ++ ops4) := rfl
theorem part2_eq (c : Dev nD) : main_part2 (F := F) c = seq ops5 := rfl

theorem main_eq (c : Dev nD) : main (F := F) c = seq opsAll := by
  show (main_part0 (F := F) c >>= fun _ => main_part1 (F := F) c >>= fun _ => main_part2 (F := F) c) = _
  rw [part0_eq, part1_eq, part2_eq]
  simp only [opsAll, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches the core's own buffers only, and none allocates -/

theorem ops1_sub : (ops1 : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., unary_bufs_sub .., binary_bufs_sub ..,
    nullary_bufs_sub .., unary_bufs_sub .., binary_bufs_sub .., unary_bufs_sub .., unary_bufs_sub .., unary_bufs_sub ..,
    unary_bufs_sub .., binary_bufs_sub .., unary_bufs_sub .., nullary_bufs_sub .., nullary_bufs_sub .., nullary_bufs_sub ..,
    unary_bufs_sub .., binary_bufs_sub .., binary_bufs_sub .., unary_bufs_sub .., nullary_bufs_sub .., unary_bufs_sub ..,
    binary_bufs_sub .., binary_bufs_sub .., unary_bufs_sub .., binary_bufs_sub ..⟩

theorem ops2_sub : (ops2 : List (HloOp τ sig (Elt F))).Forall fun op => op.bufs ⊆ tcRefs τ sig :=
  ⟨nullary_bufs_sub .., binary_bufs_sub .., nullary_bufs_sub .., binary_bufs_sub .., nullary_bufs_sub .., unary_bufs_sub ..,
    binary_bufs_sub .., binary_bufs_sub .., nullary_bufs_sub .., unary_bufs_sub .., binary_bufs_sub .., unary_bufs_sub ..,
    unary_bufs_sub .., nullary_bufs_sub .., binary_bufs_sub .., nullary_bufs_sub .., unary_bufs_sub .., binary_bufs_sub ..,
    unary_bufs_sub .., nullary_bufs_sub .., binary_bufs_sub .., nullary_bufs_sub .., binary_bufs_sub .., nullary_bufs_sub ..,
    unary_bufs_sub .., unary_bufs_sub .., ternary_bufs_sub .., nullary_bufs_sub .., binary_bufs_sub .., nullary_bufs_sub ..,
    binary_bufs_sub .., unary_bufs_sub ..⟩

theorem ops3_sub : (ops3 : List (HloOp τ sig (Elt F))).Forall fun op => op.bufs ⊆ tcRefs τ sig :=
  ⟨binary_bufs_sub .., nullary_bufs_sub .., ternary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..⟩

theorem ops4_sub : (ops4 : List (HloOp τ sig (Elt F))).Forall fun op => op.bufs ⊆ tcRefs τ sig :=
  ⟨binary_bufs_sub .., nullary_bufs_sub .., unary_bufs_sub .., binary_bufs_sub .., binary_bufs_sub .., nullary_bufs_sub ..,
    binary_bufs_sub .., unary_bufs_sub .., binary_bufs_sub .., nullary_bufs_sub .., unary_bufs_sub .., binary_bufs_sub ..,
    binary_bufs_sub .., nullary_bufs_sub .., binary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., nullary_bufs_sub .., binary_bufs_sub .., nullary_bufs_sub .., binary_bufs_sub .., nullary_bufs_sub ..⟩

theorem ops5_sub : (ops5 : List (HloOp τ sig (Elt F))).Forall fun op => op.bufs ⊆ tcRefs τ sig :=
  ⟨binary_bufs_sub .., binary_bufs_sub ..⟩

private theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem ops_sub : (opsAll : List (HloOp τ sig (Elt F))).Forall fun op => op.bufs ⊆ tcRefs τ sig :=
  forall_append ops1_sub (forall_append ops2_sub (forall_append ops3_sub (forall_append ops4_sub ops5_sub)))

theorem fresh1 : ∀ op ∈ (ops1 : List (HloOp τ sig (Elt F))), op.fresh = ∅ := by
  intro _ h; (repeat (cases h with | head => rfl | tail _ h => ?_)); exact nomatch h
theorem fresh2 : ∀ op ∈ (ops2 : List (HloOp τ sig (Elt F))), op.fresh = ∅ := by
  intro _ h; (repeat (cases h with | head => rfl | tail _ h => ?_)); exact nomatch h
theorem fresh3 : ∀ op ∈ (ops3 : List (HloOp τ sig (Elt F))), op.fresh = ∅ := by
  intro _ h; (repeat (cases h with | head => rfl | tail _ h => ?_)); exact nomatch h
theorem fresh4 : ∀ op ∈ (ops4 : List (HloOp τ sig (Elt F))), op.fresh = ∅ := by
  intro _ h; (repeat (cases h with | head => rfl | tail _ h => ?_)); exact nomatch h
theorem fresh5 : ∀ op ∈ (ops5 : List (HloOp τ sig (Elt F))), op.fresh = ∅ := by
  intro _ h; (repeat (cases h with | head => rfl | tail _ h => ?_)); exact nomatch h

theorem freshAll : ∀ op ∈ (opsAll : List (HloOp τ sig (Elt F))), op.fresh = ∅ := fun op h =>
  (List.mem_append.1 h).elim (fresh1 op) fun h => (List.mem_append.1 h).elim (fresh2 op) fun h =>
    (List.mem_append.1 h).elim (fresh3 op) fun h => (List.mem_append.1 h).elim (fresh4 op) (fresh5 op)

/-! ## What each stretch leaves, from what it finds -/

/-- One line after another folds as the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Stretch 1 from the arguments: the mask, the exponential table and their product. -/
theorem stage1 (V : Valuation τ sig (Elt F)) (x0 : (⟨S4096x512, .f32⟩ : BufTy).Contents (Elt F)) (x1 : (⟨S4096, .i32⟩ : BufTy).Contents (Elt F)) (x2 : (⟨S4096x3, .i32⟩ : BufTy).Contents (Elt F))
    (h0 : V (main_arg0 : DevRef τ sig) = x0) (h1 : V (main_arg1 : DevRef τ sig) = x1) (h2 : V (main_arg2 : DevRef τ sig) = x2) :
    after ops1 V (main_v23 : DevRef τ sig) = RefRead.val_main_v23 (F := F) x1
    ∧ after ops1 V (main_v24 : DevRef τ sig) = RefRead.val_main_v24 (F := F) x0
    ∧ after ops1 V (main_v25 : DevRef τ sig) = RefRead.val_main_v25 (F := F) x0 x1
    ∧ after ops1 V (main_arg0 : DevRef τ sig) = x0
    ∧ after ops1 V (main_arg1 : DevRef τ sig) = x1
    ∧ after ops1 V (main_arg2 : DevRef τ sig) = x2 := by
  refine ⟨?_, ?_, ?_, ?_, ?_, ?_⟩ <;> after_results_simp <;> (try simp only [TRef.ofBuf, TRef.toBuf, cast_eq]) <;>
    (try simp only [h0, h1, h2]) <;> rfl

/-- Stretch 2 from those: whether a row is kept, the summed loss, the count as a float. -/
theorem stage2 (V : Valuation τ sig (Elt F)) (x0 : (⟨S4096x512, .f32⟩ : BufTy).Contents (Elt F)) (x1 : (⟨S4096, .i32⟩ : BufTy).Contents (Elt F)) (x2 : (⟨S4096x3, .i32⟩ : BufTy).Contents (Elt F))
    (h23 : V (main_v23 : DevRef τ sig) = RefRead.val_main_v23 (F := F) x1)
    (h24 : V (main_v24 : DevRef τ sig) = RefRead.val_main_v24 (F := F) x0)
    (h25 : V (main_v25 : DevRef τ sig) = RefRead.val_main_v25 (F := F) x0 x1)
    (h0 : V (main_arg0 : DevRef τ sig) = x0) (h1 : V (main_arg1 : DevRef τ sig) = x1) (h2 : V (main_arg2 : DevRef τ sig) = x2) :
    after ops2 V (main_v40 : DevRef τ sig) = RefRead.val_main_v40 (F := F) x1
    ∧ after ops2 V (main_v42 : DevRef τ sig) = RefRead.val_main_v42 (F := F) x0 x1
    ∧ after ops2 V (main_v44 : DevRef τ sig) = RefRead.val_main_v44 (F := F) x1
    ∧ after ops2 V (main_arg0 : DevRef τ sig) = x0
    ∧ after ops2 V (main_arg1 : DevRef τ sig) = x1
    ∧ after ops2 V (main_arg2 : DevRef τ sig) = x2 := by
  refine ⟨?_, ?_, ?_, ?_, ?_, ?_⟩ <;> after_results_simp <;> (try simp only [TRef.ofBuf, TRef.toBuf, cast_eq]) <;>
    (try simp only [h23, h24, h25, h0, h1, h2]) <;> rfl

/-- Stretch 3 from those: the contrastive loss and the three gathered tables. -/
theorem stage3 (V : Valuation τ sig (Elt F)) (x0 : (⟨S4096x512, .f32⟩ : BufTy).Contents (Elt F)) (x1 : (⟨S4096, .i32⟩ : BufTy).Contents (Elt F)) (x2 : (⟨S4096x3, .i32⟩ : BufTy).Contents (Elt F))
    (h40 : V (main_v40 : DevRef τ sig) = RefRead.val_main_v40 (F := F) x1)
    (h42 : V (main_v42 : DevRef τ sig) = RefRead.val_main_v42 (F := F) x0 x1)
    (h44 : V (main_v44 : DevRef τ sig) = RefRead.val_main_v44 (F := F) x1)
    (h0 : V (main_arg0 : DevRef τ sig) = x0) (h1 : V (main_arg1 : DevRef τ sig) = x1) (h2 : V (main_arg2 : DevRef τ sig) = x2) :
    after ops3 V (main_v46 : DevRef τ sig) = RefRead.val_main_v46 (F := F) x0 x1
    ∧ after ops3 V (main_v55 : DevRef τ sig) = RefRead.val_main_v55 (F := F) x0 x2
    ∧ after ops3 V (main_v64 : DevRef τ sig) = RefRead.val_main_v64 (F := F) x0 x2
    ∧ after ops3 V (main_v73 : DevRef τ sig) = RefRead.val_main_v73 (F := F) x0 x2
    ∧ after ops3 V (main_arg0 : DevRef τ sig) = x0
    ∧ after ops3 V (main_arg1 : DevRef τ sig) = x1
    ∧ after ops3 V (main_arg2 : DevRef τ sig) = x2 := by
  refine ⟨?_, ?_, ?_, ?_, ?_, ?_, ?_⟩ <;> after_results_simp <;> (try simp only [TRef.ofBuf, TRef.toBuf, cast_eq]) <;>
    (try simp only [h40, h42, h44, h0, h1, h2]) <;> rfl

/-- Stretch 4 from those: the triplet loss, the first weighted term, the second weight; the contrastive loss stays. -/
theorem stage4 (V : Valuation τ sig (Elt F)) (x0 : (⟨S4096x512, .f32⟩ : BufTy).Contents (Elt F)) (x1 : (⟨S4096, .i32⟩ : BufTy).Contents (Elt F)) (x2 : (⟨S4096x3, .i32⟩ : BufTy).Contents (Elt F))
    (h46 : V (main_v46 : DevRef τ sig) = RefRead.val_main_v46 (F := F) x0 x1)
    (h55 : V (main_v55 : DevRef τ sig) = RefRead.val_main_v55 (F := F) x0 x2)
    (h64 : V (main_v64 : DevRef τ sig) = RefRead.val_main_v64 (F := F) x0 x2)
    (h73 : V (main_v73 : DevRef τ sig) = RefRead.val_main_v73 (F := F) x0 x2)
    (h0 : V (main_arg0 : DevRef τ sig) = x0) (h1 : V (main_arg1 : DevRef τ sig) = x1) (h2 : V (main_arg2 : DevRef τ sig) = x2) :
    after ops4 V (main_v46 : DevRef τ sig) = RefRead.val_main_v46 (F := F) x0 x1
    ∧ after ops4 V (main_v88 : DevRef τ sig) = RefRead.val_main_v88 (F := F) x0 x2
    ∧ after ops4 V (main_v89 : DevRef τ sig) = RefRead.val_main_v89 (F := F) x0 x1
    ∧ after ops4 V (main_cst_27 : DevRef τ sig) = RefRead.val_main_cst_27 (F := F)
    ∧ after ops4 V (main_arg0 : DevRef τ sig) = x0
    ∧ after ops4 V (main_arg1 : DevRef τ sig) = x1
    ∧ after ops4 V (main_arg2 : DevRef τ sig) = x2 := by
  refine ⟨?_, ?_, ?_, ?_, ?_, ?_, ?_⟩ <;> after_results_simp <;> (try simp only [TRef.ofBuf, TRef.toBuf, cast_eq]) <;>
    (try simp only [h46, h55, h64, h73, h0, h1, h2]) <;> rfl

/-- Stretch 5 from those: the total; the two losses stay. -/
theorem stage5 (V : Valuation τ sig (Elt F)) (x0 : (⟨S4096x512, .f32⟩ : BufTy).Contents (Elt F)) (x1 : (⟨S4096, .i32⟩ : BufTy).Contents (Elt F)) (x2 : (⟨S4096x3, .i32⟩ : BufTy).Contents (Elt F))
    (h46 : V (main_v46 : DevRef τ sig) = RefRead.val_main_v46 (F := F) x0 x1)
    (h88 : V (main_v88 : DevRef τ sig) = RefRead.val_main_v88 (F := F) x0 x2)
    (h89 : V (main_v89 : DevRef τ sig) = RefRead.val_main_v89 (F := F) x0 x1)
    (h27 : V (main_cst_27 : DevRef τ sig) = RefRead.val_main_cst_27 (F := F))
    (h0 : V (main_arg0 : DevRef τ sig) = x0) (h1 : V (main_arg1 : DevRef τ sig) = x1) (h2 : V (main_arg2 : DevRef τ sig) = x2) :
    after ops5 V (main_v91 : DevRef τ sig) = RefRead.val_main_v91 (F := F) x0 x1 x2
    ∧ after ops5 V (main_v46 : DevRef τ sig) = RefRead.val_main_v46 (F := F) x0 x1
    ∧ after ops5 V (main_v88 : DevRef τ sig) = RefRead.val_main_v88 (F := F) x0 x2
    ∧ after ops5 V (main_arg0 : DevRef τ sig) = x0
    ∧ after ops5 V (main_arg1 : DevRef τ sig) = x1
    ∧ after ops5 V (main_arg2 : DevRef τ sig) = x2 := by
  refine ⟨?_, ?_, ?_, ?_, ?_, ?_⟩ <;> after_results_simp <;> (try simp only [TRef.ofBuf, TRef.toBuf, cast_eq]) <;>
    (try simp only [h46, h88, h89, h27, h0, h1, h2]) <;> rfl

/-- All 134 operations from the arguments: the three results at their last stages, the arguments as they were. -/
theorem results (V : Valuation τ sig (Elt F)) :
    after opsAll V (main_v91 : DevRef τ sig)
        = RefRead.val_main_v91 (F := F) (V (main_arg0 : DevRef τ sig)) (V (main_arg1 : DevRef τ sig)) (V (main_arg2 : DevRef τ sig))
    ∧ after opsAll V (main_v46 : DevRef τ sig) = RefRead.val_main_v46 (F := F) (V (main_arg0 : DevRef τ sig)) (V (main_arg1 : DevRef τ sig))
    ∧ after opsAll V (main_v88 : DevRef τ sig) = RefRead.val_main_v88 (F := F) (V (main_arg0 : DevRef τ sig)) (V (main_arg2 : DevRef τ sig))
    ∧ after opsAll V (main_arg0 : DevRef τ sig) = V (main_arg0 : DevRef τ sig)
    ∧ after opsAll V (main_arg1 : DevRef τ sig) = V (main_arg1 : DevRef τ sig)
    ∧ after opsAll V (main_arg2 : DevRef τ sig) = V (main_arg2 : DevRef τ sig) := by
  obtain ⟨a23, a24, a25, a0, a1, a2⟩ := stage1 V _ _ _ rfl rfl rfl
  obtain ⟨b40, b42, b44, b0, b1, b2⟩ := stage2 (after ops1 V) _ _ _ a23 a24 a25 a0 a1 a2
  obtain ⟨c46, c55, c64, c73, c0, c1, c2⟩ := stage3 (after ops2 (after ops1 V)) _ _ _ b40 b42 b44 b0 b1 b2
  obtain ⟨d46, d88, d89, d27, d0, d1, d2⟩ :=
    stage4 (after ops3 (after ops2 (after ops1 V))) _ _ _ c46 c55 c64 c73 c0 c1 c2
  have e := stage5 (after ops4 (after ops3 (after ops2 (after ops1 V)))) _ _ _ d46 d88 d89 d27 d0 d1 d2
  simpa only [opsAll, after_app] using e

/-! ## The run -/

/-- On every device, for any float values, from any memory with zero counters: every weakly fair execution of the
    reference terminates with the total, the contrastive loss and the triplet loss at the last stages of their
    chains of the launch contents of the three arguments, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v91)
          = RefRead.val_main_v91 (F := F) (m ((c.tc : Thread nD τ).loc main_arg0)) (m ((c.tc : Thread nD τ).loc main_arg1))
              (m ((c.tc : Thread nD τ).loc main_arg2))
      ∧ r.2.mem ((c.tc : Thread nD τ).loc main_v46)
          = RefRead.val_main_v46 (F := F) (m ((c.tc : Thread nD τ).loc main_arg0)) (m ((c.tc : Thread nD τ).loc main_arg1))
      ∧ r.2.mem ((c.tc : Thread nD τ).loc main_v88)
          = RefRead.val_main_v88 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v91).trans (results (launchContents m c)).1, (h c main_v46).trans (results (launchContents m c)).2.1,
        (h c main_v88).trans (results (launchContents m c)).2.2.1, (h c main_arg0).trans (results (launchContents m c)).2.2.2.1,
        (h c main_arg1).trans (results (launchContents m c)).2.2.2.2.1,
        (h c main_arg2).trans (results (launchContents m c)).2.2.2.2.2⟩)
    (run_seq scopedRefs_eq scopedSems_eq defs main (fun _ => opsAll) main_eq (fun _ => ops_sub) m ρ (fun _ => freshAll))

end Cert.ReferenceIdeal.RefRun

end
-- ==== Proof.Spec.lean ====
/- The mathematics the two programs are compared through, over the extended reals and the literal shapes, naming no
   program. The table of 4096 rows and 512 features is first divided, row by row, by the larger of the row's norm and a
   small word (`normalise`). For rows `r`, `j` the pair term is the exponential of the inner product of the two rows
   divided by a scalar (`pairTerm`); the mask term is one where the two labels are equal and `r ≠ j`, as the converts
   and the subtraction from one give it (`maskTerm`). From the three row sums of pair × mask, pair and mask the
   contrastive loss is the mean over the rows with a positive of `-log (p / (t + ε) + ε)` (`lossTail`). The three
   gathered tables are the rows a column of the triplet table names (`rowsOf`); a row's hinge is the larger of zero and
   the distance anchor–positive minus the distance anchor–negative plus a margin, each distance the square root of a
   sum of squares of differences plus a small word (`sqDist`, `hinge`); the total is one times the first loss plus a
   weight times the mean hinge (`combine`). Every literal stays the word that names it. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## Shapes -/

abbrev S4096x512 : Shape := ⟨2, ![4096, 512]⟩
abbrev S4096 : Shape := ⟨1, ![4096]⟩
abbrev S4096x3 : Shape := ⟨2, ![4096, 3]⟩
abbrev S_ : Shape := ⟨0, ![]⟩
abbrev S4096x1 : Shape := ⟨2, ![4096, 1]⟩

/-! ## Sums over a rank-1 index set, and arrays from their entries -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two arrays over the 4096 rows are equal when they agree at every row number. -/
theorem ext_rows {α : Type} {f g : S4096.Idx → α} (h : ∀ r : Fin 4096, f (ix1 r) = g (ix1 r)) : f = g :=
  funext fun i => (congrArg f (eq_ix1 i)).trans ((h (i 0)).trans (congrArg g (eq_ix1 i)).symm)

/-- Two scalars are equal when they agree at the one index. -/
theorem ext_scalar {α : Type} {f g : S_.Idx → α} (h : f ix0 = g ix0) : f = g :=
  funext fun i => (congrArg f (eq_ix0 i)).trans (h.trans (congrArg g (eq_ix0 i)).symm)

/-! ## The terms of the sums -/

/-- The exponential of the inner product of rows `r` and `j` of `n` divided by the scalar `0x3D8F5C29`. -/
def pairTerm (n : FVec Ideal S4096x512 .f32) (r j : Fin 4096) : EReal :=
  Ideal.exp (Ideal.div (∑ k : Fin 512, n (ix2 r k) * n (ix2 j k)) (Ideal.ofBits .f32 0x3D8F5C29#32))

/-- The positive-pair mask at `(r, j)`: the labels' equality bit as a number, times one minus the equality bit of the
    row number (plus the zero word) and the column number as a number. -/
def maskTerm (lab : IVec S4096 32) (r j : Fin 4096) : EReal :=
  FloatOps.uitofp (F := Ideal) .f32 (IntOp.cmpi .eq (lab (ix1 r)) (lab (ix1 j)))
    * (Ideal.ofBits .f32 0x3F800000#32
        - FloatOps.uitofp (F := Ideal) .f32 (IntOp.cmpi .eq (IntOp.addi (BitVec.ofNat 32 r.val) 0#32) (BitVec.ofNat 32 j.val)))

/-- The sum over the features of the squares of `a − b + 0x358637BD` on row `i`. -/
def sqDist (a b : FVec Ideal S4096x512 .f32) (i : Fin 4096) : EReal :=
  ∑ k : Fin 512, (a (ix2 i k) - b (ix2 i k) + Ideal.ofBits .f32 0x358637BD#32)
    * (a (ix2 i k) - b (ix2 i k) + Ideal.ofBits .f32 0x358637BD#32)

/-- Row `i`'s hinge: the distance to the positive minus the distance to the negative plus the margin `0x3F000000`,
    or zero when that is negative. -/
def hinge (a p g : FVec Ideal S4096x512 .f32) (i : Fin 4096) : EReal :=
  max (Ideal.sqrt (sqDist a p i) - Ideal.sqrt (sqDist a g i) + Ideal.ofBits .f32 0x3F000000#32) 0

/-! ## The shared chains, each one function of what it is applied to

The relations between the literal shapes that the operations ask for, by computation. -/

private theorem reducesTo_S4096x512_S4096_d1 : S4096x512.ReducesTo [1] S4096 := by decide
private theorem h_S_ : 0 < S_.numel := by decide
private theorem bcast_S4096_S4096x1_0 : S4096.BroadcastsInDim S4096x1 (![0] : Fin 1 → Fin S4096x1.rank) := by decide
private theorem bcast_S_S4096x1 : S_.BroadcastsInDim S4096x1 (![] : Fin 0 → Fin S4096x1.rank) := by decide
private theorem bcast_S4096x1_S4096x512_0_1 : S4096x1.BroadcastsInDim S4096x512 (![0, 1] : Fin 2 → Fin S4096x512.rank) := by decide
private theorem bcast_S_S4096 : S_.BroadcastsInDim S4096 (![] : Fin 0 → Fin S4096.rank) := by decide
private theorem natLt_1_32 : 1 < 32 := by decide
private theorem reducesTo_S4096_S_d0 : S4096.ReducesTo [0] S_ := by decide
private theorem shapeCasts_S4096x1_S4096 : S4096x1.ShapeCasts S4096 := by decide

/-- The table with every row divided by the larger of its norm and `0x322BCC77`. -/
def normalise (x : FVec Ideal S4096x512 .f32) : FVec Ideal S4096x512 .f32 :=
  -- the norm of each row, as a column
  let norms : FVec Ideal S4096x1 .f32 :=
    Host.sqrt (F := Ideal) (broadcastInDim S4096x1 ![0] bcast_S4096_S4096x1_0
      (Host.reduceAdd (F := Ideal) (mulf (F := Ideal) x x) (constant (F := Ideal) S_ .f32 0x00000000#32)
        reducesTo_S4096x512_S4096_d1 h_S_))
  Host.divf (F := Ideal) x (broadcastInDim S4096x512 ![0, 1] bcast_S4096x1_S4096x512_0_1
    (maximumf (F := Ideal) norms (broadcastInDim S4096x1 ![] bcast_S_S4096x1 (constant (F := Ideal) S_ .f32 0x322BCC77#32))))

/-- The scalar contrastive loss from the three row sums: `p` the masked sums of exponentials, `t` the full sums of
    exponentials, `n` the row sums of the mask. Per row `-log (p / (t + ε) + ε)`, kept where `n > 0` and zero
    elsewhere; the sum of those over the rows, divided by the count of kept rows (at least one), when a row is
    kept, and zero otherwise. -/
def lossTail (p t n : FVec Ideal S4096 .f32) : FVec Ideal S_ .f32 :=
  -- which rows have a positive, as a bit per row
  let kept : IVec S4096 1 :=
    cmpf (F := Ideal) .ogt n (broadcastInDim S4096 ![] bcast_S_S4096 (constant (F := Ideal) S_ .f32 0x00000000#32))
  -- how many rows are kept, as a 32-bit word
  let count : IVec S_ 32 :=
    Host.reduce IntOp.addi (extui 32 kept natLt_1_32) (constantI S_ 32 0#32) reducesTo_S4096_S_d0 h_S_
  -- the per-row loss
  let perRow : FVec Ideal S4096 .f32 :=
    Host.negf (F := Ideal) (Host.log (F := Ideal) (addf (F := Ideal)
      (Host.divf (F := Ideal) p (addf (F := Ideal) t
        (broadcastInDim S4096 ![] bcast_S_S4096 (constant (F := Ideal) S_ .f32 0x322BCC77#32))))
      (broadcastInDim S4096 ![] bcast_S_S4096 (constant (F := Ideal) S_ .f32 0x322BCC77#32))))
  -- the per-row loss on the kept rows, zero on the others, summed over the rows
  let total : FVec Ideal S_ .f32 :=
    Host.reduceAdd (F := Ideal)
      (select kept perRow (broadcastInDim S4096 ![] bcast_S_S4096 (id (constant (F := Ideal) S_ .f32 0x00000000#32))))
      (constant (F := Ideal) S_ .f32 0x00000000#32) reducesTo_S4096_S_d0 h_S_
  select (cmpi .sgt count (constantI S_ 32 0#32))
    (Host.divf (F := Ideal) total (sitofp (F := Ideal) .f32 (maxsi count (constantI S_ 32 1#32))))
    (constant (F := Ideal) S_ .f32 0x00000000#32)

/-- The total: one times the contrastive loss plus the weight `0x3E99999A` times the triplet loss. -/
def combine (a b : FVec Ideal S_ .f32) : FVec Ideal S_ .f32 :=
  addf (F := Ideal) (mulf (F := Ideal) (constant (F := Ideal) S_ .f32 0x3F800000#32) a)
    (mulf (F := Ideal) (constant (F := Ideal) S_ .f32 0x3E99999A#32) b)

/-- Column `k` of the triplet table is a block of it. -/
theorem slices_col (k : Fin 3) : S4096x3.Slices ![0, k.val] S4096x1 :=
  ⟨rfl, fun a => match a with
    | ⟨0, _⟩ => by show 0 + 4096 ≤ 4096; omega
    | ⟨1, _⟩ => by have := k.isLt; show k.val + 1 ≤ 3; omega⟩

/-- Gathering whole rows of the table at a column of row numbers. -/
def gatherRows : GatherDims S4096x512 S4096x1 S4096x512 where
  offsetDims := [1]
  collapsedSliceDims := [0]
  operandBatchingDims := []
  startIndicesBatchingDims := []
  startIndexMap := [0]
  indexVectorDim := 1
  sliceSizes := ![1, 512]
  wf := by decide

/-- The rows of `x` that column `k` of the triplet table `tr` names: the column as a vector, a negative entry
    moved up by 4096, and row `i` of the result the row of `x` at entry `i` (read signed and clamped). -/
def rowsOf (k : Fin 3) (x : FVec Ideal S4096x512 .f32) (tr : IVec S4096x3 32) : FVec Ideal S4096x512 .f32 :=
  let col : IVec S4096 32 := shapeCast _ (extractStridedSlice S4096x1 ![0, k.val] tr (slices_col k)) shapeCasts_S4096x1_S4096
  Host.gather gatherRows x
    (broadcastInDim S4096x1 ![0] bcast_S4096_S4096x1_0
      (select (cmpi .slt col (broadcastInDim S4096 ![] bcast_S_S4096 (constantI S_ 32 0#32)))
        (addi col (broadcastInDim S4096 ![] bcast_S_S4096 (constantI S_ 32 4096#32))) col))

end Cert.Spec

end
-- ==== Proof.RefSide.lean ====
/- The reference program at the exact instance: its run, its results as the shared host chains applied to three
   row sums and a mean, and each of those read at an index as a plain sum over the extended reals. -/
import proofs.«157248_j13683765805398_1_alg».proof.Proof.RefRun
import proofs.«157248_j13683765805398_1_alg».proof.Proof.RefRead
import proofs.«157248_j13683765805398_1_alg».proof.Proof.Spec
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Idealize.ShloMosaic Idealize.ShloMosaic.TcCoe Idealize.SL.Sem Idealize.ShloMosaic.StableHlo

/-! ## The run: every weakly fair execution ends with the three results at the stages of the argument arrays -/

/-- Every weakly fair execution of the reference terminates with the total, the contrastive loss and the triplet
    loss at the last stages of their chains, as functions of the launch contents of the three argument arrays,
    and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v91)
          = RefRead.val_main_v91 (F := Ideal) (m ((c.tc : Thread nD τ).loc main_arg0)) (m ((c.tc : Thread nD τ).loc main_arg1))
              (m ((c.tc : Thread nD τ).loc main_arg2))
      ∧ r.2.mem ((c.tc : Thread nD τ).loc main_v46)
          = RefRead.val_main_v46 (F := Ideal) (m ((c.tc : Thread nD τ).loc main_arg0)) (m ((c.tc : Thread nD τ).loc main_arg1))
      ∧ r.2.mem ((c.tc : Thread nD τ).loc main_v88)
          = RefRead.val_main_v88 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  RefRun.run (F := Ideal) m ρ

open Idealize.ShloMosaic.ValueIdx

/-! ## The program-free terms and chains, under this namespace's names too -/

export Cert.Spec (idxEquiv1 sum_idx1 ext_rows ext_scalar pairTerm maskTerm sqDist hinge normalise lossTail combine slices_col
  gatherRows rowsOf)

/-! ## The reference's stages are the shared chains -/

/-- The divided table is `normalise` of the table. -/
theorem normalise_eq (x0 : FVec Ideal S4096x512 .f32) : RefRead.val_main_v4 (F := Ideal) x0 = normalise x0 := rfl

/-- The contrastive loss is the shared chain of the three row sums. -/
theorem lossTail_eq (x0 : FVec Ideal S4096x512 .f32) (x1 : IVec S4096 32) :
    RefRead.val_main_v46 (F := Ideal) x0 x1
      = lossTail (RefRead.val_main_v26 (F := Ideal) x0 x1) (RefRead.val_main_v27 (F := Ideal) x0) (RefRead.val_main_v35 (F := Ideal) x1) := rfl

/-- The total is the weighted sum of the two losses. -/
theorem combine_eq (x0 : FVec Ideal S4096x512 .f32) (x1 : IVec S4096 32) (x2 : IVec S4096x3 32) :
    RefRead.val_main_v91 (F := Ideal) x0 x1 x2
      = combine (RefRead.val_main_v46 (F := Ideal) x0 x1) (RefRead.val_main_v88 (F := Ideal) x0 x2) := rfl

/-- The anchors are the rows column 0 names … -/
theorem rowsOf_eq0 (x0 : FVec Ideal S4096x512 .f32) (x2 : IVec S4096x3 32) :
    RefRead.val_main_v55 (F := Ideal) x0 x2 = rowsOf 0 x0 x2 := rfl
/-- … the positives the rows column 1 names … -/
theorem rowsOf_eq1 (x0 : FVec Ideal S4096x512 .f32) (x2 : IVec S4096x3 32) :
    RefRead.val_main_v64 (F := Ideal) x0 x2 = rowsOf 1 x0 x2 := rfl
/-- … the negatives the rows column 2 names. -/
theorem rowsOf_eq2 (x0 : FVec Ideal S4096x512 .f32) (x2 : IVec S4096x3 32) :
    RefRead.val_main_v73 (F := Ideal) x0 x2 = rowsOf 2 x0 x2 := rfl

/-! ## The row sums and the mean, read at an index

Rows and columns are numbered by `Fin 4096`, the features by `Fin 512`; the literals stay the words the program names. -/

/-- The exponential table at `(r, j)`. -/
theorem pair_at (x0 : FVec Ideal S4096x512 .f32) (r j : Fin 4096) :
    RefRead.val_main_v24 (F := Ideal) x0 (ix2 r j) = pairTerm (normalise x0) r j := by
  rw [RefRead.val_main_v24_apply, RefRead.val_main_v8_apply, RefRead.val_main_v6_apply, RefRead.val_main_v7_apply,
    RefRead.val_main_cst_0_apply, ← normalise_eq x0]
  show Ideal.exp (Ideal.div (∑ k : Fin 512, _) (Ideal.ofBits .f32 0x3D8F5C29#32)) = _
  unfold pairTerm
  refine congrArg (fun s => Ideal.exp (Ideal.div s _)) (Finset.sum_congr rfl fun k _ => ?_)
  have el : RefRead.lidx_main_v6 (ix2 r j) k = ix2 r k :=
    funext fun a => Fin.ext (by match a with | ⟨0, _⟩ => rfl | ⟨1, _⟩ => rfl)
  have er : RefRead.idx_main_v5 (RefRead.ridx_main_v6 (ix2 r j) k) = ix2 j k :=
    funext fun a => Fin.ext (by match a with | ⟨0, _⟩ => rfl | ⟨1, _⟩ => rfl)
  rw [RefRead.val_main_v5_apply, el, er]

/-- The mask table at `(r, j)`. -/
theorem mask_at (x1 : IVec S4096 32) (r j : Fin 4096) :
    RefRead.val_main_v23 (F := Ideal) x1 (ix2 r j) = maskTerm x1 r j := by
  have e1 : RefRead.idx_main_v9 (RefRead.idx_main_v11 (ix2 r j)) = ix1 r :=
    funext fun a => Fin.ext (by match a with | ⟨0, _⟩ => rfl)
  have e2 : RefRead.idx_main_v10 (RefRead.idx_main_v12 (ix2 r j)) = ix1 j :=
    funext fun a => Fin.ext (by match a with | ⟨0, _⟩ => rfl)
  rw [RefRead.val_main_v23_apply, RefRead.val_main_v14_apply, RefRead.val_main_v13_apply, RefRead.val_main_v11_apply,
    RefRead.val_main_v9_apply, RefRead.val_main_v12_apply, RefRead.val_main_v10_apply, RefRead.val_main_v22_apply,
    RefRead.val_main_v21_apply, RefRead.val_main_cst_1_apply, RefRead.val_main_v20_apply, RefRead.val_main_v19_apply,
    RefRead.val_main_v18_apply, RefRead.val_main_v15_apply, RefRead.val_main_v17_apply, RefRead.val_main_c_apply,
    RefRead.val_main_v16_apply, e1, e2]
  rfl

private theorem rowcol (r j : Fin 4096) : RefRead.idx_main_v26 (ix1 r) j = ix2 r j :=
  funext fun a => Fin.ext (by match a with | ⟨0, _⟩ => rfl | ⟨1, _⟩ => rfl)

/-- Row `r` of the masked sums of exponentials. -/
theorem posSum_at (x0 : FVec Ideal S4096x512 .f32) (x1 : IVec S4096 32) (r : Fin 4096) :
    RefRead.val_main_v26 (F := Ideal) x0 x1 (ix1 r) = ∑ j : Fin 4096, pairTerm (normalise x0) r j * maskTerm x1 r j := by
  rw [RefRead.val_main_v26_apply, RefRead.val_main_cst_2_apply, Ideal.ofBits_def, Ideal.ofBits_zero_f32, zero_add]
  refine Finset.sum_congr rfl fun j _ => ?_
  rw [rowcol, RefRead.val_main_v25_apply, pair_at, mask_at]
  rfl

/-- Row `r` of the full sums of exponentials. -/
theorem totSum_at (x0 : FVec Ideal S4096x512 .f32) (r : Fin 4096) :
    RefRead.val_main_v27 (F := Ideal) x0 (ix1 r) = ∑ j : Fin 4096, pairTerm (normalise x0) r j := by
  rw [RefRead.val_main_v27_apply, RefRead.val_main_cst_3_apply, Ideal.ofBits_def, Ideal.ofBits_zero_f32, zero_add]
  refine Finset.sum_congr rfl fun j _ => ?_
  exact (congrArg (RefRead.val_main_v24 (F := Ideal) x0) (rowcol r j)).trans (pair_at x0 r j)

/-- Row `r` of the row sums of the mask. -/
theorem maskSum_at (x1 : IVec S4096 32) (r : Fin 4096) :
    RefRead.val_main_v35 (F := Ideal) x1 (ix1 r) = ∑ j : Fin 4096, maskTerm x1 r j := by
  rw [RefRead.val_main_v35_apply, RefRead.val_main_cst_6_apply, Ideal.ofBits_def, Ideal.ofBits_zero_f32, zero_add]
  refine Finset.sum_congr rfl fun j _ => ?_
  exact (congrArg (RefRead.val_main_v23 (F := Ideal) x1) (rowcol r j)).trans (mask_at x1 r j)

private theorem rowfeat (i : Fin 4096) (k : Fin 512) : RefRead.idx_main_call3_v1 (ix1 i) k = ix2 i k :=
  funext fun a => Fin.ext (by match a with | ⟨0, _⟩ => rfl | ⟨1, _⟩ => rfl)

/-- Row `i`'s distance from the anchor to the positive. -/
theorem posDist_at (x0 : FVec Ideal S4096x512 .f32) (x2 : IVec S4096x3 32) (i : Fin 4096) :
    RefRead.val_main_v77 (F := Ideal) x0 x2 (ix1 i) = Ideal.sqrt (sqDist (rowsOf 0 x0 x2) (rowsOf 1 x0 x2) i) := by
  rw [RefRead.val_main_v77_apply, RefRead.val_main_call3_v1_apply, RefRead.val_main_call3_cst_apply, Ideal.ofBits_def,
    Ideal.ofBits_zero_f32, zero_add]
  show Ideal.sqrt (∑ k : Fin 512, _) = _
  unfold sqDist
  refine congrArg Ideal.sqrt (Finset.sum_congr rfl fun k _ => ?_)
  rw [show RefRead.idx_main_call3_v1 (ix1 i) k = ix2 i k from rowfeat i k, RefRead.val_main_call3_v0_apply,
    RefRead.val_main_v76_apply, RefRead.val_main_v74_apply, RefRead.val_main_v75_apply, RefRead.val_main_cst_20_apply,
    rowsOf_eq0, rowsOf_eq1]
  rfl

/-- Row `i`'s distance from the anchor to the negative. -/
theorem negDist_at (x0 : FVec Ideal S4096x512 .f32) (x2 : IVec S4096x3 32) (i : Fin 4096) :
    RefRead.val_main_v81 (F := Ideal) x0 x2 (ix1 i) = Ideal.sqrt (sqDist (rowsOf 0 x0 x2) (rowsOf 2 x0 x2) i) := by
  rw [RefRead.val_main_v81_apply, RefRead.val_main_call4_v1_apply, RefRead.val_main_call4_cst_apply, Ideal.ofBits_def,
    Ideal.ofBits_zero_f32, zero_add]
  show Ideal.sqrt (∑ k : Fin 512, _) = _
  unfold sqDist
  refine congrArg Ideal.sqrt (Finset.sum_congr rfl fun k _ => ?_)
  rw [show RefRead.idx_main_call4_v1 (ix1 i) k = ix2 i k from rowfeat i k, RefRead.val_main_call4_v0_apply,
    RefRead.val_main_v80_apply, RefRead.val_main_v78_apply, RefRead.val_main_v79_apply, RefRead.val_main_cst_21_apply,
    rowsOf_eq0, rowsOf_eq2]
  rfl

/-- Row `i`'s hinge term. -/
theorem hinge_at (x0 : FVec Ideal S4096x512 .f32) (x2 : IVec S4096x3 32) (i : Fin 4096) :
    RefRead.val_main_v86 (F := Ideal) x0 x2 (ix1 i) = hinge (rowsOf 0 x0 x2) (rowsOf 1 x0 x2) (rowsOf 2 x0 x2) i := by
  rw [RefRead.val_main_v86_apply, RefRead.val_main_v84_apply, RefRead.val_main_v82_apply, posDist_at, negDist_at,
    RefRead.val_main_v83_apply, RefRead.val_main_cst_22_apply, RefRead.val_main_v85_apply, RefRead.val_main_cst_23_apply]
  show max (_ - _ + Ideal.ofBits .f32 0x3F000000#32) (Ideal.ofBits .f32 0x00000000#32) = _
  rw [Ideal.ofBits_zero_f32]
  rfl

/-- The triplet loss: the mean of the hinge terms over the 4096 rows. -/
theorem tripletMean_at (x0 : FVec Ideal S4096x512 .f32) (x2 : IVec S4096x3 32) :
    RefRead.val_main_v88 (F := Ideal) x0 x2 ix0
      = Ideal.div (∑ i : Fin 4096, hinge (rowsOf 0 x0 x2) (rowsOf 1 x0 x2) (rowsOf 2 x0 x2) i)
          (Ideal.ofBits .f32 0x45800000#32) := by
  rw [RefRead.val_main_v88_apply, RefRead.val_main_v87_apply, RefRead.val_main_cst_24_apply, RefRead.val_main_cst_25_apply,
    Ideal.hostDivf_def, Ideal.ofBits_def, Ideal.ofBits_zero_f32, zero_add, sum_idx1]
  refine congrArg (fun s => Ideal.div s _) (Finset.sum_congr rfl fun i _ => hinge_at x0 x2 i)

end Cert.ReferenceIdeal.RefSide

end
-- ==== Proof.HostSide.lean ====
/- The kernel program's host stretches at the exact instance, for ANY contents the two kernel regions leave
   (`outs`): what each region is handed, and the three results as shared host chains of the regions' outputs. -/
import proofs.«157248_j13683765805398_1_alg».proof.Proof.Gen.KernelIdeal.Regions
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Outs (F := Ideal))

/-! ## What region 0 is handed -/

/-- Row normalisation: the squares of `x`, summed along each row from zero, spread back over a column, their square
    root floored at ε, spread over the row, `x` divided by it, and the quotient converted to the narrow format. -/
def normalise (x : FVec Ideal S4096x512 .f32) : FVec Ideal S4096x512 .bf16 :=
  truncf .bf16
    (Host.divf (F := Ideal) x
      (broadcastInDim S4096x512 ![0, 1] bcast_S4096x1_S4096x512_0_1
        (maximumf
          (Host.sqrt (F := Ideal)
            (broadcastInDim S4096x1 ![0] bcast_S4096_S4096x1_0
              (Host.reduceAdd (F := Ideal) (mulf x x) (constant (F := Ideal) S_ .f32 0x00000000#32)
                reducesTo_S4096x512_S4096_d1 h_S_)))
          (broadcastInDim S4096x1 ![] bcast_S_S4096x1 (constant (F := Ideal) S_ .f32 0x322BCC77#32)))))
    bitsLt_bf16_f32

/-- Region 0's first operand is the row-normalised first argument. -/
theorem V1_main_v8 (c : Dev nD) :
    (V1 m c main_v8 : FVec Ideal S4096x512 .bf16) = normalise (m ((c : Thread nD τ).loc main_arg0)) := by
  dsimp only [V1]
  simp only [hostOps0]
  after_results
  rfl

/-- Region 0's second operand is the second argument laid out as one row. -/
theorem V1_main_v9 (c : Dev nD) :
    (V1 m c main_v9 : IVec S1x4096 32)
      = shapeCast S1x4096 (m ((c : Thread nD τ).loc main_arg1)) shapeCasts_S4096_S1x4096 := by
  dsimp only [V1]
  simp only [hostOps0]
  after_results
  rfl

/-! ## What region 1 is handed -/

/-- Each of the three index columns is a column of the index array. -/
theorem slices_col : ∀ k : Fin 3, S4096x3.Slices ![0, (k : ℕ)] S4096x1
  | 0 => slices_S4096x3_S4096x1_0_0
  | 1 => slices_S4096x3_S4096x1_0_1
  | 2 => slices_S4096x3_S4096x1_0_2

/-- The rows of `x` picked by column `k` of the index array: the column cut out and flattened, a negative index
    wrapped by the row count, the indices stood up as a column again, and the rows gathered. -/
def rowsOf (k : Fin 3) (x : FVec Ideal S4096x512 .f32) (idx : IVec S4096x3 32) : FVec Ideal S4096x512 .f32 :=
  Host.gather gather_S4096x512_S4096x1_S4096x512_1_0_n_n_0_1_1512 x
    (broadcastInDim S4096x1 ![0] bcast_S4096_S4096x1_0
      (select
        (cmpi .slt
          (shapeCast S4096 (extractStridedSlice S4096x1 ![0, (k : ℕ)] idx (slices_col k)) shapeCasts_S4096x1_S4096)
          (broadcastInDim S4096 ![] bcast_S_S4096 (constantI S_ 32 0#32)))
        (addi
          (shapeCast S4096 (extractStridedSlice S4096x1 ![0, (k : ℕ)] idx (slices_col k)) shapeCasts_S4096x1_S4096)
          (broadcastInDim S4096 ![] bcast_S_S4096 (constantI S_ 32 4096#32)))
        (shapeCast S4096 (extractStridedSlice S4096x1 ![0, (k : ℕ)] idx (slices_col k)) shapeCasts_S4096x1_S4096)))

/-- The last stretch before region 1, from any contents: the first gathered operand. -/
theorem after4_main_v44 (W : Valuation τ sig (Elt Ideal)) :
    (StableHlo.after hostOps1_4 W main_v44 : FVec Ideal S4096x512 .f32) = rowsOf 0 (W main_arg0) (W main_arg2) := by
  simp only [hostOps1_4]
  after_results_simp
  rfl

/-- The same stretch: the second gathered operand. -/
theorem after4_main_v51 (W : Valuation τ sig (Elt Ideal)) :
    (StableHlo.after hostOps1_4 W main_v51 : FVec Ideal S4096x512 .f32) = rowsOf 1 (W main_arg0) (W main_arg2) := by
  simp only [hostOps1_4]
  after_results_simp
  rfl

/-- The same stretch: the third gathered operand. -/
theorem after4_main_v58 (W : Valuation τ sig (Elt Ideal)) :
    (StableHlo.after hostOps1_4 W main_v58 : FVec Ideal S4096x512 .f32) = rowsOf 2 (W main_arg0) (W main_arg2) := by
  simp only [hostOps1_4]
  after_results_simp
  rfl

/-- The first argument is still the launch contents when the last stretch before region 1 starts: nothing before it
    writes an argument, and region 0 changes only its three outputs. -/
theorem V6_main_arg0 (c : Dev nD) : V6 m outs c main_arg0 = m ((c : Thread nD τ).loc main_arg0) :=
  (V6_of m outs c main_arg0 (by decide)).trans <| (V5_of m outs c main_arg0 (by decide)).trans <|
    (V4_of m outs c main_arg0 (by decide)).trans <| (V3_of m outs c main_arg0 (by decide)).trans <|
    (V2_of m outs c main_arg0 (by decide)).trans <| (V1_of m c main_arg0 (by decide)).trans rfl

/-- Likewise the third argument. -/
theorem V6_main_arg2 (c : Dev nD) : V6 m outs c main_arg2 = m ((c : Thread nD τ).loc main_arg2) :=
  (V6_of m outs c main_arg2 (by decide)).trans <| (V5_of m outs c main_arg2 (by decide)).trans <|
    (V4_of m outs c main_arg2 (by decide)).trans <| (V3_of m outs c main_arg2 (by decide)).trans <|
    (V2_of m outs c main_arg2 (by decide)).trans <| (V1_of m c main_arg2 (by decide)).trans rfl

/-- Region 1's first operand: the rows of the first argument picked by index column 0. -/
theorem V7_main_v44 (c : Dev nD) :
    (V7 m outs c main_v44 : FVec Ideal S4096x512 .f32)
      = rowsOf 0 (m ((c : Thread nD τ).loc main_arg0)) (m ((c : Thread nD τ).loc main_arg2)) :=
  (after4_main_v44 (V6 m outs c)).trans (by rw [V6_main_arg0, V6_main_arg2])

/-- Region 1's second operand: the rows picked by index column 1. -/
theorem V7_main_v51 (c : Dev nD) :
    (V7 m outs c main_v51 : FVec Ideal S4096x512 .f32)
      = rowsOf 1 (m ((c : Thread nD τ).loc main_arg0)) (m ((c : Thread nD τ).loc main_arg2)) :=
  (after4_main_v51 (V6 m outs c)).trans (by rw [V6_main_arg0, V6_main_arg2])

/-- Region 1's third operand: the rows picked by index column 2. -/
theorem V7_main_v58 (c : Dev nD) :
    (V7 m outs c main_v58 : FVec Ideal S4096x512 .f32)
      = rowsOf 2 (m ((c : Thread nD τ).loc main_arg0)) (m ((c : Thread nD τ).loc main_arg2)) :=
  (after4_main_v58 (V6 m outs c)).trans (by rw [V6_main_arg0, V6_main_arg2])

/-! ## The results -/

/-- The loss from the three per-row sums `p`, `t`, `n`: per row `-log (p / (t + ε) + ε)` where `n` is positive and
    zero elsewhere, summed over the rows and divided by the number of rows with `n` positive (at least one); zero
    when no row has `n` positive. -/
def lossTail (p t n : FVec Ideal S4096 .f32) : FVec Ideal S_ .f32 :=
  select
    (cmpi .sgt
      (Host.reduce IntOp.addi
        (extui 32
          (cmpf .ogt n (broadcastInDim S4096 ![] bcast_S_S4096 (constant (F := Ideal) S_ .f32 0x00000000#32)))
          natLt_1_32)
        (constantI S_ 32 0#32) reducesTo_S4096_S_d0 h_S_)
      (constantI S_ 32 0#32))
    (Host.divf (F := Ideal)
      (Host.reduceAdd (F := Ideal)
        (select
          (cmpf .ogt n (broadcastInDim S4096 ![] bcast_S_S4096 (constant (F := Ideal) S_ .f32 0x00000000#32)))
          (Host.negf (F := Ideal)
            (Host.log (F := Ideal)
              (addf
                (Host.divf (F := Ideal) p
                  (addf t (broadcastInDim S4096 ![] bcast_S_S4096 (constant (F := Ideal) S_ .f32 0x322BCC77#32))))
                (broadcastInDim S4096 ![] bcast_S_S4096 (constant (F := Ideal) S_ .f32 0x322BCC77#32)))))
          (broadcastInDim S4096 ![] bcast_S_S4096 (constant (F := Ideal) S_ .f32 0x00000000#32)))
        (constant (F := Ideal) S_ .f32 0x00000000#32) reducesTo_S4096_S_d0 h_S_)
      (sitofp (F := Ideal) .f32
        (maxsi
          (Host.reduce IntOp.addi
            (extui 32
              (cmpf .ogt n (broadcastInDim S4096 ![] bcast_S_S4096 (constant (F := Ideal) S_ .f32 0x00000000#32)))
              natLt_1_32)
            (constantI S_ 32 0#32) reducesTo_S4096_S_d0 h_S_)
          (constantI S_ 32 1#32))))
    (constant (F := Ideal) S_ .f32 0x00000000#32)

/-- The four stretches between the regions, from any contents: the loss of region 0's three outputs, each
    flattened to a vector. -/
theorem tail_main_v31 (W : Valuation τ sig (Elt Ideal)) :
    (StableHlo.after hostOps1_3 (StableHlo.after hostOps1_2 (StableHlo.after hostOps1_1 (StableHlo.after hostOps1 W)))
        main_v31 : FVec Ideal S_ .f32)
      = lossTail (shapeCast S4096 (W main_v10_0 : FVec Ideal S4096x1 .f32) shapeCasts_S4096x1_S4096)
          (shapeCast S4096 (W main_v10_1 : FVec Ideal S4096x1 .f32) shapeCasts_S4096x1_S4096)
          (shapeCast S4096 (W main_v10_2 : FVec Ideal S4096x1 .f32) shapeCasts_S4096x1_S4096) := by
  simp only [hostOps1_3, hostOps1_2, hostOps1_1, hostOps1]
  after_results_simp
  simp only [TRef.ofBuf, TRef.toBuf, cast_eq]
  rfl

/-- After region 0 its third output holds what the region left there. -/
theorem V2_main_v10_2 (c : Dev nD) : V2 m outs c main_v10_2 = outs 2 main_v10_2 c := by
  simp only [V2, Function.update_self]

/-- Likewise its second output: the later update is at another buffer. -/
theorem V2_main_v10_1 (c : Dev nD) : V2 m outs c main_v10_1 = outs 2 main_v10_1 c := by
  simp only [V2, Function.update_self,
    Function.update_of_ne (StableHlo.devRef_ne_of_ne (by decide) :
      (Proc.devRef .tc main_v10_1 : DevRef τ sig) ≠ Proc.devRef .tc main_v10_2)]

/-- Likewise its first output. -/
theorem V2_main_v10_0 (c : Dev nD) : V2 m outs c main_v10_0 = outs 2 main_v10_0 c := by
  simp only [V2, Function.update_self,
    Function.update_of_ne (StableHlo.devRef_ne_of_ne (by decide) :
      (Proc.devRef .tc main_v10_0 : DevRef τ sig) ≠ Proc.devRef .tc main_v10_2),
    Function.update_of_ne (StableHlo.devRef_ne_of_ne (by decide) :
      (Proc.devRef .tc main_v10_0 : DevRef τ sig) ≠ Proc.devRef .tc main_v10_1)]

/-- The first result: the loss of region 0's three outputs. Region 1 and the stretches around it do not write it. -/
theorem V9_main_v31 (c : Dev nD) :
    (V9 m outs c main_v31 : FVec Ideal S_ .f32)
      = lossTail (shapeCast S4096 (outs 2 main_v10_0 c : FVec Ideal S4096x1 .f32) shapeCasts_S4096x1_S4096)
          (shapeCast S4096 (outs 2 main_v10_1 c : FVec Ideal S4096x1 .f32) shapeCasts_S4096x1_S4096)
          (shapeCast S4096 (outs 2 main_v10_2 c : FVec Ideal S4096x1 .f32) shapeCasts_S4096x1_S4096) :=
  (V9_of m outs c main_v31 (by decide)).trans <| (V8_of m outs c main_v31 (by decide)).trans <|
    (V7_of m outs c main_v31 (by decide)).trans <| (tail_main_v31 (V2 m outs c)).trans
      (by rw [V2_main_v10_0, V2_main_v10_1, V2_main_v10_2])

/-- The weighted sum of the two losses: the first times the weight one plus the second times a fixed weight
    (the number the pattern `0x3E99999A` stands for, about three tenths). -/
def combine (a b : FVec Ideal S_ .f32) : FVec Ideal S_ .f32 :=
  addf (mulf (constant (F := Ideal) S_ .f32 0x3F800000#32) a) (mulf (constant (F := Ideal) S_ .f32 0x3E99999A#32) b)

/-- The closing stretch, from any contents: region 1's output as a scalar. -/
theorem after2_main_v60 (W : Valuation τ sig (Elt Ideal)) :
    (StableHlo.after hostOps2 W main_v60 : FVec Ideal S_ .f32)
      = shapeCast S_ (W main_v59 : FVec Ideal S1x1 .f32) shapeCasts_S1x1_S_ := by
  simp only [hostOps2]
  after_results_simp
  rfl

/-- The closing stretch, from any contents: the weighted sum of the first loss and region 1's output. -/
theorem after2_main_v63 (W : Valuation τ sig (Elt Ideal)) :
    (StableHlo.after hostOps2 W main_v63 : FVec Ideal S_ .f32)
      = combine (W main_v31) (shapeCast S_ (W main_v59 : FVec Ideal S1x1 .f32) shapeCasts_S1x1_S_) := by
  simp only [hostOps2]
  after_results_simp
  rfl

/-- After region 1 its output holds what the region left there. -/
theorem V8_main_v59 (c : Dev nD) : V8 m outs c main_v59 = outs 8 main_v59 c := by
  simp only [V8, Function.update_self]

/-- The second result: region 1's output as a scalar. -/
theorem V9_main_v60 (c : Dev nD) :
    (V9 m outs c main_v60 : FVec Ideal S_ .f32)
      = shapeCast S_ (outs 8 main_v59 c : FVec Ideal S1x1 .f32) shapeCasts_S1x1_S_ :=
  (after2_main_v60 (V8 m outs c)).trans (by rw [V8_main_v59])

/-- The third result: the weighted sum of the other two. -/
theorem V9_main_v63 (c : Dev nD) :
    (V9 m outs c main_v63 : FVec Ideal S_ .f32) = combine (V9 m outs c main_v31) (V9 m outs c main_v60) :=
  (after2_main_v63 (V8 m outs c)).trans
    (congrArg₂ combine (V9_of m outs c main_v31 (by decide)).symm (after2_main_v60 (V8 m outs c)).symm)

end Cert.KernelIdeal.HostSide

end
-- ==== Proof.Join.lean ====
/- The kernel program's four host chains are the specification's: the same operations over the same literal shapes,
   the kernel side's closing conversion to the narrow format the identity over the extended reals. -/
import proofs.«157248_j13683765805398_1_alg».proof.Proof.HostSide
import proofs.«157248_j13683765805398_1_alg».proof.Proof.Spec

noncomputable section

namespace Cert.KernelIdeal.Join

open Cert.KernelIdeal Idealize.ShloMosaic

/-- Row normalisation: the conversion to the narrow format changes nothing over the extended reals. -/
theorem normalise_eq (x : FVec Ideal S4096x512 .f32) :
    (HostSide.normalise x : FVec Ideal S4096x512 .f32) = Cert.Spec.normalise x := rfl

/-- The gathered rows. -/
theorem rowsOf_eq (k : Fin 3) (x : FVec Ideal S4096x512 .f32) (idx : IVec S4096x3 32) :
    HostSide.rowsOf k x idx = Cert.Spec.rowsOf k x idx := rfl

/-- The loss of the three row sums. -/
theorem lossTail_eq (p t n : FVec Ideal S4096 .f32) : HostSide.lossTail p t n = Cert.Spec.lossTail p t n := rfl

/-- The weighted sum of the two losses. -/
theorem combine_eq (a b : FVec Ideal S_ .f32) : HostSide.combine a b = Cert.Spec.combine a b := rfl

end Cert.KernelIdeal.Join

end
-- ==== Proof.PayVal.lean ====
/- The kernel bodies' arithmetic at the exact instance, read at an index: each tile sum of the similarity kernel and
   the triplet kernel's tile sum as plain sums over the extended reals of the loaded blocks' entries. -/
import proofs.«157248_j13683765805398_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Cert.KernelIdeal Cert.KernelIdeal.Gen Idealize.ShloMosaic Idealize.ShloMosaic.TcCoe Idealize.SL.Sem
open Idealize.ShloMosaic.ValueIdx
open scoped BigOperators

/-! ## The pair term: one entry of the exponentiated, scaled product tile -/

/-- Operand indices of the tile product, axis by axis: the left operand's row is the output's row … -/
theorem lhs_pair_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- … its column the contraction coordinate … -/
theorem lhs_pair_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- … the right operand's row the contraction coordinate … -/
theorem rhs_pair_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- … and its column the output's column. -/
theorem rhs_pair_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The 512×512 by 512×512 product into a zero accumulator, at entry (p, q): the sum over k of a[p,k] · b[k,q]. -/
theorem matmul_at (a b : FVec Ideal S512x512 .bf16) (p q : Fin 512) :
    matmul dot_S512x512_S512x512_S512x512_1_0_0_1_n_n none a b (constant (F := Ideal) S512x512 .f32 0x00000000#32) (ix2 p q)
      = ∑ k : Fin 512, a (ix2 p k) * b (ix2 k q) := by
  show FloatOps.matmul dot_S512x512_S512x512_S512x512_1_0_0_1_n_n none a b (constant (F := Ideal) S512x512 .f32 0x00000000#32) (ix2 p q) = _
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_pair_0 _ _
    | ⟨1, _⟩ => exact (lhs_pair_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_pair_0 _ _).trans hk
    | ⟨1, _⟩ => exact rhs_pair_1 _ _)
  rw [el, er]

/-- The pair term of rows p of the first block and q of the second: the exponential of the rows' inner product
    (over the 512 columns) times the named inverse temperature. -/
def pairTerm (v5 v8 : Vec Ideal S512x512 .bf16) (p q : Fin 512) : EReal :=
  Ideal.exp ((∑ k : Fin 512, (v5 (ix2 p k) : EReal) * (v8 (ix2 q k) : EReal))
    * Named.named (F := Ideal) κ "inv_temp" (φ := .f32) 0x41649249#32)

/-- The exponentiated tile at (p, q) is the pair term: the product is against the transpose of the second block,
    so row p of the first block meets row q of the second. -/
theorem k0_pay8_apply (v5 v8 : Vec Ideal S512x512 .bf16) (p q : Fin 512) :
    k0_pay8 v5 v8 (ix2 p q) = pairTerm v5 v8 p q := by
  unfold k0_pay8 pairTerm
  show Ideal.exp (matmul dot_S512x512_S512x512_S512x512_1_0_0_1_n_n none (shapeCast S512x512 v5 shapeCasts_S512x512_S512x512)
      (transpose S512x512 [1, 0] (shapeCast S512x512 v8 shapeCasts_S512x512_S512x512) transposes_S512x512_p1_0_S512x512)
      (constant (F := Ideal) S512x512 .f32 0x00000000#32) (ix2 p q)
      * Named.named (F := Ideal) κ "inv_temp" (φ := .f32) 0x41649249#32) = _
  rw [shapeCast_self, shapeCast_self, matmul_at]
  refine congrArg (fun x => Ideal.exp (x * Named.named (F := Ideal) κ "inv_temp" (φ := .f32) 0x41649249#32))
    (Finset.sum_congr rfl fun k _ => ?_)
  rw [transpose_ix2_apply]

/-! ## The mask: one entry of the "same label, different sample" tile -/

section
variable {α : Type}

/-- A column [a,1] broadcast over b columns reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end

/-- The one-bit word at (p, q): the label of row p equals the label of column q, and the global row number
    512·(i 0) + p differs from the global column number 512·(i 1) + q, as 32-bit words. -/
def maskBit (i : grid0.Coords) (v15 v19 : Vec Ideal S1x512 .i32) (p q : Fin 512) : BitVec 1 :=
  IntOp.andi (IntOp.cmpi .eq (v15 (ix2 (0 : Fin 1) p)) (v19 (ix2 (0 : Fin 1) q)))
    (IntOp.cmpi .ne (IntOp.addi (Scalar.muli (BitVec.ofNat 32 (i 0).val) 512#32) (BitVec.ofNat 32 p.val))
      (IntOp.addi (Scalar.muli (BitVec.ofNat 32 (i 1).val) 512#32) (BitVec.ofNat 32 q.val)))

/-- The mask term: that bit, zero-extended to a word and converted as a signed integer. -/
def maskTerm (i : grid0.Coords) (v15 v19 : Vec Ideal S1x512 .i32) (p q : Fin 512) : EReal :=
  FloatOps.sitofp (F := Ideal) .f32 ((maskBit i v15 v19 p q).setWidth 32)

/-- The mask tile at (p, q) is the mask term: the row labels are the first label block transposed to a column and
    broadcast along the rows, the column labels the second label block broadcast down the rows, the row and column
    numbers the two coordinates offset by the tile's origin. -/
theorem k0_pay7_apply (i : grid0.Coords) (v15 v19 : Vec Ideal S1x512 .i32) (p q : Fin 512) :
    k0_pay7 (F := Ideal) i v15 v19 (ix2 p q) = maskTerm i v15 v19 p q := by
  unfold k0_pay7 maskTerm maskBit
  show FloatOps.sitofp (F := Ideal) .f32 ((IntOp.andi
      (IntOp.cmpi .eq
        (broadcastTo S512x512 (transpose S512x1 [1, 0] (shapeCast S1x512 v15 shapeCasts_S1x512_S1x512)
          transposes_S1x512_p1_0_S512x1) broadcasts_S512x1_S512x512 (ix2 p q))
        (broadcastTo S512x512 (shapeCast S1x512 v19 shapeCasts_S1x512_S1x512) broadcasts_S1x512_S512x512 (ix2 p q)))
      (IntOp.cmpi .ne
        (IntOp.addi (Scalar.muli (BitVec.ofNat 32 (i 0).val) 512#32)
          (iota .tc S512x512 32 [0] iota_S512x512_d0_w32 (ix2 p q)))
        (IntOp.addi (Scalar.muli (BitVec.ofNat 32 (i 1).val) 512#32)
          (iota .tc S512x512 32 [1] iota_S512x512_d1_w32 (ix2 p q))))).setWidth 32) = _
  rw [shapeCast_self, shapeCast_self, broadcastTo_a1_ab_apply, transpose_ix2_apply, broadcastTo_1b_ab_apply,
    iota_single_apply, iota_single_apply]

/-! ## The three tile sums: each row of a tile summed over its 512 columns -/

section
variable {α : Type}

/-- A vector [a] cast to a column [a,1] reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end

/-- The sum along the rows of a 512×512 tile, at row p: the sum over the 512 columns q of the entry (p, q). -/
theorem rowSum_at (src : FVec Ideal S512x512 .f32) (h : S512x512.Reduces [1] S512) (hφ : FKind.Formats .f32)
    (hacc : (0x00000000#32 : BitVec 32) = 0x00000000#32) (p : Fin 512) :
    multiReduction .add [1] S512 src 0x00000000#32 h hφ hacc (ix1 p) = ∑ q : Fin 512, src (ix2 p q) := by
  refine (Ideal.multiReduction_add_single src 0x00000000#32 h hφ hacc (ix1 p)).trans ?_
  refine Finset.sum_congr rfl fun q _ => congrArg src ?_
  funext a
  match a with
  | ⟨0, _⟩ => exact Fin.ext rfl
  | ⟨1, _⟩ => exact Fin.ext rfl

/-- The masked tile sum at row p: the sum over the columns q of pair term times mask term. -/
theorem k0_pay9_apply (i : grid0.Coords) (v5 v8 : Vec Ideal S512x512 .bf16) (v15 v19 : Vec Ideal S1x512 .i32)
    (p : Fin 512) :
    k0_pay9 i v5 v8 v15 v19 (ix2 p (0 : Fin 1)) = ∑ q : Fin 512, pairTerm v5 v8 p q * maskTerm i v15 v19 p q := by
  unfold k0_pay9
  refine (shapeCast_a_a1_apply _ _ p 0).trans ?_
  refine (rowSum_at _ _ _ _ p).trans ?_
  refine Finset.sum_congr rfl fun q _ => ?_
  show k0_pay8 v5 v8 (ix2 p q) * k0_pay7 (F := Ideal) i v15 v19 (ix2 p q) = _
  rw [k0_pay8_apply, k0_pay7_apply]

/-- The unmasked tile sum at row p: the sum over the columns q of the pair term. -/
theorem k0_pay10_apply (v5 v8 : Vec Ideal S512x512 .bf16) (p : Fin 512) :
    k0_pay10 v5 v8 (ix2 p (0 : Fin 1)) = ∑ q : Fin 512, pairTerm v5 v8 p q := by
  unfold k0_pay10
  refine (shapeCast_a_a1_apply _ _ p 0).trans ?_
  refine (rowSum_at _ _ _ _ p).trans ?_
  exact Finset.sum_congr rfl fun q _ => k0_pay8_apply v5 v8 p q

/-- The mask count at row p: the sum over the columns q of the mask term. -/
theorem k0_pay11_apply (i : grid0.Coords) (v15 v19 : Vec Ideal S1x512 .i32) (p : Fin 512) :
    k0_pay11 (F := Ideal) i v15 v19 (ix2 p (0 : Fin 1)) = ∑ q : Fin 512, maskTerm i v15 v19 p q := by
  unfold k0_pay11
  refine (shapeCast_a_a1_apply _ _ p 0).trans ?_
  refine (rowSum_at _ _ _ _ p).trans ?_
  exact Finset.sum_congr rfl fun q _ => k0_pay7_apply i v15 v19 p q

/-! ## The accumulate steps and the zero fills of the similarity kernel -/

/-- The first accumulator's new value at row p: what it held plus the tile's sum there. -/
theorem k0_pay4_apply (t : FVec Ideal S512x1 .f32) (b : Vec Ideal S512x1 .f32) (p : Fin 512) :
    k0_pay4 t b (ix2 p (0 : Fin 1)) = (b (ix2 p (0 : Fin 1)) : EReal) + t (ix2 p (0 : Fin 1)) := by
  unfold k0_pay4
  show (shapeCast S512x1 b shapeCasts_S512x1_S512x1 (ix2 p (0 : Fin 1)) : EReal) + t (ix2 p (0 : Fin 1)) = _
  rw [shapeCast_self]

/-- The second accumulator's likewise. -/
theorem k0_pay5_apply (t : FVec Ideal S512x1 .f32) (b : Vec Ideal S512x1 .f32) (p : Fin 512) :
    k0_pay5 t b (ix2 p (0 : Fin 1)) = (b (ix2 p (0 : Fin 1)) : EReal) + t (ix2 p (0 : Fin 1)) := by
  unfold k0_pay5
  show (shapeCast S512x1 b shapeCasts_S512x1_S512x1 (ix2 p (0 : Fin 1)) : EReal) + t (ix2 p (0 : Fin 1)) = _
  rw [shapeCast_self]

/-- The third accumulator's likewise. -/
theorem k0_pay6_apply (t : FVec Ideal S512x1 .f32) (b : Vec Ideal S512x1 .f32) (p : Fin 512) :
    k0_pay6 t b (ix2 p (0 : Fin 1)) = (b (ix2 p (0 : Fin 1)) : EReal) + t (ix2 p (0 : Fin 1)) := by
  unfold k0_pay6
  show (shapeCast S512x1 b shapeCasts_S512x1_S512x1 (ix2 p (0 : Fin 1)) : EReal) + t (ix2 p (0 : Fin 1)) = _
  rw [shapeCast_self]

/-- The three zero fills read the zero word's value at every index. -/
theorem k0_pay1_apply (j : S512x1.Idx) : k0_pay1 (F := Ideal) j = Ideal.ofBits .f32 0x00000000#32 := rfl
theorem k0_pay2_apply (j : S512x1.Idx) : k0_pay2 (F := Ideal) j = Ideal.ofBits .f32 0x00000000#32 := rfl
theorem k0_pay3_apply (j : S512x1.Idx) : k0_pay3 (F := Ideal) j = Ideal.ofBits .f32 0x00000000#32 := rfl

/-! ## The triplet kernel: the tile's hinge sum, the final scaling, the zero fill -/

/-- The sum down the one column of a 512×1 vector: the sum over the 512 rows p of the entry (p, 0). -/
theorem colSum_at (src : FVec Ideal S512x1 .f32) (h : S512x1.Reduces [0] S1) (hφ : FKind.Formats .f32)
    (hacc : (0x00000000#32 : BitVec 32) = 0x00000000#32) (u : Fin 1) :
    multiReduction .add [0] S1 src 0x00000000#32 h hφ hacc (ix1 u) = ∑ p : Fin 512, src (ix2 p (0 : Fin 1)) := by
  refine (Ideal.multiReduction_add_single src 0x00000000#32 h hφ hacc (ix1 u)).trans ?_
  refine Finset.sum_congr rfl fun p _ => congrArg src ?_
  funext a
  match a with
  | ⟨0, _⟩ => exact Fin.ext rfl
  | ⟨1, _⟩ => exact Fin.ext (by show (u : ℕ) = 0; omega)

/-- The shifted squared distance of rows i of two blocks: the sum over the 512 columns k of
    (a[i,k] − b[i,k] + e)², e the small constant the kernel adds to each difference. -/
def sqDist (a b : Vec Ideal S512x512 .f32) (i : Fin 512) : EReal :=
  ∑ k : Fin 512, ((a (ix2 i k) : EReal) - b (ix2 i k) + Ideal.ofBits .f32 0x358637BD#32)
    * ((a (ix2 i k) : EReal) - b (ix2 i k) + Ideal.ofBits .f32 0x358637BD#32)

/-- The hinge term of row i: the anchor's distance to the positive minus its distance to the negative, plus the
    margin, cut off below at zero. -/
def hingeTerm (a p g : Vec Ideal S512x512 .f32) (i : Fin 512) : EReal :=
  max (Ideal.sqrt (sqDist a p i) - Ideal.sqrt (sqDist a g i) + Ideal.ofBits .f32 0x3F000000#32) 0

/-- The root of the row sums of the squared shifted differences, as a column, at row p. -/
theorem dist_at (a b : FVec Ideal S512x512 .f32) (h : S512x512.Reduces [1] S512) (hφ : FKind.Formats .f32)
    (hacc : (0x00000000#32 : BitVec 32) = 0x00000000#32) (hc : S512.ShapeCasts S512x1) (p : Fin 512) :
    sqrt (shapeCast S512x1 (multiReduction .add [1] S512
        (mulf (addf (subf a b) (broadcast S512x512 (Scalar.ofBits (F := Ideal) .f32 0x358637BD#32)))
          (addf (subf a b) (broadcast S512x512 (Scalar.ofBits (F := Ideal) .f32 0x358637BD#32))))
        0x00000000#32 h hφ hacc) hc) (ix2 p (0 : Fin 1)) = Ideal.sqrt (sqDist a b p) := by
  show Ideal.sqrt (shapeCast S512x1 (multiReduction .add [1] S512
        (mulf (addf (subf a b) (broadcast S512x512 (Scalar.ofBits (F := Ideal) .f32 0x358637BD#32)))
          (addf (subf a b) (broadcast S512x512 (Scalar.ofBits (F := Ideal) .f32 0x358637BD#32))))
        0x00000000#32 h hφ hacc) hc (ix2 p (0 : Fin 1))) = _
  rw [shapeCast_a_a1_apply, rowSum_at]
  rfl

/-- The triplet tile's new accumulator: what it held plus the sum over the tile's 512 rows of the hinge term. -/
theorem k1_pay3_apply (v3 v5 v7 : Vec Ideal S512x512 .f32) (v30 : Vec Ideal S1x1 .f32) :
    k1_pay3 v3 v5 v7 v30 (ix2 (0 : Fin 1) (0 : Fin 1))
      = (v30 (ix2 (0 : Fin 1) (0 : Fin 1)) : EReal) + ∑ p : Fin 512, hingeTerm v3 v5 v7 p := by
  unfold k1_pay3
  simp only [shapeCast_self]
  refine congrArg (fun x => (v30 (ix2 (0 : Fin 1) (0 : Fin 1)) : EReal) + x) ?_
  refine (shapeCast_a_1a_apply _ _ 0 0).trans ?_
  refine (colSum_at _ _ _ _ 0).trans ?_
  refine Finset.sum_congr rfl fun p _ => ?_
  simp only [maximumf_apply, addf_apply, subf_apply, broadcast_apply]
  rw [dist_at, dist_at]
  unfold hingeTerm
  rw [← Ideal.ofBits_zero_f32]
  rfl

/-- The final scaling: the accumulated sum times the constant 2⁻¹² (its word left as it is). -/
theorem k1_pay1_apply (v38 : Vec Ideal S1x1 .f32) :
    k1_pay1 v38 (ix2 (0 : Fin 1) (0 : Fin 1))
      = (v38 (ix2 (0 : Fin 1) (0 : Fin 1)) : EReal) * Ideal.ofBits .f32 0x39800000#32 := rfl

/-- The triplet accumulator's zero fill reads the zero word's value at every index. -/
theorem k1_pay2_apply (j : S1x1.Idx) : k1_pay2 (F := Ideal) j = Ideal.ofBits .f32 0x00000000#32 := by
  unfold k1_pay2
  rw [shapeCast_self]
  rfl

end Cert.KernelIdeal.PayVal

end
-- ==== Proof.MaskJoin.lean ====
/- The positive-pair mask in its two spellings. The kernel forms one bit — labels equal AND global row number ≠
   global column number — widens it to 32 bits and reads it as a signed integer; the reference multiplies the
   unsigned image of "labels equal" by one minus the unsigned image of "row number = column number". Both are the
   same function of the two Boolean tests, and the row and column numbers are the same 32-bit words on both sides
   (the tile's base 512·i plus the offset, added as words). -/
import Idealize.ShloMosaic.PureOps.Ideal
import Idealize.ShloMosaic.PureOps.Ideal.Laws

noncomputable section

namespace Cert.MaskJoin

open Idealize.ShloMosaic

/-- The word 0x3F800000 denotes 1. -/
theorem ofBits_one : Ideal.ofBits .f32 0x3F800000#32 = 1 := by
  simp [Ideal.ofBits, Ideal.ieee, -EReal.coe_mul]; norm_num

/-- The tile's base times 512 plus the offset, as words, is the word of the global number. -/
theorem global_word (i p : ℕ) :
    IntOp.addi (Scalar.muli (BitVec.ofNat 32 i) 512#32) (BitVec.ofNat 32 p) = IntOp.addi (BitVec.ofNat 32 (512 * i + p)) 0#32 := by
  simp only [IntOp.addi, Scalar.muli, IntOp.muli, BitVec.add_zero]
  rw [show (512#32 : BitVec 32) = BitVec.ofNat 32 512 from rfl, ← BitVec.ofNat_mul, ← BitVec.ofNat_add, Nat.mul_comm i 512]

theorem global_word' (i q : ℕ) :
    IntOp.addi (Scalar.muli (BitVec.ofNat 32 i) 512#32) (BitVec.ofNat 32 q) = BitVec.ofNat 32 (512 * i + q) := by
  rw [global_word]; simp only [IntOp.addi, BitVec.add_zero]

/-- The two spellings as functions of the two tests. -/
theorem mask_bools (e d : Bool) :
    FloatOps.sitofp (F := Ideal) .f32 ((IntOp.andi (BitVec.ofBool e) (BitVec.ofBool (!d))).setWidth 32)
      = FloatOps.uitofp (F := Ideal) .f32 (BitVec.ofBool e) * (Ideal.ofBits .f32 0x3F800000#32 - FloatOps.uitofp (F := Ideal) .f32 (BitVec.ofBool d)) := by
  rw [ofBits_one]
  have h11 : (1 : EReal) - 1 = 0 := by rw [← EReal.coe_one, ← EReal.coe_sub, sub_self, EReal.coe_zero]
  cases e <;> cases d <;>
    simp [FloatOps.sitofp, FloatOps.uitofp, IntOp.andi, BitVec.ofBool, h11]

/-- THE JOIN: for label words `la`, `lb`, tile numbers `i0`, `i1` and offsets `p`, `q`, the kernel's mask term is the
    reference's at the global row `512·i0 + p` and column `512·i1 + q`. -/
theorem mask_join (la lb : BitVec 32) (i0 i1 p q : ℕ) :
    FloatOps.sitofp (F := Ideal) .f32 ((IntOp.andi (IntOp.cmpi .eq la lb)
        (IntOp.cmpi .ne (IntOp.addi (Scalar.muli (BitVec.ofNat 32 i0) 512#32) (BitVec.ofNat 32 p))
          (IntOp.addi (Scalar.muli (BitVec.ofNat 32 i1) 512#32) (BitVec.ofNat 32 q)))).setWidth 32)
      = FloatOps.uitofp (F := Ideal) .f32 (IntOp.cmpi .eq la lb)
          * (Ideal.ofBits .f32 0x3F800000#32
              - FloatOps.uitofp (F := Ideal) .f32 (IntOp.cmpi .eq (IntOp.addi (BitVec.ofNat 32 (512 * i0 + p)) 0#32) (BitVec.ofNat 32 (512 * i1 + q)))) := by
  rw [global_word i0 p, global_word' i1 q]
  have hne : ∀ x y : BitVec 32, IntOp.cmpi .ne x y = BitVec.ofBool (!(x == y)) := fun x y => by
    simp only [IntOp.cmpi, bne]
  have heq : ∀ x y : BitVec 32, IntOp.cmpi .eq x y = BitVec.ofBool (x == y) := fun x y => rfl
  rw [hne, heq, heq]
  exact mask_bools _ _

end Cert.MaskJoin

end
-- ==== Proof.Consts.lean ====
/- The float literals whose exact values the two programs' agreement rests on, as the extended reals their words
   denote at the exact instance: the mean's divisor 4096 and the kernel's factor 2⁻¹², and the reference's
   temperature word, which is the dyadic rational 9395241 / 2²⁷. -/
import Idealize.ShloMosaic.PureOps.Ideal
import Idealize.ShloMosaic.PureOps.Ideal.Laws

noncomputable section

namespace Cert.Consts

open Idealize.ShloMosaic

/-- The word 0x45800000 denotes 4096. -/
theorem ofBits_4096 : Ideal.ofBits .f32 0x45800000#32 = ((4096 : ℝ) : EReal) := by
  simp [Ideal.ofBits, Ideal.ieee, -EReal.coe_mul]; norm_num

/-- The word 0x39800000 denotes 1 / 4096. -/
theorem ofBits_inv_4096 : Ideal.ofBits .f32 0x39800000#32 = ((1 / 4096 : ℝ) : EReal) := by
  simp [Ideal.ofBits, Ideal.ieee, -EReal.coe_mul]; norm_num

/-- The word 0x3D8F5C29 denotes 9395241 / 134217728. -/
theorem ofBits_temperature : Ideal.ofBits .f32 0x3D8F5C29#32 = ((9395241 / 134217728 : ℝ) : EReal) := by
  simp [Ideal.ofBits, Ideal.ieee, -EReal.coe_mul]; norm_num

/-- Dividing by the temperature is multiplying by its reciprocal 134217728 / 9395241, on every extended real. -/
theorem div_temperature (x : EReal) :
    Ideal.div x (Ideal.ofBits .f32 0x3D8F5C29#32) = x * ((134217728 / 9395241 : ℝ) : EReal) := by
  rw [ofBits_temperature, Ideal.div_coe (by norm_num : (9395241 / 134217728 : ℝ) ≠ 0)]
  congr 2; norm_num

/-- Multiplying by 2⁻¹² is dividing by 4096, on every extended real. -/
theorem mul_inv_4096 (x : EReal) :
    x * Ideal.ofBits .f32 0x39800000#32 = Ideal.div x (Ideal.ofBits .f32 0x45800000#32) := by
  rw [ofBits_inv_4096, ofBits_4096, Ideal.div_coe (by norm_num : (4096 : ℝ) ≠ 0)]

end Cert.Consts

end
-- ==== Proof.Tile0.lean ====
/- One grid point's three tile sums of the similarity kernel, read down to the shared pair and mask terms at the
   global row and column numbers of the table: point t of the 8 × 8 grid holds row tile t / 8 and column tile t % 8,
   so offset p of its rows is row 512·(t / 8) + p and offset q of its columns is row 512·(t % 8) + q. -/
import proofs.«157248_j13683765805398_1_alg».proof.Proof.Reg0
import proofs.«157248_j13683765805398_1_alg».proof.Proof.PayVal
import proofs.«157248_j13683765805398_1_alg».proof.Proof.Spec
import proofs.«157248_j13683765805398_1_alg».proof.Proof.MaskJoin
import proofs.«157248_j13683765805398_1_alg».proof.Proof.Consts
import Idealize.ShloMosaic.Lib.ValueIdx
import Idealize.ShloMosaic.PureOps.IdealRules

noncomputable section

namespace Cert.KernelIdeal.Tile0

open Cert.KernelIdeal Cert.KernelIdeal.Gen Idealize.ShloMosaic Idealize.ShloMosaic.TcCoe Idealize.SL.Sem
open Idealize.ShloMosaic.ValueIdx
open scoped BigOperators

-- the TensorCore's buffer contents when the region is entered
variable (V : (c : Dev nD) → (b : Ref sig .tc) → Buf (Elt Ideal) ((c : Thread nD τ).loc b))

/-- The grid has 64 points. -/
theorem lt_N (t : Fin cfg0.N) : t.val < 64 := lt_of_lt_of_eq t.isLt (show cfg0.N = 64 from N_0)

/-- The global row number of offset p in point t's row tile. -/
def rowOf (t : Fin cfg0.N) (p : Fin 512) : Fin 4096 :=
  ⟨512 * (t.val / 8) + p.val, by have := lt_N t; have := p.isLt; omega⟩

/-- The global column number of offset q in point t's column tile. -/
def colOf (t : Fin cfg0.N) (q : Fin 512) : Fin 4096 :=
  ⟨512 * (t.val % 8) + q.val, by have := q.isLt; omega⟩

/-! ## The two input blocks are the whole arrays, and the body's four loads their rows -/

/-- The two input windows' block index is zero on both axes at every point. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The table's block at any point is the table. -/
theorem tab_blk (c : Dev nD) (t : Fin cfg0.N) (x : S4096x512.Idx) :
    (Reg0.iblk0 V c 0 t : Vec Ideal S4096x512 .bf16) x = (V c main_v8 : Vec Ideal S4096x512 .bf16) x := by
  obtain ⟨e0, e1, -, -⟩ := idx_zero t
  show (V c main_v8 : Vec Ideal S4096x512 .bf16) (((cfg0.win 0).blk t).view.emb x) = _
  refine congrArg _ (funext fun a => Fin.ext ?_)
  match a with
  | ⟨0, _⟩ => show win0_0.index t (0 : Fin 2) * 4096 + 1 * (x 0).val = (x 0).val; rw [e0]; omega
  | ⟨1, _⟩ => show win0_0.index t (1 : Fin 2) * 512 + 1 * (x 1).val = (x 1).val; rw [e1]; omega

/-- The labels' block at any point is the label row. -/
theorem lab_blk (c : Dev nD) (t : Fin cfg0.N) (x : S1x4096.Idx) :
    (Reg0.iblk0 V c 1 t : Vec Ideal S1x4096 .i32) x = (V c main_v9 : Vec Ideal S1x4096 .i32) x := by
  obtain ⟨-, -, e0, e1⟩ := idx_zero t
  show (V c main_v9 : Vec Ideal S1x4096 .i32) (((cfg0.win 1).blk t).view.emb x) = _
  refine congrArg _ (funext fun a => Fin.ext ?_)
  match a with
  | ⟨0, _⟩ => show win0_1.index t (0 : Fin 2) * 1 + 1 * (x 0).val = (x 0).val; rw [e0]; omega
  | ⟨1, _⟩ => show win0_1.index t (1 : Fin 2) * 4096 + 1 * (x 1).val = (x 1).val; rw [e1]; omega

/-- The row tile's load at (p, k) is the table at (row p of the tile, k). -/
theorem tabRow_at (c : Dev nD) (t : Fin cfg0.N) (p k : Fin 512) :
    Reg0.ldTabRow (grid0.coords t) (Reg0.iblk0 V c 0 t) (ix2 p k)
      = (V c main_v8 : Vec Ideal S4096x512 .bf16) (ix2 (rowOf t p) k) := by
  show (Reg0.iblk0 V c 0 t : Vec Ideal S4096x512 .bf16)
      ((Rect.unit (s := S4096x512) (k0_off1 (grid0.coords t)) S512x512.size (k0_off1_inb _)).idx (ix2 p k)) = _
  rw [tab_blk]
  refine congrArg _ (funext fun a => Fin.ext ?_)
  match a with
  | ⟨0, _⟩ =>
    show k0_off1 (grid0.coords t) 0 + 1 * p.val = 512 * (t.val / 8) + p.val
    rw [k0_off1_eq]
    show 512 * ((grid0.coords t) 0).val + 1 * p.val = _
    rw [(Reg0.coords0 t).1]; omega
  | ⟨1, _⟩ =>
    show k0_off1 (grid0.coords t) 1 + 1 * k.val = k.val
    rw [k0_off1_eq]
    show 0 + 1 * k.val = _
    omega

/-- The column tile's load at (q, k) is the table at (row q of that tile, k). -/
theorem tabCol_at (c : Dev nD) (t : Fin cfg0.N) (q k : Fin 512) :
    Reg0.ldTabCol (grid0.coords t) (Reg0.iblk0 V c 0 t) (ix2 q k)
      = (V c main_v8 : Vec Ideal S4096x512 .bf16) (ix2 (colOf t q) k) := by
  show (Reg0.iblk0 V c 0 t : Vec Ideal S4096x512 .bf16)
      ((Rect.unit (s := S4096x512) (k0_off2 (grid0.coords t)) S512x512.size (k0_off2_inb _)).idx (ix2 q k)) = _
  rw [tab_blk]
  refine congrArg _ (funext fun a => Fin.ext ?_)
  match a with
  | ⟨0, _⟩ =>
    show k0_off2 (grid0.coords t) 0 + 1 * q.val = 512 * (t.val % 8) + q.val
    rw [k0_off2_eq]
    show 512 * ((grid0.coords t) 1).val + 1 * q.val = _
    rw [(Reg0.coords0 t).2]; omega
  | ⟨1, _⟩ =>
    show k0_off2 (grid0.coords t) 1 + 1 * k.val = k.val
    rw [k0_off2_eq]
    show 0 + 1 * k.val = _
    omega

/-- The row tile's labels at p are the label row at row p of the tile. -/
theorem labRow_at (c : Dev nD) (t : Fin cfg0.N) (p : Fin 512) :
    Reg0.ldLabRow (grid0.coords t) (Reg0.iblk0 V c 1 t) (ix2 (0 : Fin 1) p)
      = (V c main_v9 : Vec Ideal S1x4096 .i32) (ix2 (0 : Fin 1) (rowOf t p)) := by
  show (Reg0.iblk0 V c 1 t : Vec Ideal S1x4096 .i32)
      ((Rect.unit (s := S1x4096) (k0_off3 (grid0.coords t)) S1x512.size (k0_off3_inb _)).idx (ix2 (0 : Fin 1) p)) = _
  rw [lab_blk]
  refine congrArg _ (funext fun a => Fin.ext ?_)
  match a with
  | ⟨0, _⟩ =>
    show k0_off3 (grid0.coords t) 0 + 1 * 0 = 0
    rw [k0_off3_eq]
    rfl
  | ⟨1, _⟩ =>
    show k0_off3 (grid0.coords t) 1 + 1 * p.val = 512 * (t.val / 8) + p.val
    rw [k0_off3_eq]
    show 512 * ((grid0.coords t) 0).val + 1 * p.val = _
    rw [(Reg0.coords0 t).1]; omega

/-- The column tile's labels at q are the label row at row q of that tile. -/
theorem labCol_at (c : Dev nD) (t : Fin cfg0.N) (q : Fin 512) :
    Reg0.ldLabCol (grid0.coords t) (Reg0.iblk0 V c 1 t) (ix2 (0 : Fin 1) q)
      = (V c main_v9 : Vec Ideal S1x4096 .i32) (ix2 (0 : Fin 1) (colOf t q)) := by
  show (Reg0.iblk0 V c 1 t : Vec Ideal S1x4096 .i32)
      ((Rect.unit (s := S1x4096) (k0_off4 (grid0.coords t)) S1x512.size (k0_off4_inb _)).idx (ix2 (0 : Fin 1) q)) = _
  rw [lab_blk]
  refine congrArg _ (funext fun a => Fin.ext ?_)
  match a with
  | ⟨0, _⟩ =>
    show k0_off4 (grid0.coords t) 0 + 1 * 0 = 0
    rw [k0_off4_eq]
    rfl
  | ⟨1, _⟩ =>
    show k0_off4 (grid0.coords t) 1 + 1 * q.val = 512 * (t.val % 8) + q.val
    rw [k0_off4_eq]
    show 512 * ((grid0.coords t) 1).val + 1 * q.val = _
    rw [(Reg0.coords0 t).2]; omega

/-! ## The pair term and the mask term at global numbers -/

/-- The named inverse temperature is the rational the table of named constants gives it. -/
theorem inv_temp : Named.named (F := Ideal) κ "inv_temp" (φ := .f32) 0x41649249#32 = ((134217728 / 9395241 : ℝ) : EReal) :=
  IdealRules.named_const.ideal_named_scalar _ _ _ _ rfl

/-- The tile's pair term at offsets (p, q) is the shared pair term of the table's rows at the global numbers:
    multiplying by the inverse temperature is dividing by the temperature word. -/
theorem pair_at (c : Dev nD) (t : Fin cfg0.N) (p q : Fin 512) :
    PayVal.pairTerm (Reg0.ldTabRow (grid0.coords t) (Reg0.iblk0 V c 0 t)) (Reg0.ldTabCol (grid0.coords t) (Reg0.iblk0 V c 0 t)) p q
      = Cert.Spec.pairTerm (V c main_v8) (rowOf t p) (colOf t q) := by
  unfold PayVal.pairTerm Cert.Spec.pairTerm
  rw [inv_temp, Cert.Consts.div_temperature]
  refine congrArg (fun x => Ideal.exp (x * ((134217728 / 9395241 : ℝ) : EReal))) (Finset.sum_congr rfl fun k _ => ?_)
  rw [tabRow_at, tabCol_at]

/-- The tile's mask term at offsets (p, q) is the shared mask term of the labels at the global numbers. -/
theorem mask_at (c : Dev nD) (lab : IVec Cert.Spec.S4096 32)
    (hlab : ∀ j : Fin 4096, (V c main_v9 : IVec S1x4096 32) (ix2 (0 : Fin 1) j) = lab (ix1 j))
    (t : Fin cfg0.N) (p q : Fin 512) :
    PayVal.maskTerm (grid0.coords t) (Reg0.ldLabRow (grid0.coords t) (Reg0.iblk0 V c 1 t))
        (Reg0.ldLabCol (grid0.coords t) (Reg0.iblk0 V c 1 t)) p q
      = Cert.Spec.maskTerm lab (rowOf t p) (colOf t q) := by
  unfold PayVal.maskTerm PayVal.maskBit Cert.Spec.maskTerm
  rw [labRow_at, labCol_at, (Reg0.coords0 t).1, (Reg0.coords0 t).2]
  refine Eq.trans ?_ (Cert.MaskJoin.mask_join (lab (ix1 (rowOf t p))) (lab (ix1 (colOf t q))) (t.val / 8) (t.val % 8) p.val q.val)
  rw [← hlab (rowOf t p), ← hlab (colOf t q)]

/-! ## The three tile sums of a point -/

/-- The masked sum of point t at offset p: over the tile's columns, pair term times mask term at the global numbers. -/
theorem tile0_2_at (c : Dev nD) (lab : IVec Cert.Spec.S4096 32)
    (hlab : ∀ j : Fin 4096, (V c main_v9 : IVec S1x4096 32) (ix2 (0 : Fin 1) j) = lab (ix1 j))
    (t : Fin cfg0.N) (p : Fin 512) :
    Reg0.tile0_2 V c t (ix2 p (0 : Fin 1))
      = ∑ q : Fin 512, Cert.Spec.pairTerm (V c main_v8) (rowOf t p) (colOf t q) * Cert.Spec.maskTerm lab (rowOf t p) (colOf t q) := by
  unfold Reg0.tile0_2
  refine (PayVal.k0_pay9_apply _ _ _ _ _ p).trans ?_
  refine Finset.sum_congr rfl fun q _ => ?_
  rw [pair_at, mask_at V c lab hlab]

/-- The unmasked sum of point t at offset p: over the tile's columns, the pair term at the global numbers. -/
theorem tile0_3_at (c : Dev nD) (t : Fin cfg0.N) (p : Fin 512) :
    Reg0.tile0_3 V c t (ix2 p (0 : Fin 1)) = ∑ q : Fin 512, Cert.Spec.pairTerm (V c main_v8) (rowOf t p) (colOf t q) := by
  unfold Reg0.tile0_3
  refine (PayVal.k0_pay10_apply _ _ p).trans ?_
  exact Finset.sum_congr rfl fun q _ => pair_at V c t p q

/-- The mask count of point t at offset p: over the tile's columns, the mask term at the global numbers. -/
theorem tile0_4_at (c : Dev nD) (lab : IVec Cert.Spec.S4096 32)
    (hlab : ∀ j : Fin 4096, (V c main_v9 : IVec S1x4096 32) (ix2 (0 : Fin 1) j) = lab (ix1 j))
    (t : Fin cfg0.N) (p : Fin 512) :
    Reg0.tile0_4 V c t (ix2 p (0 : Fin 1)) = ∑ q : Fin 512, Cert.Spec.maskTerm lab (rowOf t p) (colOf t q) := by
  unfold Reg0.tile0_4
  refine (PayVal.k0_pay11_apply _ _ _ p).trans ?_
  exact Finset.sum_congr rfl fun q _ => mask_at V c lab hlab t p q

end Cert.KernelIdeal.Tile0

end
-- ==== Proof.LibTileSum.lean ====
/- Sums over a range cut into equal tiles: a sum over the first a·b naturals is the sum, over the a tiles, of each
   tile's b consecutive terms; and the same with the range sums written over `Fin`. General lemmas over any
   additive commutative monoid. -/
import Mathlib.Algebra.BigOperators.Fin
import Mathlib.Algebra.BigOperators.Intervals

namespace Cert.LibTileSum

open Finset

variable {β : Type*} [AddCommMonoid β]

/-- The first `a * b` terms, tile by tile: tile `s` holds the terms `b * s, …, b * s + (b - 1)`. -/
theorem sum_range_tiles (f : ℕ → β) (a b : ℕ) :
    ∑ s ∈ range a, ∑ q ∈ range b, f (b * s + q) = ∑ j ∈ range (a * b), f j := by
  induction a with
  | zero => simp
  | succ a ih =>
    rw [sum_range_succ, ih, Nat.succ_mul, sum_range_add, Nat.mul_comm a b]

/-- A sum over `Fin n` of a function of the index's value is the range sum. -/
theorem sum_fin_eq_range (f : ℕ → β) (n : ℕ) : ∑ i : Fin n, f i.val = ∑ i ∈ range n, f i :=
  (Finset.sum_range f).symm

/-- The tiled form over `Fin`: `a` tiles of `b` terms each. -/
theorem sum_fin_tiles (f : ℕ → β) (a b : ℕ) :
    ∑ s : Fin a, ∑ q : Fin b, f (b * s.val + q.val) = ∑ j : Fin (a * b), f j.val := by
  rw [sum_fin_eq_range f (a * b), ← sum_range_tiles f a b, ← sum_fin_eq_range (fun s => ∑ q ∈ range b, f (b * s + q)) a]
  exact Finset.sum_congr rfl fun s _ => sum_fin_eq_range (fun q => f (b * s.val + q)) b

end Cert.LibTileSum
-- ==== Proof.Val0.lean ====
/- What region 0 leaves in its three output arrays at the exact instance: row r of each holds the sum over all 4096
   columns of the pair term times the mask term, of the pair term, of the mask term. Along one row tile's eight
   points the block is reset to zero plus the first tile sum and then takes each later tile sum added; the last of
   the eight writes it back; the eight tiles of 512 columns are the 4096 columns in order. -/
import proofs.«157248_j13683765805398_1_alg».proof.Proof.Reg0
import proofs.«157248_j13683765805398_1_alg».proof.Proof.Tile0
import proofs.«157248_j13683765805398_1_alg».proof.Proof.PayVal
import proofs.«157248_j13683765805398_1_alg».proof.Proof.Spec
import proofs.«157248_j13683765805398_1_alg».proof.Proof.LibTileSum
import Idealize.ShloMosaic.Lib.Pipeline.Value
import Idealize.ShloMosaic.Lib.ValueIdx
import Idealize.ShloMosaic.PureOps.Ideal.Laws

noncomputable section

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## The fold along one row tile's eight points -/

/-- A block quantity that at the multiples of 8 is zero plus the point's term and at every other point is the point
    before's plus the point's term is, at the eighth point of row tile q, zero plus the eight points' terms
    (the terms past the grid, never met, taken as zero). -/
theorem fold_last (f T : (n : ℕ) → n < cfg0.N → Fin 512 → EReal)
    (h0 : ∀ (n : ℕ) (h : n < cfg0.N), n % 8 = 0 → f n h = fun p => (0 : EReal) + T n h p)
    (hs : ∀ (n : ℕ) (h : n + 1 < cfg0.N), ¬(n + 1) % 8 = 0 → f (n + 1) h = fun p => f n (Nat.lt_of_succ_lt h) p + T (n + 1) h p)
    (q : ℕ) (h : 8 * q + 7 < cfg0.N) (p : Fin 512) :
    f (8 * q + 7) h p = 0 + ∑ s ∈ Finset.range 8, (if h' : 8 * q + s < cfg0.N then T (8 * q + s) h' p else 0) := by
  rw [Pipeline.eq_accAt f 8 (fun n h p => (0 : EReal) + T n h p) (fun n h acc p => acc p + T n h p) h0 hs q 7 (by decide) h]
  exact Pipeline.accAt_add_apply (fun n h p => (0 : EReal) + T n h p) (fun n h acc p => acc p + T n h p) (fun _ => 0)
    (fun n p => if h' : n < cfg0.N then T n h' p else 0) (8 * q) 7
    (fun h i => by rw [dif_pos h]) (fun n h acc i _ _ => by rw [dif_pos h]) 7 (le_refl _) h p

/-- The eight tiles' sums are the row's sum: when the term of point n at offset p is the sum over the tile's 512
    columns of a term at the global row and column numbers, the eight points of row tile q add up, at offset p, to
    the sum over all 4096 columns at row 512 q + p. -/
theorem tiles_row (Tm : Fin 4096 → Fin 4096 → EReal) (T : (n : ℕ) → n < cfg0.N → Fin 512 → EReal)
    (rowOf colOf : Fin cfg0.N → Fin 512 → Fin 4096)
    (hrow : ∀ t p, (rowOf t p).val = 512 * (t.val / 8) + p.val) (hcol : ∀ t x, (colOf t x).val = 512 * (t.val % 8) + x.val)
    (hT : ∀ (n : ℕ) (h : n < cfg0.N) (p : Fin 512), T n h p = ∑ x : Fin 512, Tm (rowOf ⟨n, h⟩ p) (colOf ⟨n, h⟩ x))
    (q : ℕ) (hq : q < 8) (p : Fin 512) (r : Fin 4096) (hr : r.val = 512 * q + p.val) :
    ∑ s ∈ Finset.range 8, (if h' : 8 * q + s < cfg0.N then T (8 * q + s) h' p else 0) = ∑ j : Fin 4096, Tm r j := by
  have hN : cfg0.N = 64 := N_0
  have e1 : ∀ s ∈ Finset.range 8, (if h' : 8 * q + s < cfg0.N then T (8 * q + s) h' p else 0)
      = ∑ x ∈ Finset.range 512, (fun n : ℕ => if hn : n < 4096 then Tm r ⟨n, hn⟩ else 0) (512 * s + x) := by
    intro s hs
    have hs8 : s < 8 := Finset.mem_range.mp hs
    have hlt : 8 * q + s < cfg0.N := by omega
    rw [dif_pos hlt, hT, ← LibTileSum.sum_fin_eq_range (fun x => (fun n : ℕ => if hn : n < 4096 then Tm r ⟨n, hn⟩ else 0) (512 * s + x)) 512]
    refine Finset.sum_congr rfl fun x _ => ?_
    have hx : x.val < 512 := x.isLt
    have hc : 512 * s + x.val < 4096 := by omega
    refine Eq.trans ?_ (dif_pos hc).symm
    refine congrArg₂ Tm (Fin.ext ?_) (Fin.ext ?_)
    · rw [hrow, hr]; show 512 * ((8 * q + s) / 8) + p.val = 512 * q + p.val; omega
    · rw [hcol]; show 512 * ((8 * q + s) % 8) + x.val = 512 * s + x.val; omega
  rw [Finset.sum_congr rfl e1, LibTileSum.sum_range_tiles (fun n : ℕ => if hn : n < 4096 then Tm r ⟨n, hn⟩ else 0) 8 512,
    ← LibTileSum.sum_fin_eq_range (fun n : ℕ => if hn : n < 4096 then Tm r ⟨n, hn⟩ else 0) (8 * 512)]
  show ∑ j : Fin 4096, (if hn : j.val < 4096 then Tm r ⟨j.val, hn⟩ else 0) = _
  exact Finset.sum_congr rfl fun j _ => dif_pos j.isLt

/-! ## The blocks at the write-back points -/

/-- Window 2's block after the eighth point of row tile q, at offset p: the sum over all columns at row 512 q + p,
    when each point's tile sum is the sum over its 512 columns. -/
theorem block2 (c : Dev nD) (Tm : Fin 4096 → Fin 4096 → EReal) (rowOf colOf : Fin cfg0.N → Fin 512 → Fin 4096)
    (hrow : ∀ t p, (rowOf t p).val = 512 * (t.val / 8) + p.val) (hcol : ∀ t x, (colOf t x).val = 512 * (t.val % 8) + x.val)
    (htile : ∀ (t : Fin cfg0.N) (p : Fin 512), Reg0.tile0_2 V c t (ix2 p (0 : Fin 1)) = ∑ x : Fin 512, Tm (rowOf t p) (colOf t x))
    (q : ℕ) (h : 8 * q + 7 < cfg0.N) (p : Fin 512) (r : Fin 4096) (hr : r.val = 512 * q + p.val) :
    (Reg0.outsAt0 V c (8 * q + 7) h).1 (ix2 p (0 : Fin 1)) = ∑ j : Fin 4096, Tm r j := by
  have hN : cfg0.N = 64 := N_0
  refine (fold_last (fun n h p => (Reg0.outsAt0 V c n h).1 (ix2 p (0 : Fin 1)))
    (fun n h p => Reg0.tile0_2 V c ⟨n, h⟩ (ix2 p (0 : Fin 1))) ?_ ?_ q h p).trans ?_
  · intro n h hn; funext p
    show (Reg0.outsAt0 V c n h).1 (ix2 p (0 : Fin 1)) = 0 + Reg0.tile0_2 V c ⟨n, h⟩ (ix2 p (0 : Fin 1))
    rw [Reg0.outsAt0_reset_nat V c n h hn]
    show k0_pay4 (Reg0.tile0_2 V c ⟨n, h⟩) (k0_pay1 (F := Ideal)) (ix2 p (0 : Fin 1)) = _
    rw [PayVal.k0_pay4_apply, PayVal.k0_pay1_apply, Ideal.ofBits_zero_f32]
  · intro n h hn; funext p
    show (Reg0.outsAt0 V c (n + 1) h).1 (ix2 p (0 : Fin 1))
      = (Reg0.outsAt0 V c n (Nat.lt_of_succ_lt h)).1 (ix2 p (0 : Fin 1)) + Reg0.tile0_2 V c ⟨n + 1, h⟩ (ix2 p (0 : Fin 1))
    rw [Reg0.outsAt0_step_nat V c n h hn]
    show k0_pay4 (Reg0.tile0_2 V c ⟨n + 1, h⟩) (Reg0.outsAt0 V c n (Nat.lt_of_succ_lt h)).1 (ix2 p (0 : Fin 1)) = _
    rw [PayVal.k0_pay4_apply]
  · rw [zero_add]
    exact tiles_row Tm _ rowOf colOf hrow hcol (fun n h p => htile ⟨n, h⟩ p) q (by omega) p r hr

/-- Window 3's block after the eighth point of row tile q, at offset p: the sum over all columns at row 512 q + p,
    when each point's tile sum is the sum over its 512 columns. -/
theorem block3 (c : Dev nD) (Tm : Fin 4096 → Fin 4096 → EReal) (rowOf colOf : Fin cfg0.N → Fin 512 → Fin 4096)
    (hrow : ∀ t p, (rowOf t p).val = 512 * (t.val / 8) + p.val) (hcol : ∀ t x, (colOf t x).val = 512 * (t.val % 8) + x.val)
    (htile : ∀ (t : Fin cfg0.N) (p : Fin 512), Reg0.tile0_3 V c t (ix2 p (0 : Fin 1)) = ∑ x : Fin 512, Tm (rowOf t p) (colOf t x))
    (q : ℕ) (h : 8 * q + 7 < cfg0.N) (p : Fin 512) (r : Fin 4096) (hr : r.val = 512 * q + p.val) :
    (Reg0.outsAt0 V c (8 * q + 7) h).2.1 (ix2 p (0 : Fin 1)) = ∑ j : Fin 4096, Tm r j := by
  have hN : cfg0.N = 64 := N_0
  refine (fold_last (fun n h p => (Reg0.outsAt0 V c n h).2.1 (ix2 p (0 : Fin 1)))
    (fun n h p => Reg0.tile0_3 V c ⟨n, h⟩ (ix2 p (0 : Fin 1))) ?_ ?_ q h p).trans ?_
  · intro n h hn; funext p
    show (Reg0.outsAt0 V c n h).2.1 (ix2 p (0 : Fin 1)) = 0 + Reg0.tile0_3 V c ⟨n, h⟩ (ix2 p (0 : Fin 1))
    rw [Reg0.outsAt0_reset_nat V c n h hn]
    show k0_pay5 (Reg0.tile0_3 V c ⟨n, h⟩) (k0_pay2 (F := Ideal)) (ix2 p (0 : Fin 1)) = _
    rw [PayVal.k0_pay5_apply, PayVal.k0_pay2_apply, Ideal.ofBits_zero_f32]
  · intro n h hn; funext p
    show (Reg0.outsAt0 V c (n + 1) h).2.1 (ix2 p (0 : Fin 1))
      = (Reg0.outsAt0 V c n (Nat.lt_of_succ_lt h)).2.1 (ix2 p (0 : Fin 1)) + Reg0.tile0_3 V c ⟨n + 1, h⟩ (ix2 p (0 : Fin 1))
    rw [Reg0.outsAt0_step_nat V c n h hn]
    show k0_pay5 (Reg0.tile0_3 V c ⟨n + 1, h⟩) (Reg0.outsAt0 V c n (Nat.lt_of_succ_lt h)).2.1 (ix2 p (0 : Fin 1)) = _
    rw [PayVal.k0_pay5_apply]
  · rw [zero_add]
    exact tiles_row Tm _ rowOf colOf hrow hcol (fun n h p => htile ⟨n, h⟩ p) q (by omega) p r hr

/-- Window 4's block after the eighth point of row tile q, at offset p: the sum over all columns at row 512 q + p,
    when each point's tile sum is the sum over its 512 columns. -/
theorem block4 (c : Dev nD) (Tm : Fin 4096 → Fin 4096 → EReal) (rowOf colOf : Fin cfg0.N → Fin 512 → Fin 4096)
    (hrow : ∀ t p, (rowOf t p).val = 512 * (t.val / 8) + p.val) (hcol : ∀ t x, (colOf t x).val = 512 * (t.val % 8) + x.val)
    (htile : ∀ (t : Fin cfg0.N) (p : Fin 512), Reg0.tile0_4 V c t (ix2 p (0 : Fin 1)) = ∑ x : Fin 512, Tm (rowOf t p) (colOf t x))
    (q : ℕ) (h : 8 * q + 7 < cfg0.N) (p : Fin 512) (r : Fin 4096) (hr : r.val = 512 * q + p.val) :
    (Reg0.outsAt0 V c (8 * q + 7) h).2.2 (ix2 p (0 : Fin 1)) = ∑ j : Fin 4096, Tm r j := by
  have hN : cfg0.N = 64 := N_0
  refine (fold_last (fun n h p => (Reg0.outsAt0 V c n h).2.2 (ix2 p (0 : Fin 1)))
    (fun n h p => Reg0.tile0_4 V c ⟨n, h⟩ (ix2 p (0 : Fin 1))) ?_ ?_ q h p).trans ?_
  · intro n h hn; funext p
    show (Reg0.outsAt0 V c n h).2.2 (ix2 p (0 : Fin 1)) = 0 + Reg0.tile0_4 V c ⟨n, h⟩ (ix2 p (0 : Fin 1))
    rw [Reg0.outsAt0_reset_nat V c n h hn]
    show k0_pay6 (Reg0.tile0_4 V c ⟨n, h⟩) (k0_pay3 (F := Ideal)) (ix2 p (0 : Fin 1)) = _
    rw [PayVal.k0_pay6_apply, PayVal.k0_pay3_apply, Ideal.ofBits_zero_f32]
  · intro n h hn; funext p
    show (Reg0.outsAt0 V c (n + 1) h).2.2 (ix2 p (0 : Fin 1))
      = (Reg0.outsAt0 V c n (Nat.lt_of_succ_lt h)).2.2 (ix2 p (0 : Fin 1)) + Reg0.tile0_4 V c ⟨n + 1, h⟩ (ix2 p (0 : Fin 1))
    rw [Reg0.outsAt0_step_nat V c n h hn]
    show k0_pay6 (Reg0.tile0_4 V c ⟨n + 1, h⟩) (Reg0.outsAt0 V c n (Nat.lt_of_succ_lt h)).2.2 (ix2 p (0 : Fin 1)) = _
    rw [PayVal.k0_pay6_apply]
  · rw [zero_add]
    exact tiles_row Tm _ rowOf colOf hrow hcol (fun n h p => htile ⟨n, h⟩ p) q (by omega) p r hr

/-! ## From the blocks to the arrays -/

/-- The one-column array over the 4096 rows whose row r holds Fr r. -/
def rowFn (Fr : Fin 4096 → EReal) : S4096x1.Idx → EReal := fun i => Fr ⟨(i 0).val, (i 0).isLt⟩

/-- The three output windows' block index at point t: row tile t / 8 on the rows, zero on the one column. -/
theorem idx_out : ∀ t : Fin cfg0.N, win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- What a write-back point of window 2 writes is its block of the row function. -/
theorem flushed2_eq (c : Dev nD) (Fr : Fin 4096 → EReal)
    (hblock : ∀ (q : ℕ) (h : 8 * q + 7 < cfg0.N) (p : Fin 512) (r : Fin 4096), r.val = 512 * q + p.val →
      (Reg0.outsAt0 V c (8 * q + 7) h).1 (ix2 p (0 : Fin 1)) = Fr r)
    (t : Fin cfg0.N) (hf : (cfg0.win 2).flush t = true) :
    (Reg0.dat0 V c).flushed 2 t = ((cfg0.win 2).blk t).view.read (Elt Ideal) (rowFn Fr) := by
  have hN : cfg0.N = 64 := N_0
  have h7 : t.val % 8 = 7 := (flush0_2 t).mp hf
  obtain ⟨n, hn⟩ := t
  obtain ⟨q, rfl⟩ : ∃ q, n = 8 * q + 7 := ⟨n / 8, by dsimp only at h7; omega⟩
  show (cfg0.win 2).cut (grid0.coords ⟨8 * q + 7, hn⟩) ((Reg0.dat0 V c).after 2 ⟨8 * q + 7, hn⟩) = _
  rw [Reg0.after0_2]
  funext y
  obtain ⟨p, z, rfl⟩ : ∃ (p : Fin 512) (z : Fin 1), y = ix2 p z := ⟨y 0, y 1, eq_ix2 (n0 := 512) (n1 := 1) y⟩
  obtain rfl : z = 0 := Subsingleton.elim _ _
  have e0 := (idx_out ⟨8 * q + 7, hn⟩).1
  have hp : p.val < 512 := p.isLt
  have hr : 512 * q + p.val < 4096 := by omega
  show (Reg0.outsAt0 V c (8 * q + 7) hn).1 (ix2 p (0 : Fin 1))
    = rowFn Fr (((cfg0.win 2).blk ⟨8 * q + 7, hn⟩).view.emb (ix2 p (0 : Fin 1)))
  refine (hblock q hn p ⟨512 * q + p.val, hr⟩ rfl).trans ?_
  refine congrArg Fr (Fin.ext ?_)
  show 512 * q + p.val = win0_2.index ⟨8 * q + 7, hn⟩ (0 : Fin 2) * 512 + 1 * p.val
  rw [e0]; show 512 * q + p.val = (8 * q + 7) / 8 * 512 + 1 * p.val; omega

/-- An index of the array is in point t's block of window 2 iff each coordinate is in the block's range. -/
theorem mem_blk2 (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v10_0).slice (win0_2.rect t)).set ↔ _
  rw [View.set_slice_whole, Rect.mem_set_unit]
  exact Iff.rfl

/-- Row r of window 2's array lies in the block the eighth point of row tile r / 512 writes back. -/
theorem cover2 (i : S4096x1.Idx) : ∃ t : Fin cfg0.N, (cfg0.win 2).flush t = true ∧ i ∈ ((cfg0.win 2).blk t).view.set := by
  have hN : cfg0.N = 64 := N_0
  have hi0 : (i 0).val < 4096 := (i 0).isLt
  have hi1 : (i 1).val < 1 := (i 1).isLt
  have ht : 8 * ((i 0).val / 512) + 7 < cfg0.N := by omega
  have e0 := (idx_out ⟨8 * ((i 0).val / 512) + 7, ht⟩).1
  have e1 := (idx_out ⟨8 * ((i 0).val / 512) + 7, ht⟩).2.1
  refine ⟨⟨8 * ((i 0).val / 512) + 7, ht⟩, (flush0_2 _).mpr (by show (8 * ((i 0).val / 512) + 7) % 8 = 7; omega), ?_⟩
  rw [mem_blk2]
  intro a
  match a with
  | ⟨0, _⟩ =>
    show win0_2.index ⟨8 * ((i 0).val / 512) + 7, ht⟩ (0 : Fin 2) * 512 ≤ (i 0).val
      ∧ (i 0).val < win0_2.index ⟨8 * ((i 0).val / 512) + 7, ht⟩ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_2.index ⟨8 * ((i 0).val / 512) + 7, ht⟩ (1 : Fin 2) * 1 ≤ (i 1).val
      ∧ (i 1).val < win0_2.index ⟨8 * ((i 0).val / 512) + 7, ht⟩ (1 : Fin 2) * 1 + 1
    rw [e1]; omega

/-- What a write-back point of window 3 writes is its block of the row function. -/
theorem flushed3_eq (c : Dev nD) (Fr : Fin 4096 → EReal)
    (hblock : ∀ (q : ℕ) (h : 8 * q + 7 < cfg0.N) (p : Fin 512) (r : Fin 4096), r.val = 512 * q + p.val →
      (Reg0.outsAt0 V c (8 * q + 7) h).2.1 (ix2 p (0 : Fin 1)) = Fr r)
    (t : Fin cfg0.N) (hf : (cfg0.win 3).flush t = true) :
    (Reg0.dat0 V c).flushed 3 t = ((cfg0.win 3).blk t).view.read (Elt Ideal) (rowFn Fr) := by
  have hN : cfg0.N = 64 := N_0
  have h7 : t.val % 8 = 7 := (flush0_3 t).mp hf
  obtain ⟨n, hn⟩ := t
  obtain ⟨q, rfl⟩ : ∃ q, n = 8 * q + 7 := ⟨n / 8, by dsimp only at h7; omega⟩
  show (cfg0.win 3).cut (grid0.coords ⟨8 * q + 7, hn⟩) ((Reg0.dat0 V c).after 3 ⟨8 * q + 7, hn⟩) = _
  rw [Reg0.after0_3]
  funext y
  obtain ⟨p, z, rfl⟩ : ∃ (p : Fin 512) (z : Fin 1), y = ix2 p z := ⟨y 0, y 1, eq_ix2 (n0 := 512) (n1 := 1) y⟩
  obtain rfl : z = 0 := Subsingleton.elim _ _
  have e0 := (idx_out ⟨8 * q + 7, hn⟩).2.2.1
  have hp : p.val < 512 := p.isLt
  have hr : 512 * q + p.val < 4096 := by omega
  show (Reg0.outsAt0 V c (8 * q + 7) hn).2.1 (ix2 p (0 : Fin 1))
    = rowFn Fr (((cfg0.win 3).blk ⟨8 * q + 7, hn⟩).view.emb (ix2 p (0 : Fin 1)))
  refine (hblock q hn p ⟨512 * q + p.val, hr⟩ rfl).trans ?_
  refine congrArg Fr (Fin.ext ?_)
  show 512 * q + p.val = win0_3.index ⟨8 * q + 7, hn⟩ (0 : Fin 2) * 512 + 1 * p.val
  rw [e0]; show 512 * q + p.val = (8 * q + 7) / 8 * 512 + 1 * p.val; omega

/-- An index of the array is in point t's block of window 3 iff each coordinate is in the block's range. -/
theorem mem_blk3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v10_1).slice (win0_3.rect t)).set ↔ _
  rw [View.set_slice_whole, Rect.mem_set_unit]
  exact Iff.rfl

/-- Row r of window 3's array lies in the block the eighth point of row tile r / 512 writes back. -/
theorem cover3 (i : S4096x1.Idx) : ∃ t : Fin cfg0.N, (cfg0.win 3).flush t = true ∧ i ∈ ((cfg0.win 3).blk t).view.set := by
  have hN : cfg0.N = 64 := N_0
  have hi0 : (i 0).val < 4096 := (i 0).isLt
  have hi1 : (i 1).val < 1 := (i 1).isLt
  have ht : 8 * ((i 0).val / 512) + 7 < cfg0.N := by omega
  have e0 := (idx_out ⟨8 * ((i 0).val / 512) + 7, ht⟩).2.2.1
  have e1 := (idx_out ⟨8 * ((i 0).val / 512) + 7, ht⟩).2.2.2.1
  refine ⟨⟨8 * ((i 0).val / 512) + 7, ht⟩, (flush0_3 _).mpr (by show (8 * ((i 0).val / 512) + 7) % 8 = 7; omega), ?_⟩
  rw [mem_blk3]
  intro a
  match a with
  | ⟨0, _⟩ =>
    show win0_3.index ⟨8 * ((i 0).val / 512) + 7, ht⟩ (0 : Fin 2) * 512 ≤ (i 0).val
      ∧ (i 0).val < win0_3.index ⟨8 * ((i 0).val / 512) + 7, ht⟩ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_3.index ⟨8 * ((i 0).val / 512) + 7, ht⟩ (1 : Fin 2) * 1 ≤ (i 1).val
      ∧ (i 1).val < win0_3.index ⟨8 * ((i 0).val / 512) + 7, ht⟩ (1 : Fin 2) * 1 + 1
    rw [e1]; omega

/-- What a write-back point of window 4 writes is its block of the row function. -/
theorem flushed4_eq (c : Dev nD) (Fr : Fin 4096 → EReal)
    (hblock : ∀ (q : ℕ) (h : 8 * q + 7 < cfg0.N) (p : Fin 512) (r : Fin 4096), r.val = 512 * q + p.val →
      (Reg0.outsAt0 V c (8 * q + 7) h).2.2 (ix2 p (0 : Fin 1)) = Fr r)
    (t : Fin cfg0.N) (hf : (cfg0.win 4).flush t = true) :
    (Reg0.dat0 V c).flushed 4 t = ((cfg0.win 4).blk t).view.read (Elt Ideal) (rowFn Fr) := by
  have hN : cfg0.N = 64 := N_0
  have h7 : t.val % 8 = 7 := (flush0_4 t).mp hf
  obtain ⟨n, hn⟩ := t
  obtain ⟨q, rfl⟩ : ∃ q, n = 8 * q + 7 := ⟨n / 8, by dsimp only at h7; omega⟩
  show (cfg0.win 4).cut (grid0.coords ⟨8 * q + 7, hn⟩) ((Reg0.dat0 V c).after 4 ⟨8 * q + 7, hn⟩) = _
  rw [Reg0.after0_4]
  funext y
  obtain ⟨p, z, rfl⟩ : ∃ (p : Fin 512) (z : Fin 1), y = ix2 p z := ⟨y 0, y 1, eq_ix2 (n0 := 512) (n1 := 1) y⟩
  obtain rfl : z = 0 := Subsingleton.elim _ _
  have e0 := (idx_out ⟨8 * q + 7, hn⟩).2.2.2.2.1
  have hp : p.val < 512 := p.isLt
  have hr : 512 * q + p.val < 4096 := by omega
  show (Reg0.outsAt0 V c (8 * q + 7) hn).2.2 (ix2 p (0 : Fin 1))
    = rowFn Fr (((cfg0.win 4).blk ⟨8 * q + 7, hn⟩).view.emb (ix2 p (0 : Fin 1)))
  refine (hblock q hn p ⟨512 * q + p.val, hr⟩ rfl).trans ?_
  refine congrArg Fr (Fin.ext ?_)
  show 512 * q + p.val = win0_4.index ⟨8 * q + 7, hn⟩ (0 : Fin 2) * 512 + 1 * p.val
  rw [e0]; show 512 * q + p.val = (8 * q + 7) / 8 * 512 + 1 * p.val; omega

/-- An index of the array is in point t's block of window 4 iff each coordinate is in the block's range. -/
theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v10_2).slice (win0_4.rect t)).set ↔ _
  rw [View.set_slice_whole, Rect.mem_set_unit]
  exact Iff.rfl

/-- Row r of window 4's array lies in the block the eighth point of row tile r / 512 writes back. -/
theorem cover4 (i : S4096x1.Idx) : ∃ t : Fin cfg0.N, (cfg0.win 4).flush t = true ∧ i ∈ ((cfg0.win 4).blk t).view.set := by
  have hN : cfg0.N = 64 := N_0
  have hi0 : (i 0).val < 4096 := (i 0).isLt
  have hi1 : (i 1).val < 1 := (i 1).isLt
  have ht : 8 * ((i 0).val / 512) + 7 < cfg0.N := by omega
  have e0 := (idx_out ⟨8 * ((i 0).val / 512) + 7, ht⟩).2.2.2.2.1
  have e1 := (idx_out ⟨8 * ((i 0).val / 512) + 7, ht⟩).2.2.2.2.2
  refine ⟨⟨8 * ((i 0).val / 512) + 7, ht⟩, (flush0_4 _).mpr (by show (8 * ((i 0).val / 512) + 7) % 8 = 7; omega), ?_⟩
  rw [mem_blk4]
  intro a
  match a with
  | ⟨0, _⟩ =>
    show win0_4.index ⟨8 * ((i 0).val / 512) + 7, ht⟩ (0 : Fin 2) * 512 ≤ (i 0).val
      ∧ (i 0).val < win0_4.index ⟨8 * ((i 0).val / 512) + 7, ht⟩ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_4.index ⟨8 * ((i 0).val / 512) + 7, ht⟩ (1 : Fin 2) * 1 ≤ (i 1).val
      ∧ (i 1).val < win0_4.index ⟨8 * ((i 0).val / 512) + 7, ht⟩ (1 : Fin 2) * 1 + 1
    rw [e1]; omega

/-! ## The three arrays -/

/-- The masked sums: row r of the first output array is the sum over all columns of pair term times mask term. -/
theorem pos_at (c : Dev nD) (lab : IVec Cert.Spec.S4096 32)
    (hlab : ∀ j : Fin 4096, (V c main_v9 : IVec S1x4096 32) (ix2 (0 : Fin 1) j) = lab (ix1 j)) (r : Fin 4096) :
    ((Reg0.dat0 V c).arrAt 2 cfg0.N) (ix2 r (0 : Fin 1))
      = ∑ j : Fin 4096, Cert.Spec.pairTerm (V c main_v8) r j * Cert.Spec.maskTerm lab r j := by
  refine (congrFun ((Reg0.dat0 V c).arrAt_eq_of_cover 2
    (rowFn fun r => ∑ j : Fin 4096, Cert.Spec.pairTerm (V c main_v8) r j * Cert.Spec.maskTerm lab r j)
    (flushed2_eq V c _ fun q h p r hr =>
      block2 V c (fun r j => Cert.Spec.pairTerm (V c main_v8) r j * Cert.Spec.maskTerm lab r j) Tile0.rowOf Tile0.colOf
        (fun _ _ => rfl) (fun _ _ => rfl) (Tile0.tile0_2_at V c lab hlab) q h p r hr)
    cover2) (ix2 r (0 : Fin 1))).trans ?_
  rfl

/-- The full sums: row r of the second output array is the sum over all columns of the pair term. -/
theorem tot_at (c : Dev nD) (r : Fin 4096) :
    ((Reg0.dat0 V c).arrAt 3 cfg0.N) (ix2 r (0 : Fin 1)) = ∑ j : Fin 4096, Cert.Spec.pairTerm (V c main_v8) r j := by
  refine (congrFun ((Reg0.dat0 V c).arrAt_eq_of_cover 3
    (rowFn fun r => ∑ j : Fin 4096, Cert.Spec.pairTerm (V c main_v8) r j)
    (flushed3_eq V c _ fun q h p r hr =>
      block3 V c (fun r j => Cert.Spec.pairTerm (V c main_v8) r j) Tile0.rowOf Tile0.colOf
        (fun _ _ => rfl) (fun _ _ => rfl) (Tile0.tile0_3_at V c) q h p r hr)
    cover3) (ix2 r (0 : Fin 1))).trans ?_
  rfl

/-- The mask counts: row r of the third output array is the sum over all columns of the mask term. -/
theorem cnt_at (c : Dev nD) (lab : IVec Cert.Spec.S4096 32)
    (hlab : ∀ j : Fin 4096, (V c main_v9 : IVec S1x4096 32) (ix2 (0 : Fin 1) j) = lab (ix1 j)) (r : Fin 4096) :
    ((Reg0.dat0 V c).arrAt 4 cfg0.N) (ix2 r (0 : Fin 1)) = ∑ j : Fin 4096, Cert.Spec.maskTerm lab r j := by
  refine (congrFun ((Reg0.dat0 V c).arrAt_eq_of_cover 4
    (rowFn fun r => ∑ j : Fin 4096, Cert.Spec.maskTerm lab r j)
    (flushed4_eq V c _ fun q h p r hr =>
      block4 V c (fun r j => Cert.Spec.maskTerm lab r j) Tile0.rowOf Tile0.colOf
        (fun _ _ => rfl) (fun _ _ => rfl) (Tile0.tile0_4_at V c lab hlab) q h p r hr)
    cover4) (ix2 r (0 : Fin 1))).trans ?_
  rfl

end Cert.KernelIdeal.Val0

end
-- ==== Proof.Val1.lean ====
/- What region 1 (the triplet-margin kernel) leaves in its [1,1] output array at the exact instance: the sum, over the
   4096 rows of the three gathered tables, of the row's hinge, divided by 4096. Point s of the grid holds rows
   512·s … 512·s + 511; the scratch after point n holds the hinge sum of the rows below 512·(n + 1); the last point
   writes the scaled total back. -/
import proofs.«157248_j13683765805398_1_alg».proof.Proof.Reg1
import proofs.«157248_j13683765805398_1_alg».proof.Proof.PayVal
import proofs.«157248_j13683765805398_1_alg».proof.Proof.Spec
import proofs.«157248_j13683765805398_1_alg».proof.Proof.LibTileSum
import proofs.«157248_j13683765805398_1_alg».proof.Proof.Consts
import Idealize.ShloMosaic.Lib.ValueIdx
import Idealize.ShloMosaic.Lib.Pipeline.Value

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-- The grid has 8 points. -/
theorem lt_N (t : Fin cfg1.N) : t.val < 8 := lt_of_lt_of_eq t.isLt (show cfg1.N = 8 from N_1)

/-! ## A tile's hinge terms are the tables' hinges at the tile's rows -/

/-- If three 512-row blocks are the rows 512·s … 512·s + 511 of three 4096-row tables, the hinge term of the blocks' row r
    is the tables' hinge at row 512·s + r. -/
theorem hingeTerm_of_rows (a p g : Vec Ideal S512x512 .f32) (A P G : FVec Ideal Cert.Spec.S4096x512 .f32) (s : ℕ) (hs : s < 8)
    (ha : ∀ r k : Fin 512, a (ix2 r k) = A (ix2 (⟨512 * s + r.val, by have := r.isLt; omega⟩ : Fin 4096) k))
    (hp : ∀ r k : Fin 512, p (ix2 r k) = P (ix2 (⟨512 * s + r.val, by have := r.isLt; omega⟩ : Fin 4096) k))
    (hg : ∀ r k : Fin 512, g (ix2 r k) = G (ix2 (⟨512 * s + r.val, by have := r.isLt; omega⟩ : Fin 4096) k))
    (r : Fin 512) :
    PayVal.hingeTerm a p g r = Cert.Spec.hinge A P G (⟨512 * s + r.val, by have := r.isLt; omega⟩ : Fin 4096) := by
  unfold PayVal.hingeTerm Cert.Spec.hinge PayVal.sqDist Cert.Spec.sqDist
  simp only [ha, hp, hg]

/-! ## The three input blocks at a point are rows of the three tables -/

/-- The three input windows' block index at point t is (t, 0). -/
theorem idx_in : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The anchor, positive and negative blocks at point t, at their literal type. -/
abbrev ablk (c : Dev nD) (t : Fin cfg1.N) : Vec Ideal S512x512 .f32 := Reg1.iblk1 V c 0 t
abbrev pblk (c : Dev nD) (t : Fin cfg1.N) : Vec Ideal S512x512 .f32 := Reg1.iblk1 V c 1 t
abbrev gblk (c : Dev nD) (t : Fin cfg1.N) : Vec Ideal S512x512 .f32 := Reg1.iblk1 V c 2 t

/-- The anchor block at (r, k) is the anchor table at (512·t + r, k). -/
theorem ablk_at (c : Dev nD) (t : Fin cfg1.N) (r k : Fin 512) :
    ablk V c t (ix2 r k) = (V c main_v44 : Vec Ideal S4096x512 .f32) (ix2 (⟨512 * t.val + r.val, by have := lt_N t; have := r.isLt; omega⟩ : Fin 4096) k) := by
  obtain ⟨e0, e1, -, -, -, -⟩ := idx_in t
  show (V c main_v44 : Vec Ideal S4096x512 .f32) (((cfg1.win 0).blk t).view.emb (ix2 r k)) = _
  refine congrArg _ (funext fun a => Fin.ext ?_)
  match a with
  | ⟨0, _⟩ => show win1_0.index t (0 : Fin 2) * 512 + 1 * r.val = 512 * t.val + r.val; rw [e0]; omega
  | ⟨1, _⟩ => show win1_0.index t (1 : Fin 2) * 512 + 1 * k.val = k.val; rw [e1]; omega

/-- The positive block likewise. -/
theorem pblk_at (c : Dev nD) (t : Fin cfg1.N) (r k : Fin 512) :
    pblk V c t (ix2 r k) = (V c main_v51 : Vec Ideal S4096x512 .f32) (ix2 (⟨512 * t.val + r.val, by have := lt_N t; have := r.isLt; omega⟩ : Fin 4096) k) := by
  obtain ⟨-, -, e0, e1, -, -⟩ := idx_in t
  show (V c main_v51 : Vec Ideal S4096x512 .f32) (((cfg1.win 1).blk t).view.emb (ix2 r k)) = _
  refine congrArg _ (funext fun a => Fin.ext ?_)
  match a with
  | ⟨0, _⟩ => show win1_1.index t (0 : Fin 2) * 512 + 1 * r.val = 512 * t.val + r.val; rw [e0]; omega
  | ⟨1, _⟩ => show win1_1.index t (1 : Fin 2) * 512 + 1 * k.val = k.val; rw [e1]; omega

/-- The negative block likewise. -/
theorem gblk_at (c : Dev nD) (t : Fin cfg1.N) (r k : Fin 512) :
    gblk V c t (ix2 r k) = (V c main_v58 : Vec Ideal S4096x512 .f32) (ix2 (⟨512 * t.val + r.val, by have := lt_N t; have := r.isLt; omega⟩ : Fin 4096) k) := by
  obtain ⟨-, -, -, -, e0, e1⟩ := idx_in t
  show (V c main_v58 : Vec Ideal S4096x512 .f32) (((cfg1.win 2).blk t).view.emb (ix2 r k)) = _
  refine congrArg _ (funext fun a => Fin.ext ?_)
  match a with
  | ⟨0, _⟩ => show win1_2.index t (0 : Fin 2) * 512 + 1 * r.val = 512 * t.val + r.val; rw [e0]; omega
  | ⟨1, _⟩ => show win1_2.index t (1 : Fin 2) * 512 + 1 * k.val = k.val; rw [e1]; omega

/-! ## The scratch after point n: the hinge sum of the rows below 512·(n + 1) -/

/-- Row i's hinge of the three tables, as a function of every natural: zero past the tables. -/
def hingeN (c : Dev nD) (i : ℕ) : EReal :=
  if h : i < 4096 then Cert.Spec.hinge (V c main_v44) (V c main_v51) (V c main_v58) ⟨i, h⟩ else 0

/-- The hinge sum of point t's tile: the hinges of rows 512·t … 512·t + 511. -/
theorem tile_sum (c : Dev nD) (t : Fin cfg1.N) :
    ∑ r : Fin 512, PayVal.hingeTerm (ablk V c t) (pblk V c t) (gblk V c t) r = ∑ q ∈ Finset.range 512, hingeN V c (512 * t.val + q) := by
  rw [← Cert.LibTileSum.sum_fin_eq_range (fun q => hingeN V c (512 * t.val + q)) 512]
  refine Finset.sum_congr rfl fun r _ => ?_
  have hr : 512 * t.val + r.val < 4096 := by have := lt_N t; have := r.isLt; omega
  refine (hingeTerm_of_rows (ablk V c t) (pblk V c t) (gblk V c t) (V c main_v44) (V c main_v51) (V c main_v58) t.val (lt_N t)
    (ablk_at V c t) (pblk_at V c t) (gblk_at V c t) r).trans ?_
  unfold hingeN
  rw [dif_pos hr]

/-- The scratch's one entry after point n: the hinge sum of the tiles 0 … n. -/
theorem acc_sum (c : Dev nD) : ∀ (n : ℕ) (h : n < cfg1.N),
    Reg1.accAt1 V c n h (ix2 (0 : Fin 1) (0 : Fin 1)) = ∑ s ∈ Finset.range (n + 1), ∑ q ∈ Finset.range 512, hingeN V c (512 * s + q)
  | 0, h => by
    rw [(Reg1.accAt1_zero V c h : Reg1.accAt1 V c 0 h = k1_pay3 (ablk V c ⟨0, h⟩) (pblk V c ⟨0, h⟩) (gblk V c ⟨0, h⟩) (k1_pay2 (F := Ideal)))]
    refine (PayVal.k1_pay3_apply (ablk V c ⟨0, h⟩) (pblk V c ⟨0, h⟩) (gblk V c ⟨0, h⟩) (k1_pay2 (F := Ideal))).trans ?_
    rw [PayVal.k1_pay2_apply, Ideal.ofBits_zero_f32, zero_add, Finset.sum_range_one]
    exact tile_sum V c ⟨0, h⟩
  | n + 1, h => by
    rw [(Reg1.accAt1_succ V c n h : Reg1.accAt1 V c (n + 1) h = k1_pay3 (ablk V c ⟨n + 1, h⟩) (pblk V c ⟨n + 1, h⟩) (gblk V c ⟨n + 1, h⟩) (Reg1.accAt1 V c n (Nat.lt_of_succ_lt h)))]
    refine (PayVal.k1_pay3_apply (ablk V c ⟨n + 1, h⟩) (pblk V c ⟨n + 1, h⟩) (gblk V c ⟨n + 1, h⟩) (Reg1.accAt1 V c n (Nat.lt_of_succ_lt h))).trans ?_
    rw [acc_sum c n (Nat.lt_of_succ_lt h), Finset.sum_range_succ _ (n + 1)]
    exact congrArg _ (tile_sum V c ⟨n + 1, h⟩)

/-- After the last point: the hinge sum of all 4096 rows. -/
theorem acc_last (c : Dev nD) (h : 7 < cfg1.N) :
    Reg1.accAt1 V c 7 h (ix2 (0 : Fin 1) (0 : Fin 1)) = ∑ i : Fin 4096, Cert.Spec.hinge (V c main_v44) (V c main_v51) (V c main_v58) i := by
  refine (acc_sum V c 7 h).trans ?_
  refine (Cert.LibTileSum.sum_range_tiles (hingeN V c) 8 512).trans ?_
  refine (Cert.LibTileSum.sum_fin_eq_range (hingeN V c) (8 * 512)).symm.trans ?_
  refine Finset.sum_congr rfl fun i _ => ?_
  unfold hingeN
  exact dif_pos i.isLt

/-! ## The output array after the run -/

/-- The mean hinge of the three tables: what the output's one entry ends at. -/
def tripMean (c : Dev nD) : EReal :=
  Ideal.div (∑ i : Fin 4096, Cert.Spec.hinge (V c main_v44) (V c main_v51) (V c main_v58) i) (Ideal.ofBits .f32 0x45800000#32)

/-- A [1,1] index is (0, 0). -/
theorem idx11 (j : S1x1.Idx) : j = ix2 (0 : Fin 1) (0 : Fin 1) := by
  have h0 : (j 0).val < 1 := (j 0).isLt
  have h1 : (j 1).val < 1 := (j 1).isLt
  funext a
  match a with
  | ⟨0, _⟩ => exact Fin.ext (by show (j 0).val = 0; omega)
  | ⟨1, _⟩ => exact Fin.ext (by show (j 1).val = 0; omega)

/-- Two [1,1] blocks agree when they agree at (0, 0). -/
theorem ext11 {α : Type} {f g : S1x1.Idx → α} (h : f (ix2 (0 : Fin 1) (0 : Fin 1)) = g (ix2 (0 : Fin 1) (0 : Fin 1))) : f = g :=
  funext fun j => (congrArg f (idx11 j)).trans (h.trans (congrArg g (idx11 j)).symm)

/-- The output window's block index is (0, 0) at every point. -/
theorem idx_out : ∀ t : Fin cfg1.N, win1_3.index t (0 : Fin 2) = 0 ∧ win1_3.index t (1 : Fin 2) = 0 :=
  (by decide +kernel : ∀ t : Fin grid1.N, _)

/-- What the last point writes back is the one block of the constant array at the mean hinge. -/
theorem flushed_last (c : Dev nD) (t : Fin cfg1.N) (hf : (cfg1.win 3).flush t = true) :
    (Reg1.dat1 V c).flushed 3 t = ((cfg1.win 3).blk t).view.read (Elt Ideal) (fun _ => tripMean V c : Vec Ideal S1x1 .f32) := by
  have h7 : t.val = 7 := by have := (flush1_3 t).mp hf; have := lt_N t; omega
  obtain ⟨n, hn⟩ := t
  have h7' : n = 7 := h7
  subst h7'
  show (cfg1.win 3).cut (grid1.coords ⟨7, hn⟩) ((Reg1.dat1 V c).after 3 ⟨7, hn⟩) = _
  rw [Reg1.after1_3]
  refine ext11 ?_
  show k1_pay1 (Reg1.accAt1 V c 7 hn) (ix2 (0 : Fin 1) (0 : Fin 1)) = tripMean V c
  rw [PayVal.k1_pay1_apply, Cert.Consts.mul_inv_4096, acc_last V c hn]
  rfl

/-- An index of the output array is in point t's block iff each coordinate is in the block's range on its axis. -/
theorem mem_blk_out (t : Fin cfg1.N) (i : S1x1.Idx) :
    i ∈ ((cfg1.win 3).blk t).view.set ↔ ∀ a : Fin 2, win1_3.index t a * S1x1.size a ≤ (i a).val ∧ (i a).val < win1_3.index t a * S1x1.size a + S1x1.size a := by
  show i ∈ ((View.whole main_v59).slice (win1_3.rect t)).set ↔ _
  rw [View.set_slice_whole, Rect.mem_set_unit]
  exact Iff.rfl

/-- The last point's block is the whole output array. -/
theorem cover_out (i : S1x1.Idx) : ∃ t : Fin cfg1.N, (cfg1.win 3).flush t = true ∧ i ∈ ((cfg1.win 3).blk t).view.set := by
  refine ⟨t1_7, (flush1_3 t1_7).mpr rfl, ?_⟩
  obtain ⟨e0, e1⟩ := idx_out t1_7
  rw [mem_blk_out]
  intro a
  match a with
  | ⟨0, _⟩ =>
    show win1_3.index t1_7 (0 : Fin 2) * 1 ≤ (i 0).val ∧ (i 0).val < win1_3.index t1_7 (0 : Fin 2) * 1 + 1
    have h : (i 0).val < 1 := (i 0).isLt
    rw [e0]; omega
  | ⟨1, _⟩ =>
    show win1_3.index t1_7 (1 : Fin 2) * 1 ≤ (i 1).val ∧ (i 1).val < win1_3.index t1_7 (1 : Fin 2) * 1 + 1
    have h : (i 1).val < 1 := (i 1).isLt
    rw [e1]; omega

/-- THE OUTPUT: after the run, the output array's one entry is the sum of the 4096 rows' hinges divided by 4096. -/
theorem trip_at (c : Dev nD) :
    ((Reg1.dat1 V c).arrAt 3 cfg1.N) (ix2 (0 : Fin 1) (0 : Fin 1)) = Ideal.div (∑ i : Fin 4096, Cert.Spec.hinge (V c main_v44) (V c main_v51) (V c main_v58) i) (Ideal.ofBits .f32 0x45800000#32) :=
  congrFun ((Reg1.dat1 V c).arrAt_eq_of_cover 3 (fun _ => tripMean V c : Vec Ideal S1x1 .f32) (fun t hf => flushed_last V c t hf) cover_out) (ix2 (0 : Fin 1) (0 : Fin 1))

end Cert.KernelIdeal.Val1

end
-- ==== Proof.Bridge.lean ====
/- The two idealized programs compute the same three scalars. The kernel program's results are the shared host
   chains applied to what its two regions leave; region 0 leaves, row by row, the sums over all 4096 columns of the
   pair term exp(⟨n_r, n_j⟩ / D), of that term times the positive-pair mask, and of the mask, where n is the
   row-normalised table; region 1 leaves the mean over the 4096 triplets of the hinge of the two distances. The reference
   applies the same chains to the same sums. The kernel multiplies by the named reciprocal where the reference divides
   by D, and by 2⁻¹² where the reference divides by 4096; both pairs agree on every extended real. -/
import proofs.«157248_j13683765805398_1_alg».proof.Defs
import proofs.«157248_j13683765805398_1_alg».proof.Proof.Launch
import proofs.«157248_j13683765805398_1_alg».proof.Proof.HostSide
import proofs.«157248_j13683765805398_1_alg».proof.Proof.Join
import proofs.«157248_j13683765805398_1_alg».proof.Proof.Val0
import proofs.«157248_j13683765805398_1_alg».proof.Proof.Val1
import proofs.«157248_j13683765805398_1_alg».proof.Proof.RefSide
import proofs.«157248_j13683765805398_1_alg».proof.Proof.Spec
import Idealize.ShloMosaic.Lib.ValueIdx
import Idealize.ShloMosaic.Lib.ValueLayout
import Idealize.ShloMosaic.Lib.Pipeline.Value

noncomputable section

namespace Cert.KernelIdeal.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The three argument arrays on core `c`. -/
abbrev tab : FVec Ideal S4096x512 .f32 := m ((c : Thread nD τ).loc main_arg0)
abbrev lab : IVec S4096 32 := m ((c : Thread nD τ).loc main_arg1)
abbrev tri : IVec S4096x3 32 := m ((c : Thread nD τ).loc main_arg2)

/-! ## What region 0 is handed -/

/-- The table region 0 reads is the row-normalised argument table. -/
theorem tab_in : (Launch.E1 m c main_v8 : FVec Ideal S4096x512 .f32) = Cert.Spec.normalise (tab m c) :=
  (HostSide.V1_main_v8 m c).trans (Join.normalise_eq _)

/-- The labels region 0 reads, column j, are the argument labels at j. -/
theorem lab_in (j : Fin 4096) : (Launch.E1 m c main_v9 : IVec S1x4096 32) (ix2 (0 : Fin 1) j) = (lab m c) (ix1 j) := by
  show (V1 m c main_v9 : IVec S1x4096 32) (ix2 (0 : Fin 1) j) = _
  rw [HostSide.V1_main_v9 m c]
  exact shapeCast_a_1a_apply (a := 4096) (lab m c) shapeCasts_S4096_S1x4096 (0 : Fin 1) j

/-! ## What region 0 leaves is what the reference sums -/

/-- A [4096,1] array read as a [4096] one: entry r is entry (r, 0). -/
theorem col_at (v : FVec Ideal S4096x1 .f32) (r : Fin 4096) :
    shapeCast S4096 v shapeCasts_S4096x1_S4096 (ix1 r) = v (ix2 r (0 : Fin 1)) :=
  shapeCast_apply v shapeCasts_S4096x1_S4096 (ix1 r) (ix2 r (0 : Fin 1)) (by
    rw [Shape.rowMajor_val_two, Shape.rowMajor_val_one]
    show r.val * 1 + 0 = r.val
    omega)

theorem out0 (w : Fin cfg0.W) : (Launch.outs m 2 (Pipeline.arrRef spec0 w) c) = (Reg0.dat0 (Launch.E1 m) c).arrAt w cfg0.N :=
  (Launch.outs_two m _ c).trans (Launch.W2_arr m c w)

theorem pos_eq : shapeCast S4096 (Launch.outs m 2 main_v10_0 c : FVec Ideal S4096x1 .f32) shapeCasts_S4096x1_S4096
    = Cert.ReferenceIdeal.RefRead.val_main_v26 (F := Ideal) (tab m c) (lab m c) :=
  Cert.Spec.ext_rows fun r => by
    rw [col_at, Cert.ReferenceIdeal.RefSide.posSum_at]
    refine ((congrFun (out0 m c 2) (ix2 r (0 : Fin 1))).trans (Val0.pos_at (Launch.E1 m) c (lab m c) (lab_in m c) r)).trans ?_
    rw [tab_in]

theorem tot_eq : shapeCast S4096 (Launch.outs m 2 main_v10_1 c : FVec Ideal S4096x1 .f32) shapeCasts_S4096x1_S4096
    = Cert.ReferenceIdeal.RefRead.val_main_v27 (F := Ideal) (tab m c) :=
  Cert.Spec.ext_rows fun r => by
    rw [col_at, Cert.ReferenceIdeal.RefSide.totSum_at]
    refine ((congrFun (out0 m c 3) (ix2 r (0 : Fin 1))).trans (Val0.tot_at (Launch.E1 m) c r)).trans ?_
    rw [tab_in]

theorem cnt_eq : shapeCast S4096 (Launch.outs m 2 main_v10_2 c : FVec Ideal S4096x1 .f32) shapeCasts_S4096x1_S4096
    = Cert.ReferenceIdeal.RefRead.val_main_v35 (F := Ideal) (lab m c) :=
  Cert.Spec.ext_rows fun r => by
    rw [col_at, Cert.ReferenceIdeal.RefSide.maskSum_at]
    exact (congrFun (out0 m c 4) (ix2 r (0 : Fin 1))).trans (Val0.cnt_at (Launch.E1 m) c (lab m c) (lab_in m c) r)

/-! ## The contrastive loss -/

theorem loss_eq : (V9 m (Launch.outs m) c main_v31 : FVec Ideal S_ .f32) = Cert.ReferenceIdeal.RefRead.val_main_v46 (F := Ideal) (tab m c) (lab m c) := by
  rw [HostSide.V9_main_v31 m (Launch.outs m) c, pos_eq, tot_eq, cnt_eq, Join.lossTail_eq, Cert.ReferenceIdeal.RefSide.lossTail_eq]

/-! ## The triplet loss -/

/-- The three gathered arrays region 1 reads are the reference's. -/
theorem rows_in0 : (Launch.E7 m c main_v44 : FVec Ideal S4096x512 .f32) = Cert.Spec.rowsOf 0 (tab m c) (tri m c) :=
  (HostSide.V7_main_v44 m (Launch.outsA m) c).trans (Join.rowsOf_eq _ _ _)
theorem rows_in1 : (Launch.E7 m c main_v51 : FVec Ideal S4096x512 .f32) = Cert.Spec.rowsOf 1 (tab m c) (tri m c) :=
  (HostSide.V7_main_v51 m (Launch.outsA m) c).trans (Join.rowsOf_eq _ _ _)
theorem rows_in2 : (Launch.E7 m c main_v58 : FVec Ideal S4096x512 .f32) = Cert.Spec.rowsOf 2 (tab m c) (tri m c) :=
  (HostSide.V7_main_v58 m (Launch.outsA m) c).trans (Join.rowsOf_eq _ _ _)

theorem trip_eq : (V9 m (Launch.outs m) c main_v60 : FVec Ideal S_ .f32) = Cert.ReferenceIdeal.RefRead.val_main_v88 (F := Ideal) (tab m c) (tri m c) := by
  rw [HostSide.V9_main_v60 m (Launch.outs m) c]
  refine Cert.Spec.ext_scalar ?_
  rw [Cert.ReferenceIdeal.RefSide.tripletMean_at]
  refine (shapeCast_apply (Launch.outs m 8 main_v59 c : FVec Ideal S1x1 .f32) shapeCasts_S1x1_S_ ix0 (ix2 (0 : Fin 1) (0 : Fin 1)) (by
    show (S1x1.rowMajor (ix2 (0 : Fin 1) (0 : Fin 1))).val = (S_.rowMajor ix0).val
    have h1 := (S1x1.rowMajor (ix2 (0 : Fin 1) (0 : Fin 1))).isLt
    have h2 := (S_.rowMajor ix0).isLt
    have e1 : S1x1.numel = 1 := by decide
    have e2 : S_.numel = 1 := by decide
    omega)).trans ?_
  refine ((congrFun ((Launch.outs_eight m main_v59 c).trans (Launch.W8_arr m c 3)) (ix2 (0 : Fin 1) (0 : Fin 1))).trans (Val1.trip_at (Launch.E7 m) c)).trans ?_
  rw [rows_in0, rows_in1, rows_in2]

/-! ## The total -/

theorem total_eq : (V9 m (Launch.outs m) c main_v63 : FVec Ideal S_ .f32) = Cert.ReferenceIdeal.RefRead.val_main_v91 (F := Ideal) (tab m c) (lab m c) (tri m c) := by
  rw [HostSide.V9_main_v63 m (Launch.outs m) c, loss_eq, trip_eq, Join.combine_eq, Cert.ReferenceIdeal.RefSide.combine_eq]

end Cert.KernelIdeal.Bridge

end
-- ==== Proof.lean ====
/- The certificate of the hybrid place-recognition loss: a multi-positive contrastive loss over the pairwise cosine
   similarities of 4096 row-normalised embeddings at temperature D, plus a margin loss over 4096 triplets.

   The kernel program tiles the 4096 × 4096 similarity matrix in 512 × 512 tiles on an 8 × 8 grid and keeps, per row,
   three running sums over the column tiles (the pair term exp(⟨n_r, n_j⟩ · 1/D), that term times the positive-pair mask,
   and the mask); a second kernel accumulates the triplet hinge over 8 row tiles in a one-word scratch and writes the
   sum times 2⁻¹². The reference forms the whole matrix, sums each row once, and takes the triplet mean over 4096.

   The frames: each kernel region's proof data (what every output block, and the scratch, hold after every grid point)
   with its body obligation, placed between the host stretches; the arguments are never written. The idealization names
   one constant, the kernel's factor 1/D, as the exact reciprocal of the reference's temperature word. The value claim:
   both programs apply the same host chains to the same row sums and the same mean — a sum over 4096 columns is the sum
   over 8 tiles of 512, x · (1/D) is x / D and x · 2⁻¹² is x / 4096 on every extended real, and the two spellings of
   the mask are one function of the two tests. No property of the inputs is used. -/
import proofs.«157248_j13683765805398_1_alg».proof.Defs
import proofs.«157248_j13683765805398_1_alg».proof.Proof.Gen.Kernel
import proofs.«157248_j13683765805398_1_alg».proof.Proof.Gen.KernelIdeal
import proofs.«157248_j13683765805398_1_alg».proof.Proof.Gen.ReferenceIdeal
import proofs.«157248_j13683765805398_1_alg».proof.Proof.Gen.Pre_finite_inputs
import proofs.«157248_j13683765805398_1_alg».proof.Proof.KLaunch
import proofs.«157248_j13683765805398_1_alg».proof.Proof.Launch
import proofs.«157248_j13683765805398_1_alg».proof.Proof.RefSide
import proofs.«157248_j13683765805398_1_alg».proof.Proof.Bridge
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs to the end, nothing faulting, its arguments as launched. -/
theorem frame_k : Cert.frame_Kernel := fun m ρ _ => Cert.Kernel.Launch.frame (F := Bits) m ρ

/-- So does the idealized kernel program. -/
theorem frame_ki : Cert.frame_KernelIdeal := fun m ρ _ => Cert.KernelIdeal.Launch.frame (F := Ideal) m ρ

/-- And the idealized reference: its run with the results dropped. -/
theorem frame_ri : Cert.frame_ReferenceIdeal := fun m ρ _ =>
  (θ_run Cert.ReferenceIdeal.defs _ _).mono (fun _ h c => (h c).2.2.2) (Cert.ReferenceIdeal.RefSide.run m ρ)

/-- The one named constant: the kernel's factor denotes the exact reciprocal 134217728 / 9395241 of the temperature word. -/
theorem preserves : Cert.preserves_Kernel_KernelIdeal :=
  IdealRules.named_const.statement Cert.KernelIdeal.κ "inv_temp" .f32 0x41649249#32 ((134217728 / 9395241 : ℝ) : EReal) rfl

/-- From memories agreeing on the arguments both idealized programs end with the same three scalars. -/
theorem algebraic : Cert.algebraic_KernelIdeal_ReferenceIdeal := by
  intro m ρ m' ρ' _ hagree
  refine ⟨fun c => Cert.KernelIdeal.Gen.V9 m (Cert.KernelIdeal.Launch.outs m) c Cert.KernelIdeal.main_v63,
    fun c => Cert.KernelIdeal.Gen.V9 m (Cert.KernelIdeal.Launch.outs m) c Cert.KernelIdeal.main_v31,
    fun c => Cert.KernelIdeal.Gen.V9 m (Cert.KernelIdeal.Launch.outs m) c Cert.KernelIdeal.main_v60,
    Cert.KernelIdeal.Launch.run (F := Ideal) m ρ, ?_⟩
  refine (θ_run Cert.ReferenceIdeal.defs _ _).mono (fun _ h c => ?_) (Cert.ReferenceIdeal.RefSide.run m' ρ')
  obtain ⟨h1, h2, h3, h4, h5, h6⟩ := h c
  obtain ⟨e0, e1, e2⟩ := hagree c
  refine ⟨h1.trans ?_, h2.trans ?_, h3.trans ?_, h4, h5, h6⟩
  · rw [e0, e1, e2]; exact (Cert.KernelIdeal.Bridge.total_eq m c).symm
  · rw [e0, e1]; exact (Cert.KernelIdeal.Bridge.loss_eq m c).symm
  · rw [e0, e2]; exact (Cert.KernelIdeal.Bridge.trip_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
